-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x128 : Shape := ⟨2, ![128, 128]⟩
abbrev S3x128x128 : Shape := ⟨3, ![3, 128, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S3x128x128 : S_.BroadcastsInDim S3x128x128 (![] : Fin 0 → Fin S3x128x128.rank)
  reducesTo_S3x128x128_S_d0_1_2 : S3x128x128.ReducesTo [0, 1, 2] S_

variable [Facts]

def fn {F : FTy → Type} [FloatOps F] (main_arg0 : FVec F S50000x128 .f32) (main_arg1 : IVec S800000 32) (main_arg2 : IVec S800000 32) (main_arg3 : FVec F S128x128 .f32) (main_arg4 : FVec F S3x128x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S3x128x128 .f32 := Host.absf main_arg4
  let main_cst_2 : FVec F S_ .f32 := constant S_ .f32 0x7F800000#32
  let main_v10 : FVec F S3x128x128 .f32 := broadcastInDim S3x128x128 ![] bcast_S_S3x128x128 main_cst_2
  let main_v11 : IVec S3x128x128 1 := cmpf .olt main_v9 main_v10
  let main_c_3 : IVec S_ 1 := constantI S_ 1 1#1
  let main_v12 : IVec S_ 1 := (fun x v => Host.reduce IntOp.andi x v reducesTo_S3x128x128_S_d0_1_2 h_S_) main_v11 main_c_3
  let main_v13 : IVec S_ 1 := andi main_v8 main_v12
  main_v13
-- ==== Kernel.lean ====
abbrev S50000x128 : Shape := ⟨2, ![50000, 128]⟩
abbrev S800000 : Shape := ⟨1, ![800000]⟩
abbrev S128x128 : Shape := ⟨2, ![128, 128]⟩
abbrev S3x128x128 : Shape := ⟨3, ![3, 128, 128]⟩
abbrev S5000x128 : Shape := ⟨2, ![5000, 128]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S1x128x128 : Shape := ⟨3, ![1, 128, 128]⟩
abbrev S50000x512 : Shape := ⟨2, ![50000, 512]⟩

abbrev nBuf : Space → Nat
  | .hbm => 76
  | .vmem => 20
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S3x128x128, .f32⟩
  | .hbm, ⟨5, _⟩ => ⟨S50000x128, .f32⟩
  | .hbm, ⟨6, _⟩ => ⟨S_, .f32⟩
  | .hbm, ⟨7, _⟩ => ⟨S800000, .f32⟩
  | .hbm, ⟨8, _⟩ => ⟨S_, .f32⟩
  | .hbm, ⟨9, _⟩ => ⟨S50000, .f32⟩
  | .hbm, ⟨10, _⟩ => ⟨S800000x1, .i32⟩
  | .hbm, ⟨11, _⟩ => ⟨S50000, .f32⟩
  | .hbm, ⟨12, _⟩ => ⟨S_, .f32⟩
  | .hbm, ⟨13, _⟩ => ⟨S50000, .f32⟩
  | .hbm, ⟨14, _⟩ => ⟨S50000, .f32⟩
  | .hbm, ⟨15, _⟩ => ⟨S_, .f32⟩
  | .hbm, ⟨16, _⟩ => ⟨S50000, .f32⟩
  | .hbm, ⟨17, _⟩ => ⟨S50000, .f32⟩
  | .hbm, ⟨18, _⟩ => ⟨S_, .i32⟩
  | .hbm, ⟨19, _⟩ => ⟨S800000, .i32⟩
  | .hbm, ⟨20, _⟩ => ⟨S800000, .i1⟩
  | .hbm, ⟨21, _⟩ => ⟨S_, .i32⟩
  | .hbm, ⟨22, _⟩ => ⟨S800000, .i32⟩
  | .hbm, ⟨23, _⟩ => ⟨S800000, .i32⟩
  | .hbm, ⟨24, _⟩ => ⟨S800000, .i32⟩
  | .hbm, ⟨25, _⟩ => ⟨S800000x1, .i32⟩
  | .hbm, ⟨26, _⟩ => ⟨S800000x128, .f32⟩
  | .hbm, ⟨27, _⟩ => ⟨S_, .f32⟩
  | .hbm, ⟨28, _⟩ => ⟨S50000x128, .f32⟩
  | .hbm, ⟨29, _⟩ => ⟨S800000x1, .i32⟩
  | .hbm, ⟨30, _⟩ => ⟨S50000x128, .f32⟩
  | .hbm, ⟨31, _⟩ => ⟨S50000x1, .f32⟩
  | .hbm, ⟨32, _⟩ => ⟨S50000x128, .f32⟩
  | .hbm, ⟨33, _⟩ => ⟨S50000x128, .f32⟩
  | .hbm, ⟨34, _⟩ => ⟨S1x128x128, .f32⟩
  | .hbm, ⟨35, _⟩ => ⟨S128x128, .f32⟩
  | .hbm, ⟨36, _⟩ => ⟨S50000x128, .f32⟩
  | .hbm, ⟨37, _⟩ => ⟨S_, .i32⟩
  | .hbm, ⟨38, _⟩ => ⟨S800000, .i32⟩
  | .hbm, ⟨39, _⟩ => ⟨S800000, .i1⟩
  | .hbm, ⟨40, _⟩ => ⟨S_, .i32⟩
  | .hbm, ⟨41, _⟩ => ⟨S800000, .i32⟩
  | .hbm, ⟨42, _⟩ => ⟨S800000, .i32⟩
  | .hbm, ⟨43, _⟩ => ⟨S800000, .i32⟩
  | .hbm, ⟨44, _⟩ => ⟨S800000x1, .i32⟩
  | .hbm, ⟨45, _⟩ => ⟨S800000x128, .f32⟩
  | .hbm, ⟨46, _⟩ => ⟨S_, .f32⟩
  | .hbm, ⟨47, _⟩ => ⟨S50000x128, .f32⟩
  | .hbm, ⟨48, _⟩ => ⟨S800000x1, .i32⟩
  | .hbm, ⟨49, _⟩ => ⟨S50000x128, .f32⟩
  | .hbm, ⟨50, _⟩ => ⟨S50000x1, .f32⟩
  | .hbm, ⟨51, _⟩ => ⟨S50000x128, .f32⟩
  | .hbm, ⟨52, _⟩ => ⟨S50000x128, .f32⟩
  | .hbm, ⟨53, _⟩ => ⟨S1x128x128, .f32⟩
  | .hbm, ⟨54, _⟩ => ⟨S128x128, .f32⟩
  | .hbm, ⟨55, _⟩ => ⟨S50000x128, .f32⟩
  | .hbm, ⟨56, _⟩ => ⟨S_, .i32⟩
  | .hbm, ⟨57, _⟩ => ⟨S800000, .i32⟩
  | .hbm, ⟨58, _⟩ => ⟨S800000, .i1⟩
  | .hbm, ⟨59, _⟩ => ⟨S_, .i32⟩
  | .hbm, ⟨60, _⟩ => ⟨S800000, .i32⟩
  | .hbm, ⟨61, _⟩ => ⟨S800000, .i32⟩
  | .hbm, ⟨62, _⟩ => ⟨S800000, .i32⟩
  | .hbm, ⟨63, _⟩ => ⟨S800000x1, .i32⟩
  | .hbm, ⟨64, _⟩ => ⟨S800000x128, .f32⟩
  | .hbm, ⟨65, _⟩ => ⟨S_, .f32⟩
  | .hbm, ⟨66, _⟩ => ⟨S50000x128, .f32⟩
  | .hbm, ⟨67, _⟩ => ⟨S800000x1, .i32⟩
  | .hbm, ⟨68, _⟩ => ⟨S50000x128, .f32⟩
  | .hbm, ⟨69, _⟩ => ⟨S50000x1, .f32⟩
  | .hbm, ⟨70, _⟩ => ⟨S50000x128, .f32⟩
  | .hbm, ⟨71, _⟩ => ⟨S50000x128, .f32⟩
  | .hbm, ⟨72, _⟩ => ⟨S1x128x128, .f32⟩
  | .hbm, ⟨73, _⟩ => ⟨S128x128, .f32⟩
  | .hbm, ⟨74, _⟩ => ⟨S50000x128, .f32⟩
  | .hbm, ⟨75, _⟩ => ⟨S50000x512, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S128x128, .f32⟩
  | .local _ .vmem, ⟨18, _⟩ => ⟨S5000x128, .f32⟩
  | .local _ .vmem, ⟨19, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_c : Ref sig .tc := ⟨.hbm, 18, rfl⟩
abbrev main_v9 : Ref sig .tc := ⟨.hbm, 19, rfl⟩
abbrev main_v10 : Ref sig .tc := ⟨.hbm, 20, rfl⟩
abbrev main_c_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c_5 : Ref sig .tc := ⟨.hbm, 37, rfl⟩
abbrev main_v25 : Ref sig .tc := ⟨.hbm, 38, rfl⟩
abbrev main_v26 : Ref sig .tc := ⟨.hbm, 39, rfl⟩
abbrev main_c_6 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_7 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_c_8 : Ref sig .tc := ⟨.hbm, 56, rfl⟩
abbrev main_v41 : Ref sig .tc := ⟨.hbm, 57, rfl⟩
abbrev main_v42 : Ref sig .tc := ⟨.hbm, 58, rfl⟩
abbrev main_c_9 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_10 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  slices_S3x128x128_S1x128x128_0_0_0 : S3x128x128.Slices ![0, 0, 0] S1x128x128
  shapeCasts_S1x128x128_S128x128 : S1x128x128.ShapeCasts S128x128
  shapeCasts_S5000x128_S5000x128 : S5000x128.ShapeCasts S5000x128
  shapeCasts_S128x128_S128x128 : S128x128.ShapeCasts S128x128
  slices_S3x128x128_S1x128x128_1_0_0 : S3x128x128.Slices ![1, 0, 0] S1x128x128
  slices_S3x128x128_S1x128x128_2_0_0 : S3x128x128.Slices ![2, 0, 0] S1x128x128
  concatenates_S50000x128_S50000x128_S50000x128_S50000x128_S50000x512_d1 : Shape.Concatenates [S50000x128, S50000x128, S50000x128, S50000x128] S50000x512 1
  dot_S5000x128_S128x128_S5000x128_1_0_0_1_n_n_wf : DotDims.WF S5000x128 S128x128 S5000x128 [1] [0] [0] [1] [] []
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v21) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v24) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v37) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v39) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v40) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v53) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v55) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v56) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x128 : Shape := ⟨2, ![50000, 128]⟩
abbrev S800000 : Shape := ⟨1, ![800000]⟩
abbrev S128x128 : Shape := ⟨2, ![128, 128]⟩
abbrev S3x128x128 : Shape := ⟨3, ![3, 128, 128]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S1x128x128 : Shape := ⟨3, ![1, 128, 128]⟩
abbrev S50000x512 : Shape := ⟨2, ![50000, 512]⟩

abbrev nBuf : Space → Nat
  | .hbm => 88
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S3x128x128, .f32⟩
  | .hbm, ⟨5, _⟩ => ⟨S50000x128, .f32⟩
  | .hbm, ⟨6, _⟩ => ⟨S_, .f32⟩
  | .hbm, ⟨7, _⟩ => ⟨S50000x128, .f32⟩
  | .hbm, ⟨8, _⟩ => ⟨S50000x128, .f32⟩
  | .hbm, ⟨9, _⟩ => ⟨S_, .f32⟩
  | .hbm, ⟨10, _⟩ => ⟨S800000, .f32⟩
  | .hbm, ⟨11, _⟩ => ⟨S_, .f32⟩
  | .hbm, ⟨12, _⟩ => ⟨S50000, .f32⟩
  | .hbm, ⟨13, _⟩ => ⟨S800000x1, .i32⟩
  | .hbm, ⟨14, _⟩ => ⟨S50000, .f32⟩
  | .hbm, ⟨15, _⟩ => ⟨S_, .f32⟩
  | .hbm, ⟨16, _⟩ => ⟨S50000, .f32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000x128, .f32⟩
  | .hbm, ⟨30, _⟩ => ⟨S_, .f32⟩
  | .hbm, ⟨31, _⟩ => ⟨S50000x128, .f32⟩
  | .hbm, ⟨32, _⟩ => ⟨S800000x1, .i32⟩
  | .hbm, ⟨33, _⟩ => ⟨S50000x128, .f32⟩
  | .hbm, ⟨34, _⟩ => ⟨S50000x1, .f32⟩
  | .hbm, ⟨35, _⟩ => ⟨S50000x128, .f32⟩
  | .hbm, ⟨36, _⟩ => ⟨S50000x128, .f32⟩
  | .hbm, ⟨37, _⟩ => ⟨S1x128x128, .f32⟩
  | .hbm, ⟨38, _⟩ => ⟨S128x128, .f32⟩
  | .hbm, ⟨39, _⟩ => ⟨S50000x128, .f32⟩
  | .hbm, ⟨40, _⟩ => ⟨S_, .f32⟩
  | .hbm, ⟨41, _⟩ => ⟨S50000x128, .f32⟩
  | .hbm, ⟨42, _⟩ => ⟨S50000x128, .f32⟩
  | .hbm, ⟨43, _⟩ => ⟨S_, .i32⟩
  | .hbm, ⟨44, _⟩ => ⟨S800000, .i32⟩
  | .hbm, ⟨45, _⟩ => ⟨S800000, .i1⟩
  | .hbm, ⟨46, _⟩ => ⟨S_, .i32⟩
  | .hbm, ⟨47, _⟩ => ⟨S800000, .i32⟩
  | .hbm, ⟨48, _⟩ => ⟨S800000, .i32⟩
  | .hbm, ⟨49, _⟩ => ⟨S800000, .i32⟩
  | .hbm, ⟨50, _⟩ => ⟨S800000x1, .i32⟩
  | .hbm, ⟨51, _⟩ => ⟨S800000x128, .f32⟩
  | .hbm, ⟨52, _⟩ => ⟨S_, .f32⟩
  | .hbm, ⟨53, _⟩ => ⟨S50000x128, .f32⟩
  | .hbm, ⟨54, _⟩ => ⟨S800000x1, .i32⟩
  | .hbm, ⟨55, _⟩ => ⟨S50000x128, .f32⟩
  | .hbm, ⟨56, _⟩ => ⟨S50000x1, .f32⟩
  | .hbm, ⟨57, _⟩ => ⟨S50000x128, .f32⟩
  | .hbm, ⟨58, _⟩ => ⟨S50000x128, .f32⟩
  | .hbm, ⟨59, _⟩ => ⟨S1x128x128, .f32⟩
  | .hbm, ⟨60, _⟩ => ⟨S128x128, .f32⟩
  | .hbm, ⟨61, _⟩ => ⟨S50000x128, .f32⟩
  | .hbm, ⟨62, _⟩ => ⟨S_, .f32⟩
  | .hbm, ⟨63, _⟩ => ⟨S50000x128, .f32⟩
  | .hbm, ⟨64, _⟩ => ⟨S50000x128, .f32⟩
  | .hbm, ⟨65, _⟩ => ⟨S_, .i32⟩
  | .hbm, ⟨66, _⟩ => ⟨S800000, .i32⟩
  | .hbm, ⟨67, _⟩ => ⟨S800000, .i1⟩
  | .hbm, ⟨68, _⟩ => ⟨S_, .i32⟩
  | .hbm, ⟨69, _⟩ => ⟨S800000, .i32⟩
  | .hbm, ⟨70, _⟩ => ⟨S800000, .i32⟩
  | .hbm, ⟨71, _⟩ => ⟨S800000, .i32⟩
  | .hbm, ⟨72, _⟩ => ⟨S800000x1, .i32⟩
  | .hbm, ⟨73, _⟩ => ⟨S800000x128, .f32⟩
  | .hbm, ⟨74, _⟩ => ⟨S_, .f32⟩
  | .hbm, ⟨75, _⟩ => ⟨S50000x128, .f32⟩
  | .hbm, ⟨76, _⟩ => ⟨S800000x1, .i32⟩
  | .hbm, ⟨77, _⟩ => ⟨S50000x128, .f32⟩
  | .hbm, ⟨78, _⟩ => ⟨S50000x1, .f32⟩
  | .hbm, ⟨79, _⟩ => ⟨S50000x128, .f32⟩
  | .hbm, ⟨80, _⟩ => ⟨S50000x128, .f32⟩
  | .hbm, ⟨81, _⟩ => ⟨S1x128x128, .f32⟩
  | .hbm, ⟨82, _⟩ => ⟨S128x128, .f32⟩
  | .hbm, ⟨83, _⟩ => ⟨S50000x128, .f32⟩
  | .hbm, ⟨84, _⟩ => ⟨S_, .f32⟩
  | .hbm, ⟨85, _⟩ => ⟨S50000x128, .f32⟩
  | .hbm, ⟨86, _⟩ => ⟨S50000x128, .f32⟩
  | .hbm, ⟨87, _⟩ => ⟨S50000x512, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_cst : Ref sig .tc := ⟨.hbm, 6, rfl⟩
abbrev main_call0_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_cst_2 : Ref sig .tc := ⟨.hbm, 18, rfl⟩
abbrev main_v8 : Ref sig .tc := ⟨.hbm, 19, rfl⟩
abbrev main_v9 : Ref sig .tc := ⟨.hbm, 20, rfl⟩
abbrev main_c : Ref sig .tc := ⟨.hbm, 21, rfl⟩
abbrev main_v10 : Ref sig .tc := ⟨.hbm, 22, rfl⟩
abbrev main_v11 : Ref sig .tc := ⟨.hbm, 23, rfl⟩
abbrev main_c_3 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_call1_cst : Ref sig .tc := ⟨.hbm, 40, rfl⟩
abbrev main_call1_v0 : Ref sig .tc := ⟨.hbm, 41, rfl⟩
abbrev main_v26 : Ref sig .tc := ⟨.hbm, 42, rfl⟩
abbrev main_c_5 : Ref sig .tc := ⟨.hbm, 43, rfl⟩
abbrev main_v27 : Ref sig .tc := ⟨.hbm, 44, rfl⟩
abbrev main_v28 : Ref sig .tc := ⟨.hbm, 45, rfl⟩
abbrev main_c_6 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_7 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_call2_cst : Ref sig .tc := ⟨.hbm, 62, rfl⟩
abbrev main_call2_v0 : Ref sig .tc := ⟨.hbm, 63, rfl⟩
abbrev main_v43 : Ref sig .tc := ⟨.hbm, 64, rfl⟩
abbrev main_c_8 : Ref sig .tc := ⟨.hbm, 65, rfl⟩
abbrev main_v44 : Ref sig .tc := ⟨.hbm, 66, rfl⟩
abbrev main_v45 : Ref sig .tc := ⟨.hbm, 67, rfl⟩
abbrev main_c_9 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_10 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_call3_cst : Ref sig .tc := ⟨.hbm, 84, rfl⟩
abbrev main_call3_v0 : Ref sig .tc := ⟨.hbm, 85, rfl⟩
abbrev main_v60 : Ref sig .tc := ⟨.hbm, 86, rfl⟩
abbrev main_v61 : Ref sig .tc := ⟨.hbm, 87, rfl⟩

abbrev nD : Nat := 1
abbrev τ : Topo := Topo.v7x

variable {F : FTy → Type} [FloatOps F]

class Facts₀ : Prop where
  bcast_S_S50000x128 : S_.BroadcastsInDim S50000x128 (![] : Fin 0 → Fin S50000x128.rank)
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  slices_S3x128x128_S1x128x128_0_0_0 : S3x128x128.Slices ![0, 0, 0] S1x128x128
  shapeCasts_S1x128x128_S128x128 : S1x128x128.ShapeCasts S128x128
  slices_S3x128x128_S1x128x128_1_0_0 : S3x128x128.Slices ![1, 0, 0] S1x128x128
  slices_S3x128x128_S1x128x128_2_0_0 : S3x128x128.Slices ![2, 0, 0] S1x128x128
  concatenates_S50000x128_S50000x128_S50000x128_S50000x128_S50000x512_d1 : Shape.Concatenates [S50000x128, S50000x128, S50000x128, S50000x128] S50000x512 1
  dot_S50000x128_S128x128_S50000x128_1_0_0_1_n_n_wf : DotDims.WF S50000x128 S128x128 S50000x128 [1] [0] [0] [1] [] []
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.Kernel.Layer0.lean ====
/-
  Dense layer 0 of the network, as one kernel region: a grid of ten points, each taking a block of 5000 rows of the
  layer's input and the whole 128×128 weight matrix and storing `max (rows · weights, 0)` as the same 5000 rows of the
  layer's output.

  Everything here is stated at a parameter `V`, the contents of the TensorCore's buffers when the region is
  entered. A window's block at a point is the rectangle of its array (as `V` has it) that the point's index map
  selects. The body loads its two input blocks whole, loads the output buffer once without using what it reads,
  and stores one whole block; so after the body the output's staging buffer holds the stored value at every entry,
  a function of the two input blocks alone, and the inputs' buffers are as they were. The proof data record exactly
  this, and the body's triple is the obligation the region's launch asks for at every point.
-/
import proofs.«112503_j81329500717447_1_alg».proof.Proof.Gen.Kernel.Launch
import proofs.«112503_j81329500717447_1_alg».proof.Proof.Gen.Kernel.Skeleton
import proofs.«112503_j81329500717447_1_alg».proof.Proof.Gen.Kernel.Points
import Idealize.ShloMosaic.Lib.Pipeline.FrameBody
import Idealize.ShloMosaic.Lib.Pipeline.Regions
import Idealize.ShloMosaic.Lib.Tactic

set_option maxRecDepth 16384

noncomputable section

namespace Cert.Kernel.Layer0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`: the rectangle of the window's array, as the region finds it, that the
    point's index map selects. -/
def blockAt (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rows window's staging buffer holds the point's block of rows whenever the body is called, for any proof
    data whose array is `V`'s and whose body leaves the block in place. -/
theorem rows_found_of {c : Dev nD} (dat : Dat τ (Elt F) Unit ℕ (UR sig nD τ) ℕ cfg0 c) (hA : dat.A 0 = V c (Pipeline.arrRef spec0 0))
    (hafter : ∀ t, dat.after 0 t = blockAt V c 0 t) (t : Fin cfg0.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- The weights window's staging buffer holds the whole weight matrix whenever the body is called: it is fetched at
    the first point, and its index never moves. -/
theorem weights_found_of {c : Dev nD} (dat : Dat τ (Elt F) Unit ℕ (UR sig nD τ) ℕ cfg0 c) (hA : dat.A 1 = V c (Pipeline.arrRef spec0 1))
    (hafter : ∀ t, dat.after 1 t = blockAt V c 1 t) (t : Fin cfg0.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-! ## What the body stores -/

/-- The whole block of rows, and the whole weight matrix, as rectangles. -/
abbrev rowsRect : Rect S5000x128 := Rect.unit (s := S5000x128) ![0, 0] S5000x128.size inb_S5000x128_S5000x128_0_0
abbrev weightsRect : Rect S128x128 := Rect.unit (s := S128x128) ![0, 0] S128x128.size inb_S128x128_S128x128_0_0

/-- The output's staging buffer after the body, from the two input blocks: the one store, of the whole block. -/
def stored (x : Vec F S5000x128 .f32) (w : Vec F S128x128 .f32) : Vec F S5000x128 .f32 :=
  View.canon [⟨rowsRect, k0_pay1 (View.ld x rowsRect) (View.ld w weightsRect)⟩]

/-- The one store covers the buffer. -/
theorem stored_covers (p0 : Vec F S5000x128 .f32) (y : S5000x128.Idx) :
    ∃ pc ∈ ([⟨rowsRect, p0⟩] : List (View.Piece (Elt F) S5000x128 .f32)), y ∈ pc.1.set :=
  View.cover_of_tiled [⟨rowsRect, p0⟩] S5000x128.size (by rfl) y

/-! ## The body's triple -/

set_option maxHeartbeats 1000000 in
/-- The body on whole staging buffers — the inputs' at contents `x`, `w`, the output's at anything — runs to its
    end leaving the inputs' as they were and the output's at `stored x w`. -/
theorem body_runs (c : Dev nD) (E : Set ℕ) (i : grid0.Coords)
    (arg1 : Memref sig .tc .vmem S5000x128 .f32) (harg1 : arg1.IsWhole) (arg2 : Memref sig .tc .vmem S128x128 .f32) (harg2 : arg2.IsWhole)
    (arg3 : Memref sig .tc .vmem S5000x128 .f32) (harg3 : arg3.IsWhole)
    (x : Vec F S5000x128 .f32) (w : Vec F S128x128 .f32) (K : PUnit → sProp 𝕄) :
    iprop(owns (c : Thread nD τ) arg1 fullShare x ∗ owns (c : Thread nD τ) arg2 fullShare w ∗ (∃ d, owns (c : Thread nD τ) arg3 fullShare d)
        ∗ (iprop(owns (c : Thread nD τ) arg1 fullShare x ∗ owns (c : Thread nD τ) arg2 fullShare w
            ∗ owns (c : Thread nD τ) arg3 fullShare (stored x w)) -∗ K ⟨⟩))
      ⊢ wp frame (wpE (defs₀ (F := F)) Variants.none c none) E (cc0__linear_relu_kernel i arg1 harg1 arg2 harg2 arg3 harg3) K := by
  simp only [cc0__linear_relu_kernel_eq_skeleton]; unfold cc0__linear_relu_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (stored_covers _)

/-! ## The region's proof data -/

/-- The proof data of this region on core `c`: the arrays as the region finds them; after the body at point `t`
    each input's buffer at its block and the output's at `stored` of the two blocks; the invariant is the scoped rest
    and the generator register, untouched; nothing is owed; full shares. -/
def dat (c : Dev nD) : Dat τ (Elt F) Unit ℕ (UR sig nD τ) ℕ cfg0 c where
  A w := V c (Pipeline.arrRef spec0 w)
  after w t := match w with
    | ⟨0, _⟩ => blockAt V c 0 t
    | ⟨1, _⟩ => blockAt V c 1 t
    | ⟨2, _⟩ => stored (blockAt V c 0 t) (blockAt V c 1 t)
  Φ _ := Pipeline.ΦA spec0 c
  q _ := fullShare
  owed _ := 0

theorem dat_A (c : Dev nD) (w : Fin cfg0.W) : (dat V c).A w = V c (Pipeline.arrRef spec0 w) := by
  dsimp only [dat]

theorem after_rows (c : Dev nD) (t : Fin cfg0.N) : (dat V c).after 0 t = blockAt V c 0 t := by dsimp only [dat]
theorem after_weights (c : Dev nD) (t : Fin cfg0.N) : (dat V c).after 1 t = blockAt V c 1 t := by dsimp only [dat]
theorem after_out (c : Dev nD) (t : Fin cfg0.N) :
    (dat V c).after 2 t = stored (blockAt V c 0 t) (blockAt V c 1 t) := by dsimp only [dat]

theorem rows_found (c : Dev nD) (t : Fin cfg0.N) (d) : (dat V c).before 0 t d = blockAt V c 0 t :=
  rows_found_of V (dat V c) (dat_A V c 0) (after_rows V c) t d
theorem weights_found (c : Dev nD) (t : Fin cfg0.N) (d) : (dat V c).before 1 t d = blockAt V c 1 t :=
  weights_found_of V (dat V c) (dat_A V c 1) (after_weights V c) t d

/-! ## The body obligation -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t))

/-- The body at any point: the inputs' buffers hold their blocks, so `body_runs` applies; the invariant and the
    core's dues pass through unread. -/
theorem body_sound (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [rows_found, weights_found]
  rw [show (dat V c).Φ t.succ = (dat V c).Φ t.castSucc from rfl,
    show (dat V c).owesAt () t.succ = (dat V c).owesAt () t.castSucc from rfl,
    after_rows, after_weights, after_out]
  iintro ⟨HΦ, Ho, ⟨%d0, H0⟩, ⟨%d1, H1⟩, ⟨%d2, H2⟩⟩
  iapply (body_runs c Set.univ _ _ _ _ _ _ _ (blockAt V c 0 t) (blockAt V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The launch's body obligation, at every point. -/
theorem body_obligation (c : Dev nD) : BodyObligation (dat (F := F) V c) (defs₀ (F := F)) Variants.none () Set.univ := fun t => by
  rw [bigSep_W0, bigSep_W0]
  exact body_sound V c t

end Cert.Kernel.Layer0

end
-- ==== Proof.Kernel.Layer1.lean ====
/-
  Dense layer 1 of the network, as one kernel region: a grid of ten points, each taking a block of 5000 rows of the
  layer's input and the whole 128×128 weight matrix and storing `max (rows · weights, 0)` as the same 5000 rows of the
  layer's output.

  Everything here is stated at a parameter `V`, the contents of the TensorCore's buffers when the region is
  entered. A window's block at a point is the rectangle of its array (as `V` has it) that the point's index map
  selects. The body loads its two input blocks whole, loads the output buffer once without using what it reads,
  and stores one whole block; so after the body the output's staging buffer holds the stored value at every entry,
  a function of the two input blocks alone, and the inputs' buffers are as they were. The proof data record exactly
  this, and the body's triple is the obligation the region's launch asks for at every point.
-/
import proofs.«112503_j81329500717447_1_alg».proof.Proof.Gen.Kernel.Launch
import proofs.«112503_j81329500717447_1_alg».proof.Proof.Gen.Kernel.Skeleton
import proofs.«112503_j81329500717447_1_alg».proof.Proof.Gen.Kernel.Points
import Idealize.ShloMosaic.Lib.Pipeline.FrameBody
import Idealize.ShloMosaic.Lib.Pipeline.Regions
import Idealize.ShloMosaic.Lib.Tactic

set_option maxRecDepth 16384

noncomputable section

namespace Cert.Kernel.Layer1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`: the rectangle of the window's array, as the region finds it, that the
    point's index map selects. -/
def blockAt (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The rows window's staging buffer holds the point's block of rows whenever the body is called, for any proof
    data whose array is `V`'s and whose body leaves the block in place. -/
theorem rows_found_of {c : Dev nD} (dat : Dat τ (Elt F) Unit ℕ (UR sig nD τ) ℕ cfg1 c) (hA : dat.A 0 = V c (Pipeline.arrRef spec1 0))
    (hafter : ∀ t, dat.after 0 t = blockAt V c 0 t) (t : Fin cfg1.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- The weights window's staging buffer holds the whole weight matrix whenever the body is called: it is fetched at
    the first point, and its index never moves. -/
theorem weights_found_of {c : Dev nD} (dat : Dat τ (Elt F) Unit ℕ (UR sig nD τ) ℕ cfg1 c) (hA : dat.A 1 = V c (Pipeline.arrRef spec1 1))
    (hafter : ∀ t, dat.after 1 t = blockAt V c 1 t) (t : Fin cfg1.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-! ## What the body stores -/

/-- The whole block of rows, and the whole weight matrix, as rectangles. -/
abbrev rowsRect : Rect S5000x128 := Rect.unit (s := S5000x128) ![0, 0] S5000x128.size inb_S5000x128_S5000x128_0_0
abbrev weightsRect : Rect S128x128 := Rect.unit (s := S128x128) ![0, 0] S128x128.size inb_S128x128_S128x128_0_0

/-- The output's staging buffer after the body, from the two input blocks: the one store, of the whole block. -/
def stored (x : Vec F S5000x128 .f32) (w : Vec F S128x128 .f32) : Vec F S5000x128 .f32 :=
  View.canon [⟨rowsRect, k1_pay1 (View.ld x rowsRect) (View.ld w weightsRect)⟩]

/-- The one store covers the buffer. -/
theorem stored_covers (p0 : Vec F S5000x128 .f32) (y : S5000x128.Idx) :
    ∃ pc ∈ ([⟨rowsRect, p0⟩] : List (View.Piece (Elt F) S5000x128 .f32)), y ∈ pc.1.set :=
  View.cover_of_tiled [⟨rowsRect, p0⟩] S5000x128.size (by rfl) y

/-! ## The body's triple -/

set_option maxHeartbeats 1000000 in
/-- The body on whole staging buffers — the inputs' at contents `x`, `w`, the output's at anything — runs to its
    end leaving the inputs' as they were and the output's at `stored x w`. -/
theorem body_runs (c : Dev nD) (E : Set ℕ) (i : grid1.Coords)
    (arg1 : Memref sig .tc .vmem S5000x128 .f32) (harg1 : arg1.IsWhole) (arg2 : Memref sig .tc .vmem S128x128 .f32) (harg2 : arg2.IsWhole)
    (arg3 : Memref sig .tc .vmem S5000x128 .f32) (harg3 : arg3.IsWhole)
    (x : Vec F S5000x128 .f32) (w : Vec F S128x128 .f32) (K : PUnit → sProp 𝕄) :
    iprop(owns (c : Thread nD τ) arg1 fullShare x ∗ owns (c : Thread nD τ) arg2 fullShare w ∗ (∃ d, owns (c : Thread nD τ) arg3 fullShare d)
        ∗ (iprop(owns (c : Thread nD τ) arg1 fullShare x ∗ owns (c : Thread nD τ) arg2 fullShare w
            ∗ owns (c : Thread nD τ) arg3 fullShare (stored x w)) -∗ K ⟨⟩))
      ⊢ wp frame (wpE (defs₀ (F := F)) Variants.none c none) E (cc1__linear_relu_kernel i arg1 harg1 arg2 harg2 arg3 harg3) K := by
  simp only [cc1__linear_relu_kernel_eq_skeleton]; unfold cc1__linear_relu_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (stored_covers _)

/-! ## The region's proof data -/

/-- The proof data of this region on core `c`: the arrays as the region finds them; after the body at point `t`
    each input's buffer at its block and the output's at `stored` of the two blocks; the invariant is the scoped rest
    and the generator register, untouched; nothing is owed; full shares. -/
def dat (c : Dev nD) : Dat τ (Elt F) Unit ℕ (UR sig nD τ) ℕ cfg1 c where
  A w := V c (Pipeline.arrRef spec1 w)
  after w t := match w with
    | ⟨0, _⟩ => blockAt V c 0 t
    | ⟨1, _⟩ => blockAt V c 1 t
    | ⟨2, _⟩ => stored (blockAt V c 0 t) (blockAt V c 1 t)
  Φ _ := Pipeline.ΦA spec1 c
  q _ := fullShare
  owed _ := 0

theorem dat_A (c : Dev nD) (w : Fin cfg1.W) : (dat V c).A w = V c (Pipeline.arrRef spec1 w) := by
  dsimp only [dat]

theorem after_rows (c : Dev nD) (t : Fin cfg1.N) : (dat V c).after 0 t = blockAt V c 0 t := by dsimp only [dat]
theorem after_weights (c : Dev nD) (t : Fin cfg1.N) : (dat V c).after 1 t = blockAt V c 1 t := by dsimp only [dat]
theorem after_out (c : Dev nD) (t : Fin cfg1.N) :
    (dat V c).after 2 t = stored (blockAt V c 0 t) (blockAt V c 1 t) := by dsimp only [dat]

theorem rows_found (c : Dev nD) (t : Fin cfg1.N) (d) : (dat V c).before 0 t d = blockAt V c 0 t :=
  rows_found_of V (dat V c) (dat_A V c 0) (after_rows V c) t d
theorem weights_found (c : Dev nD) (t : Fin cfg1.N) (d) : (dat V c).before 1 t d = blockAt V c 1 t :=
  weights_found_of V (dat V c) (dat_A V c 1) (after_weights V c) t d

/-! ## The body obligation -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t))

/-- The body at any point: the inputs' buffers hold their blocks, so `body_runs` applies; the invariant and the
    core's dues pass through unread. -/
theorem body_sound (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [rows_found, weights_found]
  rw [show (dat V c).Φ t.succ = (dat V c).Φ t.castSucc from rfl,
    show (dat V c).owesAt () t.succ = (dat V c).owesAt () t.castSucc from rfl,
    after_rows, after_weights, after_out]
  iintro ⟨HΦ, Ho, ⟨%d0, H0⟩, ⟨%d1, H1⟩, ⟨%d2, H2⟩⟩
  iapply (body_runs c Set.univ _ _ _ _ _ _ _ (blockAt V c 0 t) (blockAt V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The launch's body obligation, at every point. -/
theorem body_obligation (c : Dev nD) : BodyObligation (dat (F := F) V c) (defs₀ (F := F)) Variants.none () Set.univ := fun t => by
  rw [bigSep_W1, bigSep_W1]
  exact body_sound V c t

end Cert.Kernel.Layer1

end
-- ==== Proof.Kernel.Layer2.lean ====
/-
  Dense layer 2 of the network, as one kernel region: a grid of ten points, each taking a block of 5000 rows of the
  layer's input and the whole 128×128 weight matrix and storing `max (rows · weights, 0)` as the same 5000 rows of the
  layer's output.

  Everything here is stated at a parameter `V`, the contents of the TensorCore's buffers when the region is
  entered. A window's block at a point is the rectangle of its array (as `V` has it) that the point's index map
  selects. The body loads its two input blocks whole, loads the output buffer once without using what it reads,
  and stores one whole block; so after the body the output's staging buffer holds the stored value at every entry,
  a function of the two input blocks alone, and the inputs' buffers are as they were. The proof data record exactly
  this, and the body's triple is the obligation the region's launch asks for at every point.
-/
import proofs.«112503_j81329500717447_1_alg».proof.Proof.Gen.Kernel.Launch
import proofs.«112503_j81329500717447_1_alg».proof.Proof.Gen.Kernel.Skeleton
import proofs.«112503_j81329500717447_1_alg».proof.Proof.Gen.Kernel.Points
import Idealize.ShloMosaic.Lib.Pipeline.FrameBody
import Idealize.ShloMosaic.Lib.Pipeline.Regions
import Idealize.ShloMosaic.Lib.Tactic

set_option maxRecDepth 16384

noncomputable section

namespace Cert.Kernel.Layer2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`: the rectangle of the window's array, as the region finds it, that the
    point's index map selects. -/
def blockAt (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The rows window's staging buffer holds the point's block of rows whenever the body is called, for any proof
    data whose array is `V`'s and whose body leaves the block in place. -/
theorem rows_found_of {c : Dev nD} (dat : Dat τ (Elt F) Unit ℕ (UR sig nD τ) ℕ cfg2 c) (hA : dat.A 0 = V c (Pipeline.arrRef spec2 0))
    (hafter : ∀ t, dat.after 0 t = blockAt V c 0 t) (t : Fin cfg2.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- The weights window's staging buffer holds the whole weight matrix whenever the body is called: it is fetched at
    the first point, and its index never moves. -/
theorem weights_found_of {c : Dev nD} (dat : Dat τ (Elt F) Unit ℕ (UR sig nD τ) ℕ cfg2 c) (hA : dat.A 1 = V c (Pipeline.arrRef spec2 1))
    (hafter : ∀ t, dat.after 1 t = blockAt V c 1 t) (t : Fin cfg2.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-! ## What the body stores -/

/-- The whole block of rows, and the whole weight matrix, as rectangles. -/
abbrev rowsRect : Rect S5000x128 := Rect.unit (s := S5000x128) ![0, 0] S5000x128.size inb_S5000x128_S5000x128_0_0
abbrev weightsRect : Rect S128x128 := Rect.unit (s := S128x128) ![0, 0] S128x128.size inb_S128x128_S128x128_0_0

/-- The output's staging buffer after the body, from the two input blocks: the one store, of the whole block. -/
def stored (x : Vec F S5000x128 .f32) (w : Vec F S128x128 .f32) : Vec F S5000x128 .f32 :=
  View.canon [⟨rowsRect, k2_pay1 (View.ld x rowsRect) (View.ld w weightsRect)⟩]

/-- The one store covers the buffer. -/
theorem stored_covers (p0 : Vec F S5000x128 .f32) (y : S5000x128.Idx) :
    ∃ pc ∈ ([⟨rowsRect, p0⟩] : List (View.Piece (Elt F) S5000x128 .f32)), y ∈ pc.1.set :=
  View.cover_of_tiled [⟨rowsRect, p0⟩] S5000x128.size (by rfl) y

/-! ## The body's triple -/

set_option maxHeartbeats 1000000 in
/-- The body on whole staging buffers — the inputs' at contents `x`, `w`, the output's at anything — runs to its
    end leaving the inputs' as they were and the output's at `stored x w`. -/
theorem body_runs (c : Dev nD) (E : Set ℕ) (i : grid2.Coords)
    (arg1 : Memref sig .tc .vmem S5000x128 .f32) (harg1 : arg1.IsWhole) (arg2 : Memref sig .tc .vmem S128x128 .f32) (harg2 : arg2.IsWhole)
    (arg3 : Memref sig .tc .vmem S5000x128 .f32) (harg3 : arg3.IsWhole)
    (x : Vec F S5000x128 .f32) (w : Vec F S128x128 .f32) (K : PUnit → sProp 𝕄) :
    iprop(owns (c : Thread nD τ) arg1 fullShare x ∗ owns (c : Thread nD τ) arg2 fullShare w ∗ (∃ d, owns (c : Thread nD τ) arg3 fullShare d)
        ∗ (iprop(owns (c : Thread nD τ) arg1 fullShare x ∗ owns (c : Thread nD τ) arg2 fullShare w
            ∗ owns (c : Thread nD τ) arg3 fullShare (stored x w)) -∗ K ⟨⟩))
      ⊢ wp frame (wpE (defs₀ (F := F)) Variants.none c none) E (cc2__linear_relu_kernel i arg1 harg1 arg2 harg2 arg3 harg3) K := by
  simp only [cc2__linear_relu_kernel_eq_skeleton]; unfold cc2__linear_relu_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (stored_covers _)

/-! ## The region's proof data -/

/-- The proof data of this region on core `c`: the arrays as the region finds them; after the body at point `t`
    each input's buffer at its block and the output's at `stored` of the two blocks; the invariant is the scoped rest
    and the generator register, untouched; nothing is owed; full shares. -/
def dat (c : Dev nD) : Dat τ (Elt F) Unit ℕ (UR sig nD τ) ℕ cfg2 c where
  A w := V c (Pipeline.arrRef spec2 w)
  after w t := match w with
    | ⟨0, _⟩ => blockAt V c 0 t
    | ⟨1, _⟩ => blockAt V c 1 t
    | ⟨2, _⟩ => stored (blockAt V c 0 t) (blockAt V c 1 t)
  Φ _ := Pipeline.ΦA spec2 c
  q _ := fullShare
  owed _ := 0

theorem dat_A (c : Dev nD) (w : Fin cfg2.W) : (dat V c).A w = V c (Pipeline.arrRef spec2 w) := by
  dsimp only [dat]

theorem after_rows (c : Dev nD) (t : Fin cfg2.N) : (dat V c).after 0 t = blockAt V c 0 t := by dsimp only [dat]
theorem after_weights (c : Dev nD) (t : Fin cfg2.N) : (dat V c).after 1 t = blockAt V c 1 t := by dsimp only [dat]
theorem after_out (c : Dev nD) (t : Fin cfg2.N) :
    (dat V c).after 2 t = stored (blockAt V c 0 t) (blockAt V c 1 t) := by dsimp only [dat]

theorem rows_found (c : Dev nD) (t : Fin cfg2.N) (d) : (dat V c).before 0 t d = blockAt V c 0 t :=
  rows_found_of V (dat V c) (dat_A V c 0) (after_rows V c) t d
theorem weights_found (c : Dev nD) (t : Fin cfg2.N) (d) : (dat V c).before 1 t d = blockAt V c 1 t :=
  weights_found_of V (dat V c) (dat_A V c 1) (after_weights V c) t d

/-! ## The body obligation -/

/-- What the body is called with at point `t`, the windows one by one, -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d)))

/-- and what it returns. -/
def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t))

/-- The body at any point: the inputs' buffers hold their blocks, so `body_runs` applies; the invariant and the
    core's dues pass through unread. -/
theorem body_sound (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [rows_found, weights_found]
  rw [show (dat V c).Φ t.succ = (dat V c).Φ t.castSucc from rfl,
    show (dat V c).owesAt () t.succ = (dat V c).owesAt () t.castSucc from rfl,
    after_rows, after_weights, after_out]
  iintro ⟨HΦ, Ho, ⟨%d0, H0⟩, ⟨%d1, H1⟩, ⟨%d2, H2⟩⟩
  iapply (body_runs c Set.univ _ _ _ _ _ _ _ (blockAt V c 0 t) (blockAt V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The launch's body obligation, at every point. -/
theorem body_obligation (c : Dev nD) : BodyObligation (dat (F := F) V c) (defs₀ (F := F)) Variants.none () Set.univ := fun t => by
  rw [bigSep_W2, bigSep_W2]
  exact body_sound V c t

end Cert.Kernel.Layer2

end
-- ==== Proof.Kernel.Layer3.lean ====
/-
  Dense layer 3 of the network, as one kernel region: a grid of ten points, each taking a block of 5000 rows of the
  layer's input and the whole 128×128 weight matrix and storing `max (rows · weights, 0)` as the same 5000 rows of the
  layer's output.

  Everything here is stated at a parameter `V`, the contents of the TensorCore's buffers when the region is
  entered. A window's block at a point is the rectangle of its array (as `V` has it) that the point's index map
  selects. The body loads its two input blocks whole, loads the output buffer once without using what it reads,
  and stores one whole block; so after the body the output's staging buffer holds the stored value at every entry,
  a function of the two input blocks alone, and the inputs' buffers are as they were. The proof data record exactly
  this, and the body's triple is the obligation the region's launch asks for at every point.
-/
import proofs.«112503_j81329500717447_1_alg».proof.Proof.Gen.Kernel.Launch
import proofs.«112503_j81329500717447_1_alg».proof.Proof.Gen.Kernel.Skeleton
import proofs.«112503_j81329500717447_1_alg».proof.Proof.Gen.Kernel.Points
import Idealize.ShloMosaic.Lib.Pipeline.FrameBody
import Idealize.ShloMosaic.Lib.Pipeline.Regions
import Idealize.ShloMosaic.Lib.Tactic

set_option maxRecDepth 16384

noncomputable section

namespace Cert.Kernel.Layer3

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`: the rectangle of the window's array, as the region finds it, that the
    point's index map selects. -/
def blockAt (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The rows window's staging buffer holds the point's block of rows whenever the body is called, for any proof
    data whose array is `V`'s and whose body leaves the block in place. -/
theorem rows_found_of {c : Dev nD} (dat : Dat τ (Elt F) Unit ℕ (UR sig nD τ) ℕ cfg3 c) (hA : dat.A 0 = V c (Pipeline.arrRef spec3 0))
    (hafter : ∀ t, dat.after 0 t = blockAt V c 0 t) (t : Fin cfg3.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- The weights window's staging buffer holds the whole weight matrix whenever the body is called: it is fetched at
    the first point, and its index never moves. -/
theorem weights_found_of {c : Dev nD} (dat : Dat τ (Elt F) Unit ℕ (UR sig nD τ) ℕ cfg3 c) (hA : dat.A 1 = V c (Pipeline.arrRef spec3 1))
    (hafter : ∀ t, dat.after 1 t = blockAt V c 1 t) (t : Fin cfg3.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-! ## What the body stores -/

/-- The whole block of rows, and the whole weight matrix, as rectangles. -/
abbrev rowsRect : Rect S5000x128 := Rect.unit (s := S5000x128) ![0, 0] S5000x128.size inb_S5000x128_S5000x128_0_0
abbrev weightsRect : Rect S128x128 := Rect.unit (s := S128x128) ![0, 0] S128x128.size inb_S128x128_S128x128_0_0

/-- The output's staging buffer after the body, from the two input blocks: the one store, of the whole block. -/
def stored (x : Vec F S5000x128 .f32) (w : Vec F S128x128 .f32) : Vec F S5000x128 .f32 :=
  View.canon [⟨rowsRect, k3_pay1 (View.ld x rowsRect) (View.ld w weightsRect)⟩]

/-- The one store covers the buffer. -/
theorem stored_covers (p0 : Vec F S5000x128 .f32) (y : S5000x128.Idx) :
    ∃ pc ∈ ([⟨rowsRect, p0⟩] : List (View.Piece (Elt F) S5000x128 .f32)), y ∈ pc.1.set :=
  View.cover_of_tiled [⟨rowsRect, p0⟩] S5000x128.size (by rfl) y

/-! ## The body's triple -/

set_option maxHeartbeats 1000000 in
/-- The body on whole staging buffers — the inputs' at contents `x`, `w`, the output's at anything — runs to its
    end leaving the inputs' as they were and the output's at `stored x w`. -/
theorem body_runs (c : Dev nD) (E : Set ℕ) (i : grid3.Coords)
    (arg1 : Memref sig .tc .vmem S5000x128 .f32) (harg1 : arg1.IsWhole) (arg2 : Memref sig .tc .vmem S128x128 .f32) (harg2 : arg2.IsWhole)
    (arg3 : Memref sig .tc .vmem S5000x128 .f32) (harg3 : arg3.IsWhole)
    (x : Vec F S5000x128 .f32) (w : Vec F S128x128 .f32) (K : PUnit → sProp 𝕄) :
    iprop(owns (c : Thread nD τ) arg1 fullShare x ∗ owns (c : Thread nD τ) arg2 fullShare w ∗ (∃ d, owns (c : Thread nD τ) arg3 fullShare d)
        ∗ (iprop(owns (c : Thread nD τ) arg1 fullShare x ∗ owns (c : Thread nD τ) arg2 fullShare w
            ∗ owns (c : Thread nD τ) arg3 fullShare (stored x w)) -∗ K ⟨⟩))
      ⊢ wp frame (wpE (defs₀ (F := F)) Variants.none c none) E (cc3__linear_relu_kernel i arg1 harg1 arg2 harg2 arg3 harg3) K := by
  simp only [cc3__linear_relu_kernel_eq_skeleton]; unfold cc3__linear_relu_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (stored_covers _)

/-! ## The region's proof data -/

/-- The proof data of this region on core `c`: the arrays as the region finds them; after the body at point `t`
    each input's buffer at its block and the output's at `stored` of the two blocks; the invariant is the scoped rest
    and the generator register, untouched; nothing is owed; full shares. -/
def dat (c : Dev nD) : Dat τ (Elt F) Unit ℕ (UR sig nD τ) ℕ cfg3 c where
  A w := V c (Pipeline.arrRef spec3 w)
  after w t := match w with
    | ⟨0, _⟩ => blockAt V c 0 t
    | ⟨1, _⟩ => blockAt V c 1 t
    | ⟨2, _⟩ => stored (blockAt V c 0 t) (blockAt V c 1 t)
  Φ _ := Pipeline.ΦA spec3 c
  q _ := fullShare
  owed _ := 0

theorem dat_A (c : Dev nD) (w : Fin cfg3.W) : (dat V c).A w = V c (Pipeline.arrRef spec3 w) := by
  dsimp only [dat]

theorem after_rows (c : Dev nD) (t : Fin cfg3.N) : (dat V c).after 0 t = blockAt V c 0 t := by dsimp only [dat]
theorem after_weights (c : Dev nD) (t : Fin cfg3.N) : (dat V c).after 1 t = blockAt V c 1 t := by dsimp only [dat]
theorem after_out (c : Dev nD) (t : Fin cfg3.N) :
    (dat V c).after 2 t = stored (blockAt V c 0 t) (blockAt V c 1 t) := by dsimp only [dat]

theorem rows_found (c : Dev nD) (t : Fin cfg3.N) (d) : (dat V c).before 0 t d = blockAt V c 0 t :=
  rows_found_of V (dat V c) (dat_A V c 0) (after_rows V c) t d
theorem weights_found (c : Dev nD) (t : Fin cfg3.N) (d) : (dat V c).before 1 t d = blockAt V c 1 t :=
  weights_found_of V (dat V c) (dat_A V c 1) (after_weights V c) t d

/-! ## The body obligation -/

/-- What the body is called with at point `t`, the windows one by one, -/
def bodyPre (c : Dev nD) (t : Fin cfg3.N) : sProp 𝕄 :=
  iprop((dat V c).Φ t.castSucc ∗ (dat V c).owesAt () t.castSucc
    ∗ (∃ d, owns (c : Thread nD τ) (st3_0 t) fullShare ((dat V c).before 0 t d))
    ∗ (∃ d, owns (c : Thread nD τ) (st3_1 t) fullShare ((dat V c).before 1 t d))
    ∗ (∃ d, owns (c : Thread nD τ) (st3_2 t) fullShare ((dat V c).before 2 t d)))

/-- and what it returns. -/
def bodyPost (c : Dev nD) (t : Fin cfg3.N) : sProp 𝕄 :=
  iprop((dat V c).Φ t.succ ∗ (dat V c).owesAt () t.succ
    ∗ owns (c : Thread nD τ) (st3_0 t) fullShare ((dat V c).after 0 t)
    ∗ owns (c : Thread nD τ) (st3_1 t) fullShare ((dat V c).after 1 t)
    ∗ owns (c : Thread nD τ) (st3_2 t) fullShare ((dat V c).after 2 t))

/-- The body at any point: the inputs' buffers hold their blocks, so `body_runs` applies; the invariant and the
    core's dues pass through unread. -/
theorem body_sound (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [rows_found, weights_found]
  rw [show (dat V c).Φ t.succ = (dat V c).Φ t.castSucc from rfl,
    show (dat V c).owesAt () t.succ = (dat V c).owesAt () t.castSucc from rfl,
    after_rows, after_weights, after_out]
  iintro ⟨HΦ, Ho, ⟨%d0, H0⟩, ⟨%d1, H1⟩, ⟨%d2, H2⟩⟩
  iapply (body_runs c Set.univ _ _ _ _ _ _ _ (blockAt V c 0 t) (blockAt V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The launch's body obligation, at every point. -/
theorem body_obligation (c : Dev nD) : BodyObligation (dat (F := F) V c) (defs₀ (F := F)) Variants.none () Set.univ := fun t => by
  rw [bigSep_W3, bigSep_W3]
  exact body_sound V c t

end Cert.Kernel.Layer3

end
-- ==== Proof.Kernel.Between.lean ====
/-
  The buffers' contents between the items of the network's main program.

  The program runs four kernel regions, the dense layers, with stretches of host operations between them. A
  region changes one buffer, its layer's output array, which ends at what the region's write-backs leave: the
  final contents `arrAt` of the region's proof data at its output window, taken at the contents the region was
  entered from. A host stretch changes the buffers its operations write, to the operations' values. Starting from
  the launch memory this gives the contents after each item, one after the other, and the family of "what each
  region leaves" that the frame of the whole program is stated over.
-/
import proofs.«112503_j81329500717447_1_alg».proof.Proof.Kernel.Layer0
import proofs.«112503_j81329500717447_1_alg».proof.Proof.Kernel.Layer1
import proofs.«112503_j81329500717447_1_alg».proof.Proof.Kernel.Layer2
import proofs.«112503_j81329500717447_1_alg».proof.Proof.Kernel.Layer3
import proofs.«112503_j81329500717447_1_alg».proof.Proof.Gen.Kernel.Regions

noncomputable section

namespace Cert.Kernel.Between

open Idealize.ShloMosaic Idealize.ShloMosaic.TcCoe
open Idealize.SL Idealize.SL.Sem
open Cert.Kernel Cert.Kernel.Gen

variable {F : FTy → Type} [FloatOps F]
variable (m : (ℓ : Loc nD τ sig) → Buf (Elt F) ℓ)

/-- A core's buffer contents, read at the TensorCore's references: what a region's proof data take. -/
abbrev atTc (W : Dev nD → Valuation τ sig (Elt F)) : (c : Dev nD) → (b : Ref sig .tc) → Buf (Elt F) ((c : Thread nD τ).loc b) :=
  fun c b => W c b

/-- What layer 0's region leaves in its output array, entered from the launch memory. -/
def out0 (c : Dev nD) : Buf (Elt F) ((c : Thread nD τ).loc main_v0) := (Layer0.dat (atTc (V0 m)) c).arrAt 2 cfg0.N
/-- The contents after layer 0's region. -/
def X1 (c : Dev nD) : Valuation τ sig (Elt F) := Function.update (V0 m c) main_v0 (out0 m c)
/-- The contents after the first host stretch: layer 1's region is entered from them. -/
def X2 (c : Dev nD) : Valuation τ sig (Elt F) := StableHlo.after hostOps1 (X1 m c)
/-- What layer 1's region leaves in its output array. -/
def out1 (c : Dev nD) : Buf (Elt F) ((c : Thread nD τ).loc main_v24) := (Layer1.dat (atTc (X2 m)) c).arrAt 2 cfg1.N
def X3 (c : Dev nD) : Valuation τ sig (Elt F) := Function.update (X2 m c) main_v24 (out1 m c)
def X4 (c : Dev nD) : Valuation τ sig (Elt F) := StableHlo.after hostOps2 (X3 m c)
/-- What layer 2's region leaves in its output array. -/
def out2 (c : Dev nD) : Buf (Elt F) ((c : Thread nD τ).loc main_v40) := (Layer2.dat (atTc (X4 m)) c).arrAt 2 cfg2.N
def X5 (c : Dev nD) : Valuation τ sig (Elt F) := Function.update (X4 m c) main_v40 (out2 m c)
def X6 (c : Dev nD) : Valuation τ sig (Elt F) := StableHlo.after hostOps3 (X5 m c)
/-- What layer 3's region leaves in its output array. -/
def out3 (c : Dev nD) : Buf (Elt F) ((c : Thread nD τ).loc main_v56) := (Layer3.dat (atTc (X6 m)) c).arrAt 2 cfg3.N
def X7 (c : Dev nD) : Valuation τ sig (Elt F) := Function.update (X6 m c) main_v56 (out3 m c)
/-- The contents at the end: after the last host stretch, the concatenation. -/
def X8 (c : Dev nD) : Valuation τ sig (Elt F) := StableHlo.after hostOps4 (X7 m c)

/-- What the regions leave, as the family the program's frame is stated over: after item `J − 1`, a region, the
    contents at that point (read only at the region's output array). -/
def outs : Outs (F := F) := fun J r c => match J with
  | 1 => X1 m c r
  | 3 => X3 m c r
  | 5 => X5 m c r
  | _ => X7 m c r

theorem V1_eq (c : Dev nD) : V1 m (outs m) c = X1 m c := by
  have h : outs m 1 main_v0 c = out0 m c := by
    show Function.update (V0 m c) (main_v0 : DevRef τ sig) (out0 m c) (main_v0 : DevRef τ sig) = _
    exact Function.update_self ..
  show Function.update (V0 m c) (main_v0 : DevRef τ sig) (outs m 1 main_v0 c) = X1 m c
  rw [h]; rfl

theorem V2_eq (c : Dev nD) : V2 m (outs m) c = X2 m c := by
  show StableHlo.after hostOps1 (V1 m (outs m) c) = X2 m c
  rw [V1_eq]; rfl

theorem V3_eq (c : Dev nD) : V3 m (outs m) c = X3 m c := by
  have h : outs m 3 main_v24 c = out1 m c := by
    show Function.update (X2 m c) (main_v24 : DevRef τ sig) (out1 m c) (main_v24 : DevRef τ sig) = _
    exact Function.update_self ..
  show Function.update (V2 m (outs m) c) (main_v24 : DevRef τ sig) (outs m 3 main_v24 c) = X3 m c
  rw [h, V2_eq]; rfl

theorem V4_eq (c : Dev nD) : V4 m (outs m) c = X4 m c := by
  show StableHlo.after hostOps2 (V3 m (outs m) c) = X4 m c
  rw [V3_eq]; rfl

theorem V5_eq (c : Dev nD) : V5 m (outs m) c = X5 m c := by
  have h : outs m 5 main_v40 c = out2 m c := by
    show Function.update (X4 m c) (main_v40 : DevRef τ sig) (out2 m c) (main_v40 : DevRef τ sig) = _
    exact Function.update_self ..
  show Function.update (V4 m (outs m) c) (main_v40 : DevRef τ sig) (outs m 5 main_v40 c) = X5 m c
  rw [h, V4_eq]; rfl

theorem V6_eq (c : Dev nD) : V6 m (outs m) c = X6 m c := by
  show StableHlo.after hostOps3 (V5 m (outs m) c) = X6 m c
  rw [V5_eq]; rfl

theorem V7_eq (c : Dev nD) : V7 m (outs m) c = X7 m c := by
  have h : outs m 7 main_v56 c = out3 m c := by
    show Function.update (X6 m c) (main_v56 : DevRef τ sig) (out3 m c) (main_v56 : DevRef τ sig) = _
    exact Function.update_self ..
  show Function.update (V6 m (outs m) c) (main_v56 : DevRef τ sig) (outs m 7 main_v56 c) = X7 m c
  rw [h, V6_eq]; rfl

theorem V8_eq (c : Dev nD) : V8 m (outs m) c = X8 m c := by
  show StableHlo.after hostOps4 (V7 m (outs m) c) = X8 m c
  rw [V7_eq]; rfl

end Cert.Kernel.Between

end
-- ==== Proof.Kernel.Whole.lean ====
/-
  The network's main program runs to its end, faults nowhere, and leaves its five inputs as launched.

  The main program is four kernel regions, the dense layers, among stretches of host operations. Each region is
  given as a record: the layout its launch decides, the body's obligation at every point (the layer's module), and how
  the thread state — every unscoped buffer of the core at known contents, the generator register at some state,
  nothing owed — enters the region and comes out of it with the layer's output array at what the region's write-backs
  leave. The host stretches, their chaining with the regions, the launch and the reading of the inputs off the last
  contents are the program's conditional frame; what is supplied here are the four records and the thread states.
-/
import proofs.«112503_j81329500717447_1_alg».proof.Proof.Kernel.Between
import Idealize.ShloMosaic.Lib.Pipeline.RegionsLoop
import Idealize.ShloMosaic.Lib.Tactic

set_option maxRecDepth 16384

noncomputable section

namespace Cert.Kernel.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Between

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- Every region's proof data, each at the contents its region is entered from. -/
def pdats : (p : Fin 4) → (c : Dev nD) → Dat τ (Elt F) Unit ℕ (UR sig nD τ) ℕ (cfgs p) c
  | ⟨0, _⟩ => fun c => Layer0.dat (atTc (V0 m)) c
  | ⟨1, _⟩ => fun c => Layer1.dat (atTc (X2 m)) c
  | ⟨2, _⟩ => fun c => Layer2.dat (atTc (X4 m)) c
  | ⟨3, _⟩ => fun c => Layer3.dat (atTc (X6 m)) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state, and its dues,
    at nothing. -/
abbrev R (c : Dev nD) : sProp 𝕄 := iprop((∃ r, prngReg c r) ∗ ∃ W, owes (c : Thread nD τ) (0 : CellTallies nD τ sig Unit) W)

/-! ## The regions -/

/-- At layer 0's exit each of its arrays holds what the region leaves — the inputs as entered, the output its
    write-backs — -/
theorem exit_arrays0 (c : Dev nD) (w : Fin cfg0.W) :
    (pdats m 0 c).arrAt w cfg0.N = atTc (X1 m) c (Pipeline.arrRef spec0 w) :=
  match w with
  | ⟨0, _⟩ => (((pdats m 0 c).arrAt_in 0 rfl _).trans (Layer0.dat_A _ c 0)).trans
      (Function.update_of_ne (StableHlo.devRef_ne_of_ne (by decide) : (Proc.devRef .tc main_arg0 : DevRef τ sig) ≠ Proc.devRef .tc main_v0) _ _).symm
  | ⟨1, _⟩ => (((pdats m 0 c).arrAt_in 1 rfl _).trans (Layer0.dat_A _ c 1)).trans
      (Function.update_of_ne (StableHlo.devRef_ne_of_ne (by decide) : (Proc.devRef .tc main_arg3 : DevRef τ sig) ≠ Proc.devRef .tc main_v0) _ _).symm
  | ⟨2, _⟩ => by
    show out0 m c = Function.update (V0 m c) (Proc.devRef .tc main_v0 : DevRef τ sig) (out0 m c) (Proc.devRef .tc main_v0)
    exact (Function.update_self (Proc.devRef .tc main_v0 : DevRef τ sig) (out0 m c) (V0 m c)).symm

/-- and every other buffer what it held at the entry. -/
theorem exit_rest0 (c : Dev nD) : ∀ b, b ∉ Finset.univ.image (Pipeline.arrRef spec0) → atTc (X1 m) c b = atTc (V0 m) c b :=
  fun b hb => Function.update_of_ne (StableHlo.devRef_ne_of_ne fun e => hb (Finset.mem_image.mpr ⟨2, Finset.mem_univ _, e.symm⟩)) _ _

set_option backward.isDefEq.respectTransparency.types false in
/-- LAYER 0'S REGION over the thread state: entered from every unscoped buffer at the contents before it, left
    with them at the contents after it. Its arrays are split out of the unscoped buffers and put back at the exit
    contents; the generator register goes into the region's invariant and comes out; nothing is owed; the kernel has
    no semaphore of its own. -/
def region0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Layer0.body_obligation (atTc (V0 m)) c).loose
  hwaits := Pipeline.hwaits_of_owed_zero _ _ _ _ L lv 0 fun _ _ => rfl
  pre c := iprop(StableHlo.held (c : Thread nD τ) (Pipeline.ucRefs τ sig) (V0 m c) ∗ R c)
  post c := iprop(StableHlo.held (c : Thread nD τ) (Pipeline.ucRefs τ sig) (X1 m c) ∗ R c)
  X c := iprop(∃ r, prngReg c r)
  Y c := iprop(∃ r, prngReg c r)
  Z c := Pipeline.unscopedRest (Ix := Unit) (Name := ℕ) (U := UR sig nD τ) (Lvl := ℕ) spec0 c (atTc (V0 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (atTc (V0 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (atTc (V0 m) c) (atTc (X1 m) c) ((pdats m 0 c).arrAt · cfg0.N) (exit_arrays0 m c) (exit_rest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- At layer 1's exit each of its arrays holds what the region leaves — the inputs as entered, the output its
    write-backs — -/
theorem exit_arrays1 (c : Dev nD) (w : Fin cfg1.W) :
    (pdats m 1 c).arrAt w cfg1.N = atTc (X3 m) c (Pipeline.arrRef spec1 w) :=
  match w with
  | ⟨0, _⟩ => (((pdats m 1 c).arrAt_in 0 rfl _).trans (Layer1.dat_A _ c 0)).trans
      (Function.update_of_ne (StableHlo.devRef_ne_of_ne (by decide) : (Proc.devRef .tc main_v21 : DevRef τ sig) ≠ Proc.devRef .tc main_v24) _ _).symm
  | ⟨1, _⟩ => (((pdats m 1 c).arrAt_in 1 rfl _).trans (Layer1.dat_A _ c 1)).trans
      (Function.update_of_ne (StableHlo.devRef_ne_of_ne (by decide) : (Proc.devRef .tc main_v23 : DevRef τ sig) ≠ Proc.devRef .tc main_v24) _ _).symm
  | ⟨2, _⟩ => by
    show out1 m c = Function.update (X2 m c) (Proc.devRef .tc main_v24 : DevRef τ sig) (out1 m c) (Proc.devRef .tc main_v24)
    exact (Function.update_self (Proc.devRef .tc main_v24 : DevRef τ sig) (out1 m c) (X2 m c)).symm

/-- and every other buffer what it held at the entry. -/
theorem exit_rest1 (c : Dev nD) : ∀ b, b ∉ Finset.univ.image (Pipeline.arrRef spec1) → atTc (X3 m) c b = atTc (X2 m) c b :=
  fun b hb => Function.update_of_ne (StableHlo.devRef_ne_of_ne fun e => hb (Finset.mem_image.mpr ⟨2, Finset.mem_univ _, e.symm⟩)) _ _

set_option backward.isDefEq.respectTransparency.types false in
/-- LAYER 1'S REGION over the thread state: entered from every unscoped buffer at the contents before it, left
    with them at the contents after it. Its arrays are split out of the unscoped buffers and put back at the exit
    contents; the generator register goes into the region's invariant and comes out; nothing is owed; the kernel has
    no semaphore of its own. -/
def region1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Layer1.body_obligation (atTc (X2 m)) c).loose
  hwaits := Pipeline.hwaits_of_owed_zero _ _ _ _ L lv 1 fun _ _ => rfl
  pre c := iprop(StableHlo.held (c : Thread nD τ) (Pipeline.ucRefs τ sig) (X2 m c) ∗ R c)
  post c := iprop(StableHlo.held (c : Thread nD τ) (Pipeline.ucRefs τ sig) (X3 m c) ∗ R c)
  X c := iprop(∃ r, prngReg c r)
  Y c := iprop(∃ r, prngReg c r)
  Z c := Pipeline.unscopedRest (Ix := Unit) (Name := ℕ) (U := UR sig nD τ) (Lvl := ℕ) spec1 c (atTc (X2 m) c)
  hentry c := by
    rw [Pipeline.ownSems0_none]
    have hsplit := Pipeline.arrays_of_unscopedBufs (p := 1) (pcfgs (F := F)) adm (pdats m) launch1.win launch1.arr_whole c
      ((pdats m 1 c).share_full fun _ => rfl) (atTc (X2 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (atTc (X2 m) c) (atTc (X3 m) c) ((pdats m 1 c).arrAt · cfg1.N) (exit_arrays1 m c) (exit_rest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- At layer 2's exit each of its arrays holds what the region leaves — the inputs as entered, the output its
    write-backs — -/
theorem exit_arrays2 (c : Dev nD) (w : Fin cfg2.W) :
    (pdats m 2 c).arrAt w cfg2.N = atTc (X5 m) c (Pipeline.arrRef spec2 w) :=
  match w with
  | ⟨0, _⟩ => (((pdats m 2 c).arrAt_in 0 rfl _).trans (Layer2.dat_A _ c 0)).trans
      (Function.update_of_ne (StableHlo.devRef_ne_of_ne (by decide) : (Proc.devRef .tc main_v37 : DevRef τ sig) ≠ Proc.devRef .tc main_v40) _ _).symm
  | ⟨1, _⟩ => (((pdats m 2 c).arrAt_in 1 rfl _).trans (Layer2.dat_A _ c 1)).trans
      (Function.update_of_ne (StableHlo.devRef_ne_of_ne (by decide) : (Proc.devRef .tc main_v39 : DevRef τ sig) ≠ Proc.devRef .tc main_v40) _ _).symm
  | ⟨2, _⟩ => by
    show out2 m c = Function.update (X4 m c) (Proc.devRef .tc main_v40 : DevRef τ sig) (out2 m c) (Proc.devRef .tc main_v40)
    exact (Function.update_self (Proc.devRef .tc main_v40 : DevRef τ sig) (out2 m c) (X4 m c)).symm

/-- and every other buffer what it held at the entry. -/
theorem exit_rest2 (c : Dev nD) : ∀ b, b ∉ Finset.univ.image (Pipeline.arrRef spec2) → atTc (X5 m) c b = atTc (X4 m) c b :=
  fun b hb => Function.update_of_ne (StableHlo.devRef_ne_of_ne fun e => hb (Finset.mem_image.mpr ⟨2, Finset.mem_univ _, e.symm⟩)) _ _

set_option backward.isDefEq.respectTransparency.types false in
/-- LAYER 2'S REGION over the thread state: entered from every unscoped buffer at the contents before it, left
    with them at the contents after it. Its arrays are split out of the unscoped buffers and put back at the exit
    contents; the generator register goes into the region's invariant and comes out; nothing is owed; the kernel has
    no semaphore of its own. -/
def region2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (Layer2.body_obligation (atTc (X4 m)) c).loose
  hwaits := Pipeline.hwaits_of_owed_zero _ _ _ _ L lv 2 fun _ _ => rfl
  pre c := iprop(StableHlo.held (c : Thread nD τ) (Pipeline.ucRefs τ sig) (X4 m c) ∗ R c)
  post c := iprop(StableHlo.held (c : Thread nD τ) (Pipeline.ucRefs τ sig) (X5 m c) ∗ R c)
  X c := iprop(∃ r, prngReg c r)
  Y c := iprop(∃ r, prngReg c r)
  Z c := Pipeline.unscopedRest (Ix := Unit) (Name := ℕ) (U := UR sig nD τ) (Lvl := ℕ) spec2 c (atTc (X4 m) c)
  hentry c := by
    rw [Pipeline.ownSems0_none]
    have hsplit := Pipeline.arrays_of_unscopedBufs (p := 2) (pcfgs (F := F)) adm (pdats m) launch2.win launch2.arr_whole c
      ((pdats m 2 c).share_full fun _ => rfl) (atTc (X4 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (atTc (X4 m) c) (atTc (X5 m) c) ((pdats m 2 c).arrAt · cfg2.N) (exit_arrays2 m c) (exit_rest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- At layer 3's exit each of its arrays holds what the region leaves — the inputs as entered, the output its
    write-backs — -/
theorem exit_arrays3 (c : Dev nD) (w : Fin cfg3.W) :
    (pdats m 3 c).arrAt w cfg3.N = atTc (X7 m) c (Pipeline.arrRef spec3 w) :=
  match w with
  | ⟨0, _⟩ => (((pdats m 3 c).arrAt_in 0 rfl _).trans (Layer3.dat_A _ c 0)).trans
      (Function.update_of_ne (StableHlo.devRef_ne_of_ne (by decide) : (Proc.devRef .tc main_v53 : DevRef τ sig) ≠ Proc.devRef .tc main_v56) _ _).symm
  | ⟨1, _⟩ => (((pdats m 3 c).arrAt_in 1 rfl _).trans (Layer3.dat_A _ c 1)).trans
      (Function.update_of_ne (StableHlo.devRef_ne_of_ne (by decide) : (Proc.devRef .tc main_v55 : DevRef τ sig) ≠ Proc.devRef .tc main_v56) _ _).symm
  | ⟨2, _⟩ => by
    show out3 m c = Function.update (X6 m c) (Proc.devRef .tc main_v56 : DevRef τ sig) (out3 m c) (Proc.devRef .tc main_v56)
    exact (Function.update_self (Proc.devRef .tc main_v56 : DevRef τ sig) (out3 m c) (X6 m c)).symm

/-- and every other buffer what it held at the entry. -/
theorem exit_rest3 (c : Dev nD) : ∀ b, b ∉ Finset.univ.image (Pipeline.arrRef spec3) → atTc (X7 m) c b = atTc (X6 m) c b :=
  fun b hb => Function.update_of_ne (StableHlo.devRef_ne_of_ne fun e => hb (Finset.mem_image.mpr ⟨2, Finset.mem_univ _, e.symm⟩)) _ _

set_option backward.isDefEq.respectTransparency.types false in
/-- LAYER 3'S REGION over the thread state: entered from every unscoped buffer at the contents before it, left
    with them at the contents after it. Its arrays are split out of the unscoped buffers and put back at the exit
    contents; the generator register goes into the region's invariant and comes out; nothing is owed; the kernel has
    no semaphore of its own. -/
def region3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (Layer3.body_obligation (atTc (X6 m)) c).loose
  hwaits := Pipeline.hwaits_of_owed_zero _ _ _ _ L lv 3 fun _ _ => rfl
  pre c := iprop(StableHlo.held (c : Thread nD τ) (Pipeline.ucRefs τ sig) (X6 m c) ∗ R c)
  post c := iprop(StableHlo.held (c : Thread nD τ) (Pipeline.ucRefs τ sig) (X7 m c) ∗ R c)
  X c := iprop(∃ r, prngReg c r)
  Y c := iprop(∃ r, prngReg c r)
  Z c := Pipeline.unscopedRest (Ix := Unit) (Name := ℕ) (U := UR sig nD τ) (Lvl := ℕ) spec3 c (atTc (X6 m) c)
  hentry c := by
    rw [Pipeline.ownSems0_none]
    have hsplit := Pipeline.arrays_of_unscopedBufs (p := 3) (pcfgs (F := F)) adm (pdats m) launch3.win launch3.arr_whole c
      ((pdats m 3 c).share_full fun _ => rfl) (atTc (X6 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (atTc (X6 m) c) (atTc (X7 m) c) ((pdats m 3 c).arrAt · cfg3.N) (exit_arrays3 m c) (exit_rest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

/-- Between any two items the rest of the thread state is `R`. -/
def E : Fin 5 → Dev nD → sProp 𝕄 := fun _ c => R c
theorem E_eq (j : Fin 5) (c : Dev nD) : E (F := F) j c = R c := rfl

/-- The launch element: the staging cells' initial ghost state, and nothing else. -/
abbrev u₀ : UR sig nD τ := initOf (Pipeline.cells cfgs cellOf_inj) (Pipeline.launchToks cfgs cellOf_inj)

theorem launch_ghost : (ownU u₀ : sProp 𝕄)
    ⊢ |={Set.univ}=> iprop(BI.own (emb₁ (initOf (Pipeline.cells cfgs cellOf_inj) (Pipeline.launchToks cfgs cellOf_inj))) ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- What the launch deals each core makes the first rest state: the generator register, and the core owing nothing. -/
theorem first_rest : iprop((bigSep Finset.univ fun c : Dev nD => iprop(unscopedSems0 c ∗ owes (c : Thread nD τ) ((0 : Dev nD → CellTallies nD τ sig Unit) c) ∅
      ∗ Pipeline.launchCred (0 : Dev nD → CellTallies nD τ sig Unit) c ∗ prngReg c (ρ c) ∗ (BI.emp : sProp 𝕄))) ∗ levAts L lv)
    ⊢ (|={Set.univ}=> bigSep Finset.univ (E (F := F) 0) : sProp 𝕄) := by
  refine Pipeline.initEach L lv fun c => ?_
  rw [E_eq]
  iintro ⟨⟨-, HO, -, Hp, -⟩, -⟩
  imodintro
  isplitl [Hp]; · iexists _; iexact Hp
  iexists ∅; iexact HO

theorem last_rest (c : Dev nD) : E (F := F) 4 c ⊢ (iprop(∃ W, owes (c : Thread nD τ) (0 : CellTallies nD τ sig Unit) W) : sProp 𝕄) := by
  rw [E_eq]; iintro ⟨-, H⟩; iexact H

theorem enter0 (c : Dev nD) : iprop(StableHlo.held (c : Thread nD τ) (Pipeline.ucRefs τ sig) (V0 m c) ∗ E (F := F) 0 c) ⊢ (region0 m).pre c := .rfl
theorem leave0 (c : Dev nD) : (region0 m).post c ⊢ iprop(StableHlo.held (c : Thread nD τ) (Pipeline.ucRefs τ sig) (V1 m (outs m) c) ∗ E (F := F) 1 c) := by
  rw [V1_eq]; exact .rfl
theorem enter1 (c : Dev nD) : iprop(StableHlo.held (c : Thread nD τ) (Pipeline.ucRefs τ sig) (V2 m (outs m) c) ∗ E (F := F) 1 c) ⊢ (region1 m).pre c := by
  rw [V2_eq]; exact .rfl
theorem leave1 (c : Dev nD) : (region1 m).post c ⊢ iprop(StableHlo.held (c : Thread nD τ) (Pipeline.ucRefs τ sig) (V3 m (outs m) c) ∗ E (F := F) 2 c) := by
  rw [V3_eq]; exact .rfl
theorem enter2 (c : Dev nD) : iprop(StableHlo.held (c : Thread nD τ) (Pipeline.ucRefs τ sig) (V4 m (outs m) c) ∗ E (F := F) 2 c) ⊢ (region2 m).pre c := by
  rw [V4_eq]; exact .rfl
theorem leave2 (c : Dev nD) : (region2 m).post c ⊢ iprop(StableHlo.held (c : Thread nD τ) (Pipeline.ucRefs τ sig) (V5 m (outs m) c) ∗ E (F := F) 3 c) := by
  rw [V5_eq]; exact .rfl
theorem enter3 (c : Dev nD) : iprop(StableHlo.held (c : Thread nD τ) (Pipeline.ucRefs τ sig) (V6 m (outs m) c) ∗ E (F := F) 3 c) ⊢ (region3 m).pre c := by
  rw [V6_eq]; exact .rfl
theorem leave3 (c : Dev nD) : (region3 m).post c ⊢ iprop(StableHlo.held (c : Thread nD τ) (Pipeline.ucRefs τ sig) (V7 m (outs m) c) ∗ E (F := F) 4 c) := by
  rw [V7_eq]; exact .rfl

/-- THE FRAME: from any memory with zero counters every weakly fair execution of the main program terminates,
    nothing faulting, and every final memory holds the five inputs as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_cond (F := F) m emb₁ () 𝒱₀ L lv (fun _ _ => rfl) ρ (outs m) (pdats m) 0 (fun _ => (BI.emp : sProp 𝕄)) u₀ (launch_ghost (F := F))
    E (first_rest ρ) last_rest
    (region0 m) (enter0 m) (leave0 m) (region1 m) (enter1 m) (leave1 m)
    (region2 m) (enter2 m) (leave2 m) (region3 m) (enter3 m) (leave3 m)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN, WITH ITS RESULT: the same launch, its last thread state read also at the result buffer — every final
    memory holds the result at the contents after the last host stretch, `X8`, beside the five inputs as launched. -/
theorem run : θ_run defs (onTc (τ := τ) (main (F := F))) ⟨m, fun _ => 0, ρ⟩ (fun r => ∀ c : Dev nD,
      r.2.mem ((c.tc : Thread nD τ).loc main_v57) = X8 m c main_v57
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine Pipeline.θ_run_regions_kit_dev (pcfgs (F := F)) adm (pdats m) () cellOf_inj emb₁ defs₀ 𝒱₀ L lv m ρ main
    (segs m (outs m) 𝒱₀ L lv E () (pdats m) (region0 m) (region1 m) (region2 m) (region3 m))
    (fun c Q => by
      rewrite [main_chain c, Pipeline.Seg.run_eq_chain,
        show (segs m (outs m) 𝒱₀ L lv E () (pdats m) (region0 m) (region1 m) (region2 m) (region3 m) c).map Pipeline.Seg.prog = [
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4 ] from rfl]
      exact .rfl)
    (fun c => by simp only [segs, Pipeline.Seg.pipes_host, Pipeline.Seg.pipes_region, Pipeline.Seg.pipes_nil]; decide) 0 (fun _ _ => rfl)
    (fun _ => (BI.emp : sProp 𝕄)) u₀ (launch_ghost (F := F))
    (T₀ := fun c => iprop(StableHlo.held (c : Thread nD τ) (Pipeline.ucRefs τ sig) (V0 m c) ∗ E 0 c))
    (Tₙ := fun c => StableHlo.held (c : Thread nD τ) (Pipeline.ucRefs τ sig) (V8 m (outs m) c))
    (hch := fun c => ⟨enter0 m c, leave0 m c, enter1 m c, leave1 m c, enter2 m c, leave2 m c, enter3 m c, leave3 m c, sep_mono .rfl (last_rest c)⟩)
    (hinit := ?_)
    (QY := fun c s => s.mem ((c.tc : Thread nD τ).loc main_v57) = X8 m c main_v57
      ∧ s.mem ((c.tc : Thread nD τ).loc main_arg0) = m ((c.tc : Thread nD τ).loc main_arg0) ∧ s.mem ((c.tc : Thread nD τ).loc main_arg1) = m ((c.tc : Thread nD τ).loc main_arg1)
      ∧ s.mem ((c.tc : Thread nD τ).loc main_arg2) = m ((c.tc : Thread nD τ).loc main_arg2) ∧ s.mem ((c.tc : Thread nD τ).loc main_arg3) = m ((c.tc : Thread nD τ).loc main_arg3)
      ∧ s.mem ((c.tc : Thread nD τ).loc main_arg4) = m ((c.tc : Thread nD τ).loc main_arg4))
    (hfin := fun c s' => ?_) (hQ := fun _ h => h)
  · -- the launch: the unscoped buffers are held at the launch contents; the rest makes the first rest state on every core at once
    have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ (BI.emp : sProp 𝕄)))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) ((0 : Dev nD → CellTallies nD τ sig Unit) c) ∅
              ∗ Pipeline.launchCred (0 : Dev nD → CellTallies nD τ sig Unit) c ∗ prngReg c (ρ c) ∗ (BI.emp : sProp 𝕄)))
            : sProp 𝕄) := by
      rw [← bigSep_sep']
      exact bigSep_mono fun c _ => by rw [← Pipeline.unscopedBufs_held (Ix := Unit) (Name := ℕ) (U := UR sig nD τ) (Lvl := ℕ) c (V0 m c)]; exact BI.Entails.refl _
    iintro ⟨H, Hla⟩
    ihave H' := hsplit $$ H
    icases H' with ⟨Hh, Hr⟩
    imod (first_rest (F := F) ρ) $$ [Hr Hla] with HE
    · isplitl [Hr]; · iexact Hr
      iexact Hla
    imodintro
    rw [bigSep_sep']
    isplitl [Hh]; · iexact Hh
    iexact HE
  · -- the end: the result and each input read off the last contents
    unfold StableHlo.held
    iintro ⟨Hh, HSI⟩
    ihave Hr := (pointsTo_read_all (Pipeline.ucRefs τ sig) (fun b => ((c : Thread nD τ).1, b)) (V8 m (outs m) c) s') $$ [Hh HSI]
    · isplitl [Hh] <;> iassumption
    icases Hr with ⟨%h, HSI⟩
    imodintro
    isplitr
    · ipureintro
      exact ⟨(h (Proc.devRef .tc main_v57) (mem_uc main_v57 (by decide))).trans (congrFun (V8_eq m c) _),
        (h (Proc.devRef .tc main_arg0) (mem_uc main_arg0 (by decide))).trans (V8_main_arg0 m (outs m) c),
        (h (Proc.devRef .tc main_arg1) (mem_uc main_arg1 (by decide))).trans (V8_main_arg1 m (outs m) c),
        (h (Proc.devRef .tc main_arg2) (mem_uc main_arg2 (by decide))).trans (V8_main_arg2 m (outs m) c),
        (h (Proc.devRef .tc main_arg3) (mem_uc main_arg3 (by decide))).trans (V8_main_arg3 m (outs m) c),
        (h (Proc.devRef .tc main_arg4) (mem_uc main_arg4 (by decide))).trans (V8_main_arg4 m (outs m) c)⟩
    · iexact HSI

end Cert.Kernel.Whole

end
-- ==== Proof.KernelIdeal.Layer0.lean ====
/-
  Dense layer 0 of the network, as one kernel region: a grid of ten points, each taking a block of 5000 rows of the
  layer's input and the whole 128×128 weight matrix and storing `max (rows · weights, 0)` as the same 5000 rows of the
  layer's output.

  Everything here is stated at a parameter `V`, the contents of the TensorCore's buffers when the region is
  entered. A window's block at a point is the rectangle of its array (as `V` has it) that the point's index map
  selects. The body loads its two input blocks whole, loads the output buffer once without using what it reads,
  and stores one whole block; so after the body the output's staging buffer holds the stored value at every entry,
  a function of the two input blocks alone, and the inputs' buffers are as they were. The proof data record exactly
  this, and the body's triple is the obligation the region's launch asks for at every point.
-/
import proofs.«112503_j81329500717447_1_alg».proof.Proof.Gen.KernelIdeal.Launch
import proofs.«112503_j81329500717447_1_alg».proof.Proof.Gen.KernelIdeal.Skeleton
import proofs.«112503_j81329500717447_1_alg».proof.Proof.Gen.KernelIdeal.Points
import Idealize.ShloMosaic.Lib.Pipeline.FrameBody
import Idealize.ShloMosaic.Lib.Pipeline.Regions
import Idealize.ShloMosaic.Lib.Tactic

set_option maxRecDepth 16384

noncomputable section

namespace Cert.KernelIdeal.Layer0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`: the rectangle of the window's array, as the region finds it, that the
    point's index map selects. -/
def blockAt (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rows window's staging buffer holds the point's block of rows whenever the body is called, for any proof
    data whose array is `V`'s and whose body leaves the block in place. -/
theorem rows_found_of {c : Dev nD} (dat : Dat τ (Elt F) Unit ℕ (UR sig nD τ) ℕ cfg0 c) (hA : dat.A 0 = V c (Pipeline.arrRef spec0 0))
    (hafter : ∀ t, dat.after 0 t = blockAt V c 0 t) (t : Fin cfg0.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- The weights window's staging buffer holds the whole weight matrix whenever the body is called: it is fetched at
    the first point, and its index never moves. -/
theorem weights_found_of {c : Dev nD} (dat : Dat τ (Elt F) Unit ℕ (UR sig nD τ) ℕ cfg0 c) (hA : dat.A 1 = V c (Pipeline.arrRef spec0 1))
    (hafter : ∀ t, dat.after 1 t = blockAt V c 1 t) (t : Fin cfg0.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-! ## What the body stores -/

/-- The whole block of rows, and the whole weight matrix, as rectangles. -/
abbrev rowsRect : Rect S5000x128 := Rect.unit (s := S5000x128) ![0, 0] S5000x128.size inb_S5000x128_S5000x128_0_0
abbrev weightsRect : Rect S128x128 := Rect.unit (s := S128x128) ![0, 0] S128x128.size inb_S128x128_S128x128_0_0

/-- The output's staging buffer after the body, from the two input blocks: the one store, of the whole block. -/
def stored (x : Vec F S5000x128 .f32) (w : Vec F S128x128 .f32) : Vec F S5000x128 .f32 :=
  View.canon [⟨rowsRect, k0_pay1 (View.ld x rowsRect) (View.ld w weightsRect)⟩]

/-- The one store covers the buffer. -/
theorem stored_covers (p0 : Vec F S5000x128 .f32) (y : S5000x128.Idx) :
    ∃ pc ∈ ([⟨rowsRect, p0⟩] : List (View.Piece (Elt F) S5000x128 .f32)), y ∈ pc.1.set :=
  View.cover_of_tiled [⟨rowsRect, p0⟩] S5000x128.size (by rfl) y

/-! ## The body's triple -/

set_option maxHeartbeats 1000000 in
/-- The body on whole staging buffers — the inputs' at contents `x`, `w`, the output's at anything — runs to its
    end leaving the inputs' as they were and the output's at `stored x w`. -/
theorem body_runs (c : Dev nD) (E : Set ℕ) (i : grid0.Coords)
    (arg1 : Memref sig .tc .vmem S5000x128 .f32) (harg1 : arg1.IsWhole) (arg2 : Memref sig .tc .vmem S128x128 .f32) (harg2 : arg2.IsWhole)
    (arg3 : Memref sig .tc .vmem S5000x128 .f32) (harg3 : arg3.IsWhole)
    (x : Vec F S5000x128 .f32) (w : Vec F S128x128 .f32) (K : PUnit → sProp 𝕄) :
    iprop(owns (c : Thread nD τ) arg1 fullShare x ∗ owns (c : Thread nD τ) arg2 fullShare w ∗ (∃ d, owns (c : Thread nD τ) arg3 fullShare d)
        ∗ (iprop(owns (c : Thread nD τ) arg1 fullShare x ∗ owns (c : Thread nD τ) arg2 fullShare w
            ∗ owns (c : Thread nD τ) arg3 fullShare (stored x w)) -∗ K ⟨⟩))
      ⊢ wp frame (wpE (defs₀ (F := F)) Variants.none c none) E (cc0__linear_relu_kernel i arg1 harg1 arg2 harg2 arg3 harg3) K := by
  simp only [cc0__linear_relu_kernel_eq_skeleton]; unfold cc0__linear_relu_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (stored_covers _)

/-! ## The region's proof data -/

/-- The proof data of this region on core `c`: the arrays as the region finds them; after the body at point `t`
    each input's buffer at its block and the output's at `stored` of the two blocks; the invariant is the scoped rest
    and the generator register, untouched; nothing is owed; full shares. -/
def dat (c : Dev nD) : Dat τ (Elt F) Unit ℕ (UR sig nD τ) ℕ cfg0 c where
  A w := V c (Pipeline.arrRef spec0 w)
  after w t := match w with
    | ⟨0, _⟩ => blockAt V c 0 t
    | ⟨1, _⟩ => blockAt V c 1 t
    | ⟨2, _⟩ => stored (blockAt V c 0 t) (blockAt V c 1 t)
  Φ _ := Pipeline.ΦA spec0 c
  q _ := fullShare
  owed _ := 0

theorem dat_A (c : Dev nD) (w : Fin cfg0.W) : (dat V c).A w = V c (Pipeline.arrRef spec0 w) := by
  dsimp only [dat]

theorem after_rows (c : Dev nD) (t : Fin cfg0.N) : (dat V c).after 0 t = blockAt V c 0 t := by dsimp only [dat]
theorem after_weights (c : Dev nD) (t : Fin cfg0.N) : (dat V c).after 1 t = blockAt V c 1 t := by dsimp only [dat]
theorem after_out (c : Dev nD) (t : Fin cfg0.N) :
    (dat V c).after 2 t = stored (blockAt V c 0 t) (blockAt V c 1 t) := by dsimp only [dat]

theorem rows_found (c : Dev nD) (t : Fin cfg0.N) (d) : (dat V c).before 0 t d = blockAt V c 0 t :=
  rows_found_of V (dat V c) (dat_A V c 0) (after_rows V c) t d
theorem weights_found (c : Dev nD) (t : Fin cfg0.N) (d) : (dat V c).before 1 t d = blockAt V c 1 t :=
  weights_found_of V (dat V c) (dat_A V c 1) (after_weights V c) t d

/-! ## The body obligation -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t))

/-- The body at any point: the inputs' buffers hold their blocks, so `body_runs` applies; the invariant and the
    core's dues pass through unread. -/
theorem body_sound (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [rows_found, weights_found]
  rw [show (dat V c).Φ t.succ = (dat V c).Φ t.castSucc from rfl,
    show (dat V c).owesAt () t.succ = (dat V c).owesAt () t.castSucc from rfl,
    after_rows, after_weights, after_out]
  iintro ⟨HΦ, Ho, ⟨%d0, H0⟩, ⟨%d1, H1⟩, ⟨%d2, H2⟩⟩
  iapply (body_runs c Set.univ _ _ _ _ _ _ _ (blockAt V c 0 t) (blockAt V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The launch's body obligation, at every point. -/
theorem body_obligation (c : Dev nD) : BodyObligation (dat (F := F) V c) (defs₀ (F := F)) Variants.none () Set.univ := fun t => by
  rw [bigSep_W0, bigSep_W0]
  exact body_sound V c t

end Cert.KernelIdeal.Layer0

end
-- ==== Proof.KernelIdeal.Layer1.lean ====
/-
  Dense layer 1 of the network, as one kernel region: a grid of ten points, each taking a block of 5000 rows of the
  layer's input and the whole 128×128 weight matrix and storing `max (rows · weights, 0)` as the same 5000 rows of the
  layer's output.

  Everything here is stated at a parameter `V`, the contents of the TensorCore's buffers when the region is
  entered. A window's block at a point is the rectangle of its array (as `V` has it) that the point's index map
  selects. The body loads its two input blocks whole, loads the output buffer once without using what it reads,
  and stores one whole block; so after the body the output's staging buffer holds the stored value at every entry,
  a function of the two input blocks alone, and the inputs' buffers are as they were. The proof data record exactly
  this, and the body's triple is the obligation the region's launch asks for at every point.
-/
import proofs.«112503_j81329500717447_1_alg».proof.Proof.Gen.KernelIdeal.Launch
import proofs.«112503_j81329500717447_1_alg».proof.Proof.Gen.KernelIdeal.Skeleton
import proofs.«112503_j81329500717447_1_alg».proof.Proof.Gen.KernelIdeal.Points
import Idealize.ShloMosaic.Lib.Pipeline.FrameBody
import Idealize.ShloMosaic.Lib.Pipeline.Regions
import Idealize.ShloMosaic.Lib.Tactic

set_option maxRecDepth 16384

noncomputable section

namespace Cert.KernelIdeal.Layer1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`: the rectangle of the window's array, as the region finds it, that the
    point's index map selects. -/
def blockAt (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The rows window's staging buffer holds the point's block of rows whenever the body is called, for any proof
    data whose array is `V`'s and whose body leaves the block in place. -/
theorem rows_found_of {c : Dev nD} (dat : Dat τ (Elt F) Unit ℕ (UR sig nD τ) ℕ cfg1 c) (hA : dat.A 0 = V c (Pipeline.arrRef spec1 0))
    (hafter : ∀ t, dat.after 0 t = blockAt V c 0 t) (t : Fin cfg1.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- The weights window's staging buffer holds the whole weight matrix whenever the body is called: it is fetched at
    the first point, and its index never moves. -/
theorem weights_found_of {c : Dev nD} (dat : Dat τ (Elt F) Unit ℕ (UR sig nD τ) ℕ cfg1 c) (hA : dat.A 1 = V c (Pipeline.arrRef spec1 1))
    (hafter : ∀ t, dat.after 1 t = blockAt V c 1 t) (t : Fin cfg1.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-! ## What the body stores -/

/-- The whole block of rows, and the whole weight matrix, as rectangles. -/
abbrev rowsRect : Rect S5000x128 := Rect.unit (s := S5000x128) ![0, 0] S5000x128.size inb_S5000x128_S5000x128_0_0
abbrev weightsRect : Rect S128x128 := Rect.unit (s := S128x128) ![0, 0] S128x128.size inb_S128x128_S128x128_0_0

/-- The output's staging buffer after the body, from the two input blocks: the one store, of the whole block. -/
def stored (x : Vec F S5000x128 .f32) (w : Vec F S128x128 .f32) : Vec F S5000x128 .f32 :=
  View.canon [⟨rowsRect, k1_pay1 (View.ld x rowsRect) (View.ld w weightsRect)⟩]

/-- The one store covers the buffer. -/
theorem stored_covers (p0 : Vec F S5000x128 .f32) (y : S5000x128.Idx) :
    ∃ pc ∈ ([⟨rowsRect, p0⟩] : List (View.Piece (Elt F) S5000x128 .f32)), y ∈ pc.1.set :=
  View.cover_of_tiled [⟨rowsRect, p0⟩] S5000x128.size (by rfl) y

/-! ## The body's triple -/

set_option maxHeartbeats 1000000 in
/-- The body on whole staging buffers — the inputs' at contents `x`, `w`, the output's at anything — runs to its
    end leaving the inputs' as they were and the output's at `stored x w`. -/
theorem body_runs (c : Dev nD) (E : Set ℕ) (i : grid1.Coords)
    (arg1 : Memref sig .tc .vmem S5000x128 .f32) (harg1 : arg1.IsWhole) (arg2 : Memref sig .tc .vmem S128x128 .f32) (harg2 : arg2.IsWhole)
    (arg3 : Memref sig .tc .vmem S5000x128 .f32) (harg3 : arg3.IsWhole)
    (x : Vec F S5000x128 .f32) (w : Vec F S128x128 .f32) (K : PUnit → sProp 𝕄) :
    iprop(owns (c : Thread nD τ) arg1 fullShare x ∗ owns (c : Thread nD τ) arg2 fullShare w ∗ (∃ d, owns (c : Thread nD τ) arg3 fullShare d)
        ∗ (iprop(owns (c : Thread nD τ) arg1 fullShare x ∗ owns (c : Thread nD τ) arg2 fullShare w
            ∗ owns (c : Thread nD τ) arg3 fullShare (stored x w)) -∗ K ⟨⟩))
      ⊢ wp frame (wpE (defs₀ (F := F)) Variants.none c none) E (cc1__linear_relu_kernel i arg1 harg1 arg2 harg2 arg3 harg3) K := by
  simp only [cc1__linear_relu_kernel_eq_skeleton]; unfold cc1__linear_relu_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (stored_covers _)

/-! ## The region's proof data -/

/-- The proof data of this region on core `c`: the arrays as the region finds them; after the body at point `t`
    each input's buffer at its block and the output's at `stored` of the two blocks; the invariant is the scoped rest
    and the generator register, untouched; nothing is owed; full shares. -/
def dat (c : Dev nD) : Dat τ (Elt F) Unit ℕ (UR sig nD τ) ℕ cfg1 c where
  A w := V c (Pipeline.arrRef spec1 w)
  after w t := match w with
    | ⟨0, _⟩ => blockAt V c 0 t
    | ⟨1, _⟩ => blockAt V c 1 t
    | ⟨2, _⟩ => stored (blockAt V c 0 t) (blockAt V c 1 t)
  Φ _ := Pipeline.ΦA spec1 c
  q _ := fullShare
  owed _ := 0

theorem dat_A (c : Dev nD) (w : Fin cfg1.W) : (dat V c).A w = V c (Pipeline.arrRef spec1 w) := by
  dsimp only [dat]

theorem after_rows (c : Dev nD) (t : Fin cfg1.N) : (dat V c).after 0 t = blockAt V c 0 t := by dsimp only [dat]
theorem after_weights (c : Dev nD) (t : Fin cfg1.N) : (dat V c).after 1 t = blockAt V c 1 t := by dsimp only [dat]
theorem after_out (c : Dev nD) (t : Fin cfg1.N) :
    (dat V c).after 2 t = stored (blockAt V c 0 t) (blockAt V c 1 t) := by dsimp only [dat]

theorem rows_found (c : Dev nD) (t : Fin cfg1.N) (d) : (dat V c).before 0 t d = blockAt V c 0 t :=
  rows_found_of V (dat V c) (dat_A V c 0) (after_rows V c) t d
theorem weights_found (c : Dev nD) (t : Fin cfg1.N) (d) : (dat V c).before 1 t d = blockAt V c 1 t :=
  weights_found_of V (dat V c) (dat_A V c 1) (after_weights V c) t d

/-! ## The body obligation -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t))

/-- The body at any point: the inputs' buffers hold their blocks, so `body_runs` applies; the invariant and the
    core's dues pass through unread. -/
theorem body_sound (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [rows_found, weights_found]
  rw [show (dat V c).Φ t.succ = (dat V c).Φ t.castSucc from rfl,
    show (dat V c).owesAt () t.succ = (dat V c).owesAt () t.castSucc from rfl,
    after_rows, after_weights, after_out]
  iintro ⟨HΦ, Ho, ⟨%d0, H0⟩, ⟨%d1, H1⟩, ⟨%d2, H2⟩⟩
  iapply (body_runs c Set.univ _ _ _ _ _ _ _ (blockAt V c 0 t) (blockAt V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The launch's body obligation, at every point. -/
theorem body_obligation (c : Dev nD) : BodyObligation (dat (F := F) V c) (defs₀ (F := F)) Variants.none () Set.univ := fun t => by
  rw [bigSep_W1, bigSep_W1]
  exact body_sound V c t

end Cert.KernelIdeal.Layer1

end
-- ==== Proof.KernelIdeal.Layer2.lean ====
/-
  Dense layer 2 of the network, as one kernel region: a grid of ten points, each taking a block of 5000 rows of the
  layer's input and the whole 128×128 weight matrix and storing `max (rows · weights, 0)` as the same 5000 rows of the
  layer's output.

  Everything here is stated at a parameter `V`, the contents of the TensorCore's buffers when the region is
  entered. A window's block at a point is the rectangle of its array (as `V` has it) that the point's index map
  selects. The body loads its two input blocks whole, loads the output buffer once without using what it reads,
  and stores one whole block; so after the body the output's staging buffer holds the stored value at every entry,
  a function of the two input blocks alone, and the inputs' buffers are as they were. The proof data record exactly
  this, and the body's triple is the obligation the region's launch asks for at every point.
-/
import proofs.«112503_j81329500717447_1_alg».proof.Proof.Gen.KernelIdeal.Launch
import proofs.«112503_j81329500717447_1_alg».proof.Proof.Gen.KernelIdeal.Skeleton
import proofs.«112503_j81329500717447_1_alg».proof.Proof.Gen.KernelIdeal.Points
import Idealize.ShloMosaic.Lib.Pipeline.FrameBody
import Idealize.ShloMosaic.Lib.Pipeline.Regions
import Idealize.ShloMosaic.Lib.Tactic

set_option maxRecDepth 16384

noncomputable section

namespace Cert.KernelIdeal.Layer2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`: the rectangle of the window's array, as the region finds it, that the
    point's index map selects. -/
def blockAt (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The rows window's staging buffer holds the point's block of rows whenever the body is called, for any proof
    data whose array is `V`'s and whose body leaves the block in place. -/
theorem rows_found_of {c : Dev nD} (dat : Dat τ (Elt F) Unit ℕ (UR sig nD τ) ℕ cfg2 c) (hA : dat.A 0 = V c (Pipeline.arrRef spec2 0))
    (hafter : ∀ t, dat.after 0 t = blockAt V c 0 t) (t : Fin cfg2.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- The weights window's staging buffer holds the whole weight matrix whenever the body is called: it is fetched at
    the first point, and its index never moves. -/
theorem weights_found_of {c : Dev nD} (dat : Dat τ (Elt F) Unit ℕ (UR sig nD τ) ℕ cfg2 c) (hA : dat.A 1 = V c (Pipeline.arrRef spec2 1))
    (hafter : ∀ t, dat.after 1 t = blockAt V c 1 t) (t : Fin cfg2.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-! ## What the body stores -/

/-- The whole block of rows, and the whole weight matrix, as rectangles. -/
abbrev rowsRect : Rect S5000x128 := Rect.unit (s := S5000x128) ![0, 0] S5000x128.size inb_S5000x128_S5000x128_0_0
abbrev weightsRect : Rect S128x128 := Rect.unit (s := S128x128) ![0, 0] S128x128.size inb_S128x128_S128x128_0_0

/-- The output's staging buffer after the body, from the two input blocks: the one store, of the whole block. -/
def stored (x : Vec F S5000x128 .f32) (w : Vec F S128x128 .f32) : Vec F S5000x128 .f32 :=
  View.canon [⟨rowsRect, k2_pay1 (View.ld x rowsRect) (View.ld w weightsRect)⟩]

/-- The one store covers the buffer. -/
theorem stored_covers (p0 : Vec F S5000x128 .f32) (y : S5000x128.Idx) :
    ∃ pc ∈ ([⟨rowsRect, p0⟩] : List (View.Piece (Elt F) S5000x128 .f32)), y ∈ pc.1.set :=
  View.cover_of_tiled [⟨rowsRect, p0⟩] S5000x128.size (by rfl) y

/-! ## The body's triple -/

set_option maxHeartbeats 1000000 in
/-- The body on whole staging buffers — the inputs' at contents `x`, `w`, the output's at anything — runs to its
    end leaving the inputs' as they were and the output's at `stored x w`. -/
theorem body_runs (c : Dev nD) (E : Set ℕ) (i : grid2.Coords)
    (arg1 : Memref sig .tc .vmem S5000x128 .f32) (harg1 : arg1.IsWhole) (arg2 : Memref sig .tc .vmem S128x128 .f32) (harg2 : arg2.IsWhole)
    (arg3 : Memref sig .tc .vmem S5000x128 .f32) (harg3 : arg3.IsWhole)
    (x : Vec F S5000x128 .f32) (w : Vec F S128x128 .f32) (K : PUnit → sProp 𝕄) :
    iprop(owns (c : Thread nD τ) arg1 fullShare x ∗ owns (c : Thread nD τ) arg2 fullShare w ∗ (∃ d, owns (c : Thread nD τ) arg3 fullShare d)
        ∗ (iprop(owns (c : Thread nD τ) arg1 fullShare x ∗ owns (c : Thread nD τ) arg2 fullShare w
            ∗ owns (c : Thread nD τ) arg3 fullShare (stored x w)) -∗ K ⟨⟩))
      ⊢ wp frame (wpE (defs₀ (F := F)) Variants.none c none) E (cc2__linear_relu_kernel i arg1 harg1 arg2 harg2 arg3 harg3) K := by
  simp only [cc2__linear_relu_kernel_eq_skeleton]; unfold cc2__linear_relu_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (stored_covers _)

/-! ## The region's proof data -/

/-- The proof data of this region on core `c`: the arrays as the region finds them; after the body at point `t`
    each input's buffer at its block and the output's at `stored` of the two blocks; the invariant is the scoped rest
    and the generator register, untouched; nothing is owed; full shares. -/
def dat (c : Dev nD) : Dat τ (Elt F) Unit ℕ (UR sig nD τ) ℕ cfg2 c where
  A w := V c (Pipeline.arrRef spec2 w)
  after w t := match w with
    | ⟨0, _⟩ => blockAt V c 0 t
    | ⟨1, _⟩ => blockAt V c 1 t
    | ⟨2, _⟩ => stored (blockAt V c 0 t) (blockAt V c 1 t)
  Φ _ := Pipeline.ΦA spec2 c
  q _ := fullShare
  owed _ := 0

theorem dat_A (c : Dev nD) (w : Fin cfg2.W) : (dat V c).A w = V c (Pipeline.arrRef spec2 w) := by
  dsimp only [dat]

theorem after_rows (c : Dev nD) (t : Fin cfg2.N) : (dat V c).after 0 t = blockAt V c 0 t := by dsimp only [dat]
theorem after_weights (c : Dev nD) (t : Fin cfg2.N) : (dat V c).after 1 t = blockAt V c 1 t := by dsimp only [dat]
theorem after_out (c : Dev nD) (t : Fin cfg2.N) :
    (dat V c).after 2 t = stored (blockAt V c 0 t) (blockAt V c 1 t) := by dsimp only [dat]

theorem rows_found (c : Dev nD) (t : Fin cfg2.N) (d) : (dat V c).before 0 t d = blockAt V c 0 t :=
  rows_found_of V (dat V c) (dat_A V c 0) (after_rows V c) t d
theorem weights_found (c : Dev nD) (t : Fin cfg2.N) (d) : (dat V c).before 1 t d = blockAt V c 1 t :=
  weights_found_of V (dat V c) (dat_A V c 1) (after_weights V c) t d

/-! ## The body obligation -/

/-- What the body is called with at point `t`, the windows one by one, -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d)))

/-- and what it returns. -/
def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t))

/-- The body at any point: the inputs' buffers hold their blocks, so `body_runs` applies; the invariant and the
    core's dues pass through unread. -/
theorem body_sound (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [rows_found, weights_found]
  rw [show (dat V c).Φ t.succ = (dat V c).Φ t.castSucc from rfl,
    show (dat V c).owesAt () t.succ = (dat V c).owesAt () t.castSucc from rfl,
    after_rows, after_weights, after_out]
  iintro ⟨HΦ, Ho, ⟨%d0, H0⟩, ⟨%d1, H1⟩, ⟨%d2, H2⟩⟩
  iapply (body_runs c Set.univ _ _ _ _ _ _ _ (blockAt V c 0 t) (blockAt V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The launch's body obligation, at every point. -/
theorem body_obligation (c : Dev nD) : BodyObligation (dat (F := F) V c) (defs₀ (F := F)) Variants.none () Set.univ := fun t => by
  rw [bigSep_W2, bigSep_W2]
  exact body_sound V c t

end Cert.KernelIdeal.Layer2

end
-- ==== Proof.KernelIdeal.Layer3.lean ====
/-
  Dense layer 3 of the network, as one kernel region: a grid of ten points, each taking a block of 5000 rows of the
  layer's input and the whole 128×128 weight matrix and storing `max (rows · weights, 0)` as the same 5000 rows of the
  layer's output.

  Everything here is stated at a parameter `V`, the contents of the TensorCore's buffers when the region is
  entered. A window's block at a point is the rectangle of its array (as `V` has it) that the point's index map
  selects. The body loads its two input blocks whole, loads the output buffer once without using what it reads,
  and stores one whole block; so after the body the output's staging buffer holds the stored value at every entry,
  a function of the two input blocks alone, and the inputs' buffers are as they were. The proof data record exactly
  this, and the body's triple is the obligation the region's launch asks for at every point.
-/
import proofs.«112503_j81329500717447_1_alg».proof.Proof.Gen.KernelIdeal.Launch
import proofs.«112503_j81329500717447_1_alg».proof.Proof.Gen.KernelIdeal.Skeleton
import proofs.«112503_j81329500717447_1_alg».proof.Proof.Gen.KernelIdeal.Points
import Idealize.ShloMosaic.Lib.Pipeline.FrameBody
import Idealize.ShloMosaic.Lib.Pipeline.Regions
import Idealize.ShloMosaic.Lib.Tactic

set_option maxRecDepth 16384

noncomputable section

namespace Cert.KernelIdeal.Layer3

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`: the rectangle of the window's array, as the region finds it, that the
    point's index map selects. -/
def blockAt (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The rows window's staging buffer holds the point's block of rows whenever the body is called, for any proof
    data whose array is `V`'s and whose body leaves the block in place. -/
theorem rows_found_of {c : Dev nD} (dat : Dat τ (Elt F) Unit ℕ (UR sig nD τ) ℕ cfg3 c) (hA : dat.A 0 = V c (Pipeline.arrRef spec3 0))
    (hafter : ∀ t, dat.after 0 t = blockAt V c 0 t) (t : Fin cfg3.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- The weights window's staging buffer holds the whole weight matrix whenever the body is called: it is fetched at
    the first point, and its index never moves. -/
theorem weights_found_of {c : Dev nD} (dat : Dat τ (Elt F) Unit ℕ (UR sig nD τ) ℕ cfg3 c) (hA : dat.A 1 = V c (Pipeline.arrRef spec3 1))
    (hafter : ∀ t, dat.after 1 t = blockAt V c 1 t) (t : Fin cfg3.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-! ## What the body stores -/

/-- The whole block of rows, and the whole weight matrix, as rectangles. -/
abbrev rowsRect : Rect S5000x128 := Rect.unit (s := S5000x128) ![0, 0] S5000x128.size inb_S5000x128_S5000x128_0_0
abbrev weightsRect : Rect S128x128 := Rect.unit (s := S128x128) ![0, 0] S128x128.size inb_S128x128_S128x128_0_0

/-- The output's staging buffer after the body, from the two input blocks: the one store, of the whole block. -/
def stored (x : Vec F S5000x128 .f32) (w : Vec F S128x128 .f32) : Vec F S5000x128 .f32 :=
  View.canon [⟨rowsRect, k3_pay1 (View.ld x rowsRect) (View.ld w weightsRect)⟩]

/-- The one store covers the buffer. -/
theorem stored_covers (p0 : Vec F S5000x128 .f32) (y : S5000x128.Idx) :
    ∃ pc ∈ ([⟨rowsRect, p0⟩] : List (View.Piece (Elt F) S5000x128 .f32)), y ∈ pc.1.set :=
  View.cover_of_tiled [⟨rowsRect, p0⟩] S5000x128.size (by rfl) y

/-! ## The body's triple -/

set_option maxHeartbeats 1000000 in
/-- The body on whole staging buffers — the inputs' at contents `x`, `w`, the output's at anything — runs to its
    end leaving the inputs' as they were and the output's at `stored x w`. -/
theorem body_runs (c : Dev nD) (E : Set ℕ) (i : grid3.Coords)
    (arg1 : Memref sig .tc .vmem S5000x128 .f32) (harg1 : arg1.IsWhole) (arg2 : Memref sig .tc .vmem S128x128 .f32) (harg2 : arg2.IsWhole)
    (arg3 : Memref sig .tc .vmem S5000x128 .f32) (harg3 : arg3.IsWhole)
    (x : Vec F S5000x128 .f32) (w : Vec F S128x128 .f32) (K : PUnit → sProp 𝕄) :
    iprop(owns (c : Thread nD τ) arg1 fullShare x ∗ owns (c : Thread nD τ) arg2 fullShare w ∗ (∃ d, owns (c : Thread nD τ) arg3 fullShare d)
        ∗ (iprop(owns (c : Thread nD τ) arg1 fullShare x ∗ owns (c : Thread nD τ) arg2 fullShare w
            ∗ owns (c : Thread nD τ) arg3 fullShare (stored x w)) -∗ K ⟨⟩))
      ⊢ wp frame (wpE (defs₀ (F := F)) Variants.none c none) E (cc3__linear_relu_kernel i arg1 harg1 arg2 harg2 arg3 harg3) K := by
  simp only [cc3__linear_relu_kernel_eq_skeleton]; unfold cc3__linear_relu_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (stored_covers _)

/-! ## The region's proof data -/

/-- The proof data of this region on core `c`: the arrays as the region finds them; after the body at point `t`
    each input's buffer at its block and the output's at `stored` of the two blocks; the invariant is the scoped rest
    and the generator register, untouched; nothing is owed; full shares. -/
def dat (c : Dev nD) : Dat τ (Elt F) Unit ℕ (UR sig nD τ) ℕ cfg3 c where
  A w := V c (Pipeline.arrRef spec3 w)
  after w t := match w with
    | ⟨0, _⟩ => blockAt V c 0 t
    | ⟨1, _⟩ => blockAt V c 1 t
    | ⟨2, _⟩ => stored (blockAt V c 0 t) (blockAt V c 1 t)
  Φ _ := Pipeline.ΦA spec3 c
  q _ := fullShare
  owed _ := 0

theorem dat_A (c : Dev nD) (w : Fin cfg3.W) : (dat V c).A w = V c (Pipeline.arrRef spec3 w) := by
  dsimp only [dat]

theorem after_rows (c : Dev nD) (t : Fin cfg3.N) : (dat V c).after 0 t = blockAt V c 0 t := by dsimp only [dat]
theorem after_weights (c : Dev nD) (t : Fin cfg3.N) : (dat V c).after 1 t = blockAt V c 1 t := by dsimp only [dat]
theorem after_out (c : Dev nD) (t : Fin cfg3.N) :
    (dat V c).after 2 t = stored (blockAt V c 0 t) (blockAt V c 1 t) := by dsimp only [dat]

theorem rows_found (c : Dev nD) (t : Fin cfg3.N) (d) : (dat V c).before 0 t d = blockAt V c 0 t :=
  rows_found_of V (dat V c) (dat_A V c 0) (after_rows V c) t d
theorem weights_found (c : Dev nD) (t : Fin cfg3.N) (d) : (dat V c).before 1 t d = blockAt V c 1 t :=
  weights_found_of V (dat V c) (dat_A V c 1) (after_weights V c) t d

/-! ## The body obligation -/

/-- What the body is called with at point `t`, the windows one by one, -/
def bodyPre (c : Dev nD) (t : Fin cfg3.N) : sProp 𝕄 :=
  iprop((dat V c).Φ t.castSucc ∗ (dat V c).owesAt () t.castSucc
    ∗ (∃ d, owns (c : Thread nD τ) (st3_0 t) fullShare ((dat V c).before 0 t d))
    ∗ (∃ d, owns (c : Thread nD τ) (st3_1 t) fullShare ((dat V c).before 1 t d))
    ∗ (∃ d, owns (c : Thread nD τ) (st3_2 t) fullShare ((dat V c).before 2 t d)))

/-- and what it returns. -/
def bodyPost (c : Dev nD) (t : Fin cfg3.N) : sProp 𝕄 :=
  iprop((dat V c).Φ t.succ ∗ (dat V c).owesAt () t.succ
    ∗ owns (c : Thread nD τ) (st3_0 t) fullShare ((dat V c).after 0 t)
    ∗ owns (c : Thread nD τ) (st3_1 t) fullShare ((dat V c).after 1 t)
    ∗ owns (c : Thread nD τ) (st3_2 t) fullShare ((dat V c).after 2 t))

/-- The body at any point: the inputs' buffers hold their blocks, so `body_runs` applies; the invariant and the
    core's dues pass through unread. -/
theorem body_sound (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [rows_found, weights_found]
  rw [show (dat V c).Φ t.succ = (dat V c).Φ t.castSucc from rfl,
    show (dat V c).owesAt () t.succ = (dat V c).owesAt () t.castSucc from rfl,
    after_rows, after_weights, after_out]
  iintro ⟨HΦ, Ho, ⟨%d0, H0⟩, ⟨%d1, H1⟩, ⟨%d2, H2⟩⟩
  iapply (body_runs c Set.univ _ _ _ _ _ _ _ (blockAt V c 0 t) (blockAt V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The launch's body obligation, at every point. -/
theorem body_obligation (c : Dev nD) : BodyObligation (dat (F := F) V c) (defs₀ (F := F)) Variants.none () Set.univ := fun t => by
  rw [bigSep_W3, bigSep_W3]
  exact body_sound V c t

end Cert.KernelIdeal.Layer3

end
-- ==== Proof.KernelIdeal.Between.lean ====
/-
  The buffers' contents between the items of the network's main program.

  The program runs four kernel regions, the dense layers, with stretches of host operations between them. A
  region changes one buffer, its layer's output array, which ends at what the region's write-backs leave: the
  final contents `arrAt` of the region's proof data at its output window, taken at the contents the region was
  entered from. A host stretch changes the buffers its operations write, to the operations' values. Starting from
  the launch memory this gives the contents after each item, one after the other, and the family of "what each
  region leaves" that the frame of the whole program is stated over.
-/
import proofs.«112503_j81329500717447_1_alg».proof.Proof.KernelIdeal.Layer0
import proofs.«112503_j81329500717447_1_alg».proof.Proof.KernelIdeal.Layer1
import proofs.«112503_j81329500717447_1_alg».proof.Proof.KernelIdeal.Layer2
import proofs.«112503_j81329500717447_1_alg».proof.Proof.KernelIdeal.Layer3
import proofs.«112503_j81329500717447_1_alg».proof.Proof.Gen.KernelIdeal.Regions

noncomputable section

namespace Cert.KernelIdeal.Between

open Idealize.ShloMosaic Idealize.ShloMosaic.TcCoe
open Idealize.SL Idealize.SL.Sem
open Cert.KernelIdeal Cert.KernelIdeal.Gen

variable {F : FTy → Type} [FloatOps F]
variable (m : (ℓ : Loc nD τ sig) → Buf (Elt F) ℓ)

/-- A core's buffer contents, read at the TensorCore's references: what a region's proof data take. -/
abbrev atTc (W : Dev nD → Valuation τ sig (Elt F)) : (c : Dev nD) → (b : Ref sig .tc) → Buf (Elt F) ((c : Thread nD τ).loc b) :=
  fun c b => W c b

/-- What layer 0's region leaves in its output array, entered from the launch memory. -/
def out0 (c : Dev nD) : Buf (Elt F) ((c : Thread nD τ).loc main_v0) := (Layer0.dat (atTc (V0 m)) c).arrAt 2 cfg0.N
/-- The contents after layer 0's region. -/
def X1 (c : Dev nD) : Valuation τ sig (Elt F) := Function.update (V0 m c) main_v0 (out0 m c)
/-- The contents after the first host stretch: layer 1's region is entered from them. -/
def X2 (c : Dev nD) : Valuation τ sig (Elt F) := StableHlo.after hostOps1 (X1 m c)
/-- What layer 1's region leaves in its output array. -/
def out1 (c : Dev nD) : Buf (Elt F) ((c : Thread nD τ).loc main_v24) := (Layer1.dat (atTc (X2 m)) c).arrAt 2 cfg1.N
def X3 (c : Dev nD) : Valuation τ sig (Elt F) := Function.update (X2 m c) main_v24 (out1 m c)
def X4 (c : Dev nD) : Valuation τ sig (Elt F) := StableHlo.after hostOps2 (X3 m c)
/-- What layer 2's region leaves in its output array. -/
def out2 (c : Dev nD) : Buf (Elt F) ((c : Thread nD τ).loc main_v40) := (Layer2.dat (atTc (X4 m)) c).arrAt 2 cfg2.N
def X5 (c : Dev nD) : Valuation τ sig (Elt F) := Function.update (X4 m c) main_v40 (out2 m c)
def X6 (c : Dev nD) : Valuation τ sig (Elt F) := StableHlo.after hostOps3 (X5 m c)
/-- What layer 3's region leaves in its output array. -/
def out3 (c : Dev nD) : Buf (Elt F) ((c : Thread nD τ).loc main_v56) := (Layer3.dat (atTc (X6 m)) c).arrAt 2 cfg3.N
def X7 (c : Dev nD) : Valuation τ sig (Elt F) := Function.update (X6 m c) main_v56 (out3 m c)
/-- The contents at the end: after the last host stretch, the concatenation. -/
def X8 (c : Dev nD) : Valuation τ sig (Elt F) := StableHlo.after hostOps4 (X7 m c)

/-- What the regions leave, as the family the program's frame is stated over: after item `J − 1`, a region, the
    contents at that point (read only at the region's output array). -/
def outs : Outs (F := F) := fun J r c => match J with
  | 1 => X1 m c r
  | 3 => X3 m c r
  | 5 => X5 m c r
  | _ => X7 m c r

theorem V1_eq (c : Dev nD) : V1 m (outs m) c = X1 m c := by
  have h : outs m 1 main_v0 c = out0 m c := by
    show Function.update (V0 m c) (main_v0 : DevRef τ sig) (out0 m c) (main_v0 : DevRef τ sig) = _
    exact Function.update_self ..
  show Function.update (V0 m c) (main_v0 : DevRef τ sig) (outs m 1 main_v0 c) = X1 m c
  rw [h]; rfl

theorem V2_eq (c : Dev nD) : V2 m (outs m) c = X2 m c := by
  show StableHlo.after hostOps1 (V1 m (outs m) c) = X2 m c
  rw [V1_eq]; rfl

theorem V3_eq (c : Dev nD) : V3 m (outs m) c = X3 m c := by
  have h : outs m 3 main_v24 c = out1 m c := by
    show Function.update (X2 m c) (main_v24 : DevRef τ sig) (out1 m c) (main_v24 : DevRef τ sig) = _
    exact Function.update_self ..
  show Function.update (V2 m (outs m) c) (main_v24 : DevRef τ sig) (outs m 3 main_v24 c) = X3 m c
  rw [h, V2_eq]; rfl

theorem V4_eq (c : Dev nD) : V4 m (outs m) c = X4 m c := by
  show StableHlo.after hostOps2 (V3 m (outs m) c) = X4 m c
  rw [V3_eq]; rfl

theorem V5_eq (c : Dev nD) : V5 m (outs m) c = X5 m c := by
  have h : outs m 5 main_v40 c = out2 m c := by
    show Function.update (X4 m c) (main_v40 : DevRef τ sig) (out2 m c) (main_v40 : DevRef τ sig) = _
    exact Function.update_self ..
  show Function.update (V4 m (outs m) c) (main_v40 : DevRef τ sig) (outs m 5 main_v40 c) = X5 m c
  rw [h, V4_eq]; rfl

theorem V6_eq (c : Dev nD) : V6 m (outs m) c = X6 m c := by
  show StableHlo.after hostOps3 (V5 m (outs m) c) = X6 m c
  rw [V5_eq]; rfl

theorem V7_eq (c : Dev nD) : V7 m (outs m) c = X7 m c := by
  have h : outs m 7 main_v56 c = out3 m c := by
    show Function.update (X6 m c) (main_v56 : DevRef τ sig) (out3 m c) (main_v56 : DevRef τ sig) = _
    exact Function.update_self ..
  show Function.update (V6 m (outs m) c) (main_v56 : DevRef τ sig) (outs m 7 main_v56 c) = X7 m c
  rw [h, V6_eq]; rfl

theorem V8_eq (c : Dev nD) : V8 m (outs m) c = X8 m c := by
  show StableHlo.after hostOps4 (V7 m (outs m) c) = X8 m c
  rw [V7_eq]; rfl

end Cert.KernelIdeal.Between

end
-- ==== Proof.KernelIdeal.Whole.lean ====
/-
  The network's main program runs to its end, faults nowhere, and leaves its five inputs as launched.

  The main program is four kernel regions, the dense layers, among stretches of host operations. Each region is
  given as a record: the layout its launch decides, the body's obligation at every point (the layer's module), and how
  the thread state — every unscoped buffer of the core at known contents, the generator register at some state,
  nothing owed — enters the region and comes out of it with the layer's output array at what the region's write-backs
  leave. The host stretches, their chaining with the regions, the launch and the reading of the inputs off the last
  contents are the program's conditional frame; what is supplied here are the four records and the thread states.
-/
import proofs.«112503_j81329500717447_1_alg».proof.Proof.KernelIdeal.Between
import Idealize.ShloMosaic.Lib.Pipeline.RegionsLoop
import Idealize.ShloMosaic.Lib.Tactic

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Between

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- Every region's proof data, each at the contents its region is entered from. -/
def pdats : (p : Fin 4) → (c : Dev nD) → Dat τ (Elt F) Unit ℕ (UR sig nD τ) ℕ (cfgs p) c
  | ⟨0, _⟩ => fun c => Layer0.dat (atTc (V0 m)) c
  | ⟨1, _⟩ => fun c => Layer1.dat (atTc (X2 m)) c
  | ⟨2, _⟩ => fun c => Layer2.dat (atTc (X4 m)) c
  | ⟨3, _⟩ => fun c => Layer3.dat (atTc (X6 m)) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state, and its dues,
    at nothing. -/
abbrev R (c : Dev nD) : sProp 𝕄 := iprop((∃ r, prngReg c r) ∗ ∃ W, owes (c : Thread nD τ) (0 : CellTallies nD τ sig Unit) W)

/-! ## The regions -/

/-- At layer 0's exit each of its arrays holds what the region leaves — the inputs as entered, the output its
    write-backs — -/
theorem exit_arrays0 (c : Dev nD) (w : Fin cfg0.W) :
    (pdats m 0 c).arrAt w cfg0.N = atTc (X1 m) c (Pipeline.arrRef spec0 w) :=
  match w with
  | ⟨0, _⟩ => (((pdats m 0 c).arrAt_in 0 rfl _).trans (Layer0.dat_A _ c 0)).trans
      (Function.update_of_ne (StableHlo.devRef_ne_of_ne (by decide) : (Proc.devRef .tc main_arg0 : DevRef τ sig) ≠ Proc.devRef .tc main_v0) _ _).symm
  | ⟨1, _⟩ => (((pdats m 0 c).arrAt_in 1 rfl _).trans (Layer0.dat_A _ c 1)).trans
      (Function.update_of_ne (StableHlo.devRef_ne_of_ne (by decide) : (Proc.devRef .tc main_arg3 : DevRef τ sig) ≠ Proc.devRef .tc main_v0) _ _).symm
  | ⟨2, _⟩ => by
    show out0 m c = Function.update (V0 m c) (Proc.devRef .tc main_v0 : DevRef τ sig) (out0 m c) (Proc.devRef .tc main_v0)
    exact (Function.update_self (Proc.devRef .tc main_v0 : DevRef τ sig) (out0 m c) (V0 m c)).symm

/-- and every other buffer what it held at the entry. -/
theorem exit_rest0 (c : Dev nD) : ∀ b, b ∉ Finset.univ.image (Pipeline.arrRef spec0) → atTc (X1 m) c b = atTc (V0 m) c b :=
  fun b hb => Function.update_of_ne (StableHlo.devRef_ne_of_ne fun e => hb (Finset.mem_image.mpr ⟨2, Finset.mem_univ _, e.symm⟩)) _ _

set_option backward.isDefEq.respectTransparency.types false in
/-- LAYER 0'S REGION over the thread state: entered from every unscoped buffer at the contents before it, left
    with them at the contents after it. Its arrays are split out of the unscoped buffers and put back at the exit
    contents; the generator register goes into the region's invariant and comes out; nothing is owed; the kernel has
    no semaphore of its own. -/
def region0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Layer0.body_obligation (atTc (V0 m)) c).loose
  hwaits := Pipeline.hwaits_of_owed_zero _ _ _ _ L lv 0 fun _ _ => rfl
  pre c := iprop(StableHlo.held (c : Thread nD τ) (Pipeline.ucRefs τ sig) (V0 m c) ∗ R c)
  post c := iprop(StableHlo.held (c : Thread nD τ) (Pipeline.ucRefs τ sig) (X1 m c) ∗ R c)
  X c := iprop(∃ r, prngReg c r)
  Y c := iprop(∃ r, prngReg c r)
  Z c := Pipeline.unscopedRest (Ix := Unit) (Name := ℕ) (U := UR sig nD τ) (Lvl := ℕ) spec0 c (atTc (V0 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (atTc (V0 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (atTc (V0 m) c) (atTc (X1 m) c) ((pdats m 0 c).arrAt · cfg0.N) (exit_arrays0 m c) (exit_rest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- At layer 1's exit each of its arrays holds what the region leaves — the inputs as entered, the output its
    write-backs — -/
theorem exit_arrays1 (c : Dev nD) (w : Fin cfg1.W) :
    (pdats m 1 c).arrAt w cfg1.N = atTc (X3 m) c (Pipeline.arrRef spec1 w) :=
  match w with
  | ⟨0, _⟩ => (((pdats m 1 c).arrAt_in 0 rfl _).trans (Layer1.dat_A _ c 0)).trans
      (Function.update_of_ne (StableHlo.devRef_ne_of_ne (by decide) : (Proc.devRef .tc main_v21 : DevRef τ sig) ≠ Proc.devRef .tc main_v24) _ _).symm
  | ⟨1, _⟩ => (((pdats m 1 c).arrAt_in 1 rfl _).trans (Layer1.dat_A _ c 1)).trans
      (Function.update_of_ne (StableHlo.devRef_ne_of_ne (by decide) : (Proc.devRef .tc main_v23 : DevRef τ sig) ≠ Proc.devRef .tc main_v24) _ _).symm
  | ⟨2, _⟩ => by
    show out1 m c = Function.update (X2 m c) (Proc.devRef .tc main_v24 : DevRef τ sig) (out1 m c) (Proc.devRef .tc main_v24)
    exact (Function.update_self (Proc.devRef .tc main_v24 : DevRef τ sig) (out1 m c) (X2 m c)).symm

/-- and every other buffer what it held at the entry. -/
theorem exit_rest1 (c : Dev nD) : ∀ b, b ∉ Finset.univ.image (Pipeline.arrRef spec1) → atTc (X3 m) c b = atTc (X2 m) c b :=
  fun b hb => Function.update_of_ne (StableHlo.devRef_ne_of_ne fun e => hb (Finset.mem_image.mpr ⟨2, Finset.mem_univ _, e.symm⟩)) _ _

set_option backward.isDefEq.respectTransparency.types false in
/-- LAYER 1'S REGION over the thread state: entered from every unscoped buffer at the contents before it, left
    with them at the contents after it. Its arrays are split out of the unscoped buffers and put back at the exit
    contents; the generator register goes into the region's invariant and comes out; nothing is owed; the kernel has
    no semaphore of its own. -/
def region1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Layer1.body_obligation (atTc (X2 m)) c).loose
  hwaits := Pipeline.hwaits_of_owed_zero _ _ _ _ L lv 1 fun _ _ => rfl
  pre c := iprop(StableHlo.held (c : Thread nD τ) (Pipeline.ucRefs τ sig) (X2 m c) ∗ R c)
  post c := iprop(StableHlo.held (c : Thread nD τ) (Pipeline.ucRefs τ sig) (X3 m c) ∗ R c)
  X c := iprop(∃ r, prngReg c r)
  Y c := iprop(∃ r, prngReg c r)
  Z c := Pipeline.unscopedRest (Ix := Unit) (Name := ℕ) (U := UR sig nD τ) (Lvl := ℕ) spec1 c (atTc (X2 m) c)
  hentry c := by
    rw [Pipeline.ownSems0_none]
    have hsplit := Pipeline.arrays_of_unscopedBufs (p := 1) (pcfgs (F := F)) adm (pdats m) launch1.win launch1.arr_whole c
      ((pdats m 1 c).share_full fun _ => rfl) (atTc (X2 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (atTc (X2 m) c) (atTc (X3 m) c) ((pdats m 1 c).arrAt · cfg1.N) (exit_arrays1 m c) (exit_rest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- At layer 2's exit each of its arrays holds what the region leaves — the inputs as entered, the output its
    write-backs — -/
theorem exit_arrays2 (c : Dev nD) (w : Fin cfg2.W) :
    (pdats m 2 c).arrAt w cfg2.N = atTc (X5 m) c (Pipeline.arrRef spec2 w) :=
  match w with
  | ⟨0, _⟩ => (((pdats m 2 c).arrAt_in 0 rfl _).trans (Layer2.dat_A _ c 0)).trans
      (Function.update_of_ne (StableHlo.devRef_ne_of_ne (by decide) : (Proc.devRef .tc main_v37 : DevRef τ sig) ≠ Proc.devRef .tc main_v40) _ _).symm
  | ⟨1, _⟩ => (((pdats m 2 c).arrAt_in 1 rfl _).trans (Layer2.dat_A _ c 1)).trans
      (Function.update_of_ne (StableHlo.devRef_ne_of_ne (by decide) : (Proc.devRef .tc main_v39 : DevRef τ sig) ≠ Proc.devRef .tc main_v40) _ _).symm
  | ⟨2, _⟩ => by
    show out2 m c = Function.update (X4 m c) (Proc.devRef .tc main_v40 : DevRef τ sig) (out2 m c) (Proc.devRef .tc main_v40)
    exact (Function.update_self (Proc.devRef .tc main_v40 : DevRef τ sig) (out2 m c) (X4 m c)).symm

/-- and every other buffer what it held at the entry. -/
theorem exit_rest2 (c : Dev nD) : ∀ b, b ∉ Finset.univ.image (Pipeline.arrRef spec2) → atTc (X5 m) c b = atTc (X4 m) c b :=
  fun b hb => Function.update_of_ne (StableHlo.devRef_ne_of_ne fun e => hb (Finset.mem_image.mpr ⟨2, Finset.mem_univ _, e.symm⟩)) _ _

set_option backward.isDefEq.respectTransparency.types false in
/-- LAYER 2'S REGION over the thread state: entered from every unscoped buffer at the contents before it, left
    with them at the contents after it. Its arrays are split out of the unscoped buffers and put back at the exit
    contents; the generator register goes into the region's invariant and comes out; nothing is owed; the kernel has
    no semaphore of its own. -/
def region2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (Layer2.body_obligation (atTc (X4 m)) c).loose
  hwaits := Pipeline.hwaits_of_owed_zero _ _ _ _ L lv 2 fun _ _ => rfl
  pre c := iprop(StableHlo.held (c : Thread nD τ) (Pipeline.ucRefs τ sig) (X4 m c) ∗ R c)
  post c := iprop(StableHlo.held (c : Thread nD τ) (Pipeline.ucRefs τ sig) (X5 m c) ∗ R c)
  X c := iprop(∃ r, prngReg c r)
  Y c := iprop(∃ r, prngReg c r)
  Z c := Pipeline.unscopedRest (Ix := Unit) (Name := ℕ) (U := UR sig nD τ) (Lvl := ℕ) spec2 c (atTc (X4 m) c)
  hentry c := by
    rw [Pipeline.ownSems0_none]
    have hsplit := Pipeline.arrays_of_unscopedBufs (p := 2) (pcfgs (F := F)) adm (pdats m) launch2.win launch2.arr_whole c
      ((pdats m 2 c).share_full fun _ => rfl) (atTc (X4 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (atTc (X4 m) c) (atTc (X5 m) c) ((pdats m 2 c).arrAt · cfg2.N) (exit_arrays2 m c) (exit_rest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- At layer 3's exit each of its arrays holds what the region leaves — the inputs as entered, the output its
    write-backs — -/
theorem exit_arrays3 (c : Dev nD) (w : Fin cfg3.W) :
    (pdats m 3 c).arrAt w cfg3.N = atTc (X7 m) c (Pipeline.arrRef spec3 w) :=
  match w with
  | ⟨0, _⟩ => (((pdats m 3 c).arrAt_in 0 rfl _).trans (Layer3.dat_A _ c 0)).trans
      (Function.update_of_ne (StableHlo.devRef_ne_of_ne (by decide) : (Proc.devRef .tc main_v53 : DevRef τ sig) ≠ Proc.devRef .tc main_v56) _ _).symm
  | ⟨1, _⟩ => (((pdats m 3 c).arrAt_in 1 rfl _).trans (Layer3.dat_A _ c 1)).trans
      (Function.update_of_ne (StableHlo.devRef_ne_of_ne (by decide) : (Proc.devRef .tc main_v55 : DevRef τ sig) ≠ Proc.devRef .tc main_v56) _ _).symm
  | ⟨2, _⟩ => by
    show out3 m c = Function.update (X6 m c) (Proc.devRef .tc main_v56 : DevRef τ sig) (out3 m c) (Proc.devRef .tc main_v56)
    exact (Function.update_self (Proc.devRef .tc main_v56 : DevRef τ sig) (out3 m c) (X6 m c)).symm

/-- and every other buffer what it held at the entry. -/
theorem exit_rest3 (c : Dev nD) : ∀ b, b ∉ Finset.univ.image (Pipeline.arrRef spec3) → atTc (X7 m) c b = atTc (X6 m) c b :=
  fun b hb => Function.update_of_ne (StableHlo.devRef_ne_of_ne fun e => hb (Finset.mem_image.mpr ⟨2, Finset.mem_univ _, e.symm⟩)) _ _

set_option backward.isDefEq.respectTransparency.types false in
/-- LAYER 3'S REGION over the thread state: entered from every unscoped buffer at the contents before it, left
    with them at the contents after it. Its arrays are split out of the unscoped buffers and put back at the exit
    contents; the generator register goes into the region's invariant and comes out; nothing is owed; the kernel has
    no semaphore of its own. -/
def region3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (Layer3.body_obligation (atTc (X6 m)) c).loose
  hwaits := Pipeline.hwaits_of_owed_zero _ _ _ _ L lv 3 fun _ _ => rfl
  pre c := iprop(StableHlo.held (c : Thread nD τ) (Pipeline.ucRefs τ sig) (X6 m c) ∗ R c)
  post c := iprop(StableHlo.held (c : Thread nD τ) (Pipeline.ucRefs τ sig) (X7 m c) ∗ R c)
  X c := iprop(∃ r, prngReg c r)
  Y c := iprop(∃ r, prngReg c r)
  Z c := Pipeline.unscopedRest (Ix := Unit) (Name := ℕ) (U := UR sig nD τ) (Lvl := ℕ) spec3 c (atTc (X6 m) c)
  hentry c := by
    rw [Pipeline.ownSems0_none]
    have hsplit := Pipeline.arrays_of_unscopedBufs (p := 3) (pcfgs (F := F)) adm (pdats m) launch3.win launch3.arr_whole c
      ((pdats m 3 c).share_full fun _ => rfl) (atTc (X6 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (atTc (X6 m) c) (atTc (X7 m) c) ((pdats m 3 c).arrAt · cfg3.N) (exit_arrays3 m c) (exit_rest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

/-- Between any two items the rest of the thread state is `R`. -/
def E : Fin 5 → Dev nD → sProp 𝕄 := fun _ c => R c
theorem E_eq (j : Fin 5) (c : Dev nD) : E (F := F) j c = R c := rfl

/-- The launch element: the staging cells' initial ghost state, and nothing else. -/
abbrev u₀ : UR sig nD τ := initOf (Pipeline.cells cfgs cellOf_inj) (Pipeline.launchToks cfgs cellOf_inj)

theorem launch_ghost : (ownU u₀ : sProp 𝕄)
    ⊢ |={Set.univ}=> iprop(BI.own (emb₁ (initOf (Pipeline.cells cfgs cellOf_inj) (Pipeline.launchToks cfgs cellOf_inj))) ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- What the launch deals each core makes the first rest state: the generator register, and the core owing nothing. -/
theorem first_rest : iprop((bigSep Finset.univ fun c : Dev nD => iprop(unscopedSems0 c ∗ owes (c : Thread nD τ) ((0 : Dev nD → CellTallies nD τ sig Unit) c) ∅
      ∗ Pipeline.launchCred (0 : Dev nD → CellTallies nD τ sig Unit) c ∗ prngReg c (ρ c) ∗ (BI.emp : sProp 𝕄))) ∗ levAts L lv)
    ⊢ (|={Set.univ}=> bigSep Finset.univ (E (F := F) 0) : sProp 𝕄) := by
  refine Pipeline.initEach L lv fun c => ?_
  rw [E_eq]
  iintro ⟨⟨-, HO, -, Hp, -⟩, -⟩
  imodintro
  isplitl [Hp]; · iexists _; iexact Hp
  iexists ∅; iexact HO

theorem last_rest (c : Dev nD) : E (F := F) 4 c ⊢ (iprop(∃ W, owes (c : Thread nD τ) (0 : CellTallies nD τ sig Unit) W) : sProp 𝕄) := by
  rw [E_eq]; iintro ⟨-, H⟩; iexact H

theorem enter0 (c : Dev nD) : iprop(StableHlo.held (c : Thread nD τ) (Pipeline.ucRefs τ sig) (V0 m c) ∗ E (F := F) 0 c) ⊢ (region0 m).pre c := .rfl
theorem leave0 (c : Dev nD) : (region0 m).post c ⊢ iprop(StableHlo.held (c : Thread nD τ) (Pipeline.ucRefs τ sig) (V1 m (outs m) c) ∗ E (F := F) 1 c) := by
  rw [V1_eq]; exact .rfl
theorem enter1 (c : Dev nD) : iprop(StableHlo.held (c : Thread nD τ) (Pipeline.ucRefs τ sig) (V2 m (outs m) c) ∗ E (F := F) 1 c) ⊢ (region1 m).pre c := by
  rw [V2_eq]; exact .rfl
theorem leave1 (c : Dev nD) : (region1 m).post c ⊢ iprop(StableHlo.held (c : Thread nD τ) (Pipeline.ucRefs τ sig) (V3 m (outs m) c) ∗ E (F := F) 2 c) := by
  rw [V3_eq]; exact .rfl
theorem enter2 (c : Dev nD) : iprop(StableHlo.held (c : Thread nD τ) (Pipeline.ucRefs τ sig) (V4 m (outs m) c) ∗ E (F := F) 2 c) ⊢ (region2 m).pre c := by
  rw [V4_eq]; exact .rfl
theorem leave2 (c : Dev nD) : (region2 m).post c ⊢ iprop(StableHlo.held (c : Thread nD τ) (Pipeline.ucRefs τ sig) (V5 m (outs m) c) ∗ E (F := F) 3 c) := by
  rw [V5_eq]; exact .rfl
theorem enter3 (c : Dev nD) : iprop(StableHlo.held (c : Thread nD τ) (Pipeline.ucRefs τ sig) (V6 m (outs m) c) ∗ E (F := F) 3 c) ⊢ (region3 m).pre c := by
  rw [V6_eq]; exact .rfl
theorem leave3 (c : Dev nD) : (region3 m).post c ⊢ iprop(StableHlo.held (c : Thread nD τ) (Pipeline.ucRefs τ sig) (V7 m (outs m) c) ∗ E (F := F) 4 c) := by
  rw [V7_eq]; exact .rfl

/-- THE FRAME: from any memory with zero counters every weakly fair execution of the main program terminates,
    nothing faulting, and every final memory holds the five inputs as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_cond (F := F) m emb₁ () 𝒱₀ L lv (fun _ _ => rfl) ρ (outs m) (pdats m) 0 (fun _ => (BI.emp : sProp 𝕄)) u₀ (launch_ghost (F := F))
    E (first_rest ρ) last_rest
    (region0 m) (enter0 m) (leave0 m) (region1 m) (enter1 m) (leave1 m)
    (region2 m) (enter2 m) (leave2 m) (region3 m) (enter3 m) (leave3 m)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN, WITH ITS RESULT: the same launch, its last thread state read also at the result buffer — every final
    memory holds the result at the contents after the last host stretch, `X8`, beside the five inputs as launched. -/
theorem run : θ_run defs (onTc (τ := τ) (main (F := F))) ⟨m, fun _ => 0, ρ⟩ (fun r => ∀ c : Dev nD,
      r.2.mem ((c.tc : Thread nD τ).loc main_v57) = X8 m c main_v57
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine Pipeline.θ_run_regions_kit_dev (pcfgs (F := F)) adm (pdats m) () cellOf_inj emb₁ defs₀ 𝒱₀ L lv m ρ main
    (segs m (outs m) 𝒱₀ L lv E () (pdats m) (region0 m) (region1 m) (region2 m) (region3 m))
    (fun c Q => by
      rewrite [main_chain c, Pipeline.Seg.run_eq_chain,
        show (segs m (outs m) 𝒱₀ L lv E () (pdats m) (region0 m) (region1 m) (region2 m) (region3 m) c).map Pipeline.Seg.prog = [
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4 ] from rfl]
      exact .rfl)
    (fun c => by simp only [segs, Pipeline.Seg.pipes_host, Pipeline.Seg.pipes_region, Pipeline.Seg.pipes_nil]; decide) 0 (fun _ _ => rfl)
    (fun _ => (BI.emp : sProp 𝕄)) u₀ (launch_ghost (F := F))
    (T₀ := fun c => iprop(StableHlo.held (c : Thread nD τ) (Pipeline.ucRefs τ sig) (V0 m c) ∗ E 0 c))
    (Tₙ := fun c => StableHlo.held (c : Thread nD τ) (Pipeline.ucRefs τ sig) (V8 m (outs m) c))
    (hch := fun c => ⟨enter0 m c, leave0 m c, enter1 m c, leave1 m c, enter2 m c, leave2 m c, enter3 m c, leave3 m c, sep_mono .rfl (last_rest c)⟩)
    (hinit := ?_)
    (QY := fun c s => s.mem ((c.tc : Thread nD τ).loc main_v57) = X8 m c main_v57
      ∧ s.mem ((c.tc : Thread nD τ).loc main_arg0) = m ((c.tc : Thread nD τ).loc main_arg0) ∧ s.mem ((c.tc : Thread nD τ).loc main_arg1) = m ((c.tc : Thread nD τ).loc main_arg1)
      ∧ s.mem ((c.tc : Thread nD τ).loc main_arg2) = m ((c.tc : Thread nD τ).loc main_arg2) ∧ s.mem ((c.tc : Thread nD τ).loc main_arg3) = m ((c.tc : Thread nD τ).loc main_arg3)
      ∧ s.mem ((c.tc : Thread nD τ).loc main_arg4) = m ((c.tc : Thread nD τ).loc main_arg4))
    (hfin := fun c s' => ?_) (hQ := fun _ h => h)
  · -- the launch: the unscoped buffers are held at the launch contents; the rest makes the first rest state on every core at once
    have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ (BI.emp : sProp 𝕄)))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) ((0 : Dev nD → CellTallies nD τ sig Unit) c) ∅
              ∗ Pipeline.launchCred (0 : Dev nD → CellTallies nD τ sig Unit) c ∗ prngReg c (ρ c) ∗ (BI.emp : sProp 𝕄)))
            : sProp 𝕄) := by
      rw [← bigSep_sep']
      exact bigSep_mono fun c _ => by rw [← Pipeline.unscopedBufs_held (Ix := Unit) (Name := ℕ) (U := UR sig nD τ) (Lvl := ℕ) c (V0 m c)]; exact BI.Entails.refl _
    iintro ⟨H, Hla⟩
    ihave H' := hsplit $$ H
    icases H' with ⟨Hh, Hr⟩
    imod (first_rest (F := F) ρ) $$ [Hr Hla] with HE
    · isplitl [Hr]; · iexact Hr
      iexact Hla
    imodintro
    rw [bigSep_sep']
    isplitl [Hh]; · iexact Hh
    iexact HE
  · -- the end: the result and each input read off the last contents
    unfold StableHlo.held
    iintro ⟨Hh, HSI⟩
    ihave Hr := (pointsTo_read_all (Pipeline.ucRefs τ sig) (fun b => ((c : Thread nD τ).1, b)) (V8 m (outs m) c) s') $$ [Hh HSI]
    · isplitl [Hh] <;> iassumption
    icases Hr with ⟨%h, HSI⟩
    imodintro
    isplitr
    · ipureintro
      exact ⟨(h (Proc.devRef .tc main_v57) (mem_uc main_v57 (by decide))).trans (congrFun (V8_eq m c) _),
        (h (Proc.devRef .tc main_arg0) (mem_uc main_arg0 (by decide))).trans (V8_main_arg0 m (outs m) c),
        (h (Proc.devRef .tc main_arg1) (mem_uc main_arg1 (by decide))).trans (V8_main_arg1 m (outs m) c),
        (h (Proc.devRef .tc main_arg2) (mem_uc main_arg2 (by decide))).trans (V8_main_arg2 m (outs m) c),
        (h (Proc.devRef .tc main_arg3) (mem_uc main_arg3 (by decide))).trans (V8_main_arg3 m (outs m) c),
        (h (Proc.devRef .tc main_arg4) (mem_uc main_arg4 (by decide))).trans (V8_main_arg4 m (outs m) c)⟩
    · iexact HSI

end Cert.KernelIdeal.Whole

end
-- ==== Proof.Net.lean ====
/-
  The network as one function of its inputs.

  The model is four dense layers, `h ↦ max (h · W, 0)`, joined by a mean aggregation over a graph's edges: layer
  `l + 1` takes, at each node, the sum of layer `l`'s rows over the node's incoming edges (a gather by the edge's
  source, a scatter-add by its target), scaled by `1 / max (in-degree, 1)`; the result is the four layers' outputs
  side by side. Both programs compute the aggregation, the scaling, the weight slices and the concatenation by the
  same host operations; they differ only in how a dense layer is computed. So the network is written here over
  an ABSTRACT dense layer `D`, and `dense` is the layer as the plain program computes it: a product contracting
  the rows' feature axis with the weights' first axis, then the maximum with zero.
-/
import proofs.«112503_j81329500717447_1_alg».proof.ReferenceIdeal
import Idealize.ShloMosaic.PureOps.Ideal

noncomputable section

namespace Cert.Net

open Idealize.ShloMosaic Cert.ReferenceIdeal

variable {F : FTy → Type} [FloatOps F] [Cert.ReferenceIdeal.Facts]
open Cert.ReferenceIdeal.Facts₀ Cert.ReferenceIdeal.Facts

/-- A dense layer, `max (x · w, 0)`: the product of a 50000×128 array with a 128×128 matrix, then the maximum with zero. -/
def dense (x : (⟨S50000x128, .f32⟩ : BufTy).Contents (Elt F)) (w : (⟨S128x128, .f32⟩ : BufTy).Contents (Elt F)) :
    (⟨S50000x128, .f32⟩ : BufTy).Contents (Elt F) :=
  maximumf (Host.dotGeneral dot_S50000x128_S128x128_S50000x128_1_0_0_1_n_n none x w)
    (broadcastInDim S50000x128 ![] bcast_S_S50000x128 (constant S_ .f32 0x00000000#32))

/-- `1 / max (in-degree, 1)` of every node, repeated along the feature axis: the in-degree is the number of edges whose
    target is the node, a scatter-add of ones. -/
def invDeg (dst : (⟨S800000, .i32⟩ : BufTy).Contents (Elt F)) : (⟨S50000x128, .f32⟩ : BufTy).Contents (Elt F) :=
  broadcastInDim S50000x128 ![0, 1] bcast_S50000x1_S50000x128_0_1 (broadcastInDim S50000x1 ![0] bcast_S50000_S50000x1_0
    (Host.divf (broadcastInDim S50000 ![] bcast_S_S50000 (constant S_ .f32 0x3F800000#32))
      (maximumf
        (Host.scatterAdd scatter_S50000_S800000x1_S800000_n_0_0_1 (broadcastInDim S50000 ![] bcast_S_S50000 (constant S_ .f32 0x00000000#32))
          (broadcastInDim S800000x1 ![0] bcast_S800000_S800000x1_0 dst) (broadcastInDim S800000 ![] bcast_S_S800000 (constant S_ .f32 0x3F800000#32)))
        (broadcastInDim S50000 ![] bcast_S_S50000 (constant S_ .f32 0x3F800000#32)))))

/-- The mean of `h`'s rows over each node's incoming edges: rows gathered by the edges' sources (a negative source
    counted from the end), added up by the edges' targets, and scaled by `invDeg`. -/
def mean (h : (⟨S50000x128, .f32⟩ : BufTy).Contents (Elt F)) (src dst : (⟨S800000, .i32⟩ : BufTy).Contents (Elt F)) :
    (⟨S50000x128, .f32⟩ : BufTy).Contents (Elt F) :=
  mulf
    (Host.scatterAdd scatter_S50000x128_S800000x1_S800000x128_1_0_0_1
      (broadcastInDim S50000x128 ![] bcast_S_S50000x128 (constant S_ .f32 0x00000000#32))
      (broadcastInDim S800000x1 ![0] bcast_S800000_S800000x1_0 dst)
      (Host.gather gather_S50000x128_S800000x1_S800000x128_1_0_n_n_0_1_1128 h
        (broadcastInDim S800000x1 ![0] bcast_S800000_S800000x1_0
          (select (cmpi .slt src (broadcastInDim S800000 ![] bcast_S_S800000 (constantI S_ 32 0#32)))
            (addi src (broadcastInDim S800000 ![] bcast_S_S800000 (constantI S_ 32 50000#32))) src))))
    (invDeg dst)

/-- The weight matrices of layers 1, 2 and 3: the three 128×128 slices of the stacked weights. -/
def weights1 (Ws : (⟨S3x128x128, .f32⟩ : BufTy).Contents (Elt F)) : (⟨S128x128, .f32⟩ : BufTy).Contents (Elt F) :=
  shapeCast _ (extractStridedSlice S1x128x128 ![0, 0, 0] Ws slices_S3x128x128_S1x128x128_0_0_0) shapeCasts_S1x128x128_S128x128
def weights2 (Ws : (⟨S3x128x128, .f32⟩ : BufTy).Contents (Elt F)) : (⟨S128x128, .f32⟩ : BufTy).Contents (Elt F) :=
  shapeCast _ (extractStridedSlice S1x128x128 ![1, 0, 0] Ws slices_S3x128x128_S1x128x128_1_0_0) shapeCasts_S1x128x128_S128x128
def weights3 (Ws : (⟨S3x128x128, .f32⟩ : BufTy).Contents (Elt F)) : (⟨S128x128, .f32⟩ : BufTy).Contents (Elt F) :=
  shapeCast _ (extractStridedSlice S1x128x128 ![2, 0, 0] Ws slices_S3x128x128_S1x128x128_2_0_0) shapeCasts_S1x128x128_S128x128

/-- Four arrays of 128 features side by side. -/
def beside (h0 h1 h2 h3 : (⟨S50000x128, .f32⟩ : BufTy).Contents (Elt F)) : (⟨S50000x512, .f32⟩ : BufTy).Contents (Elt F) :=
  concatenate S50000x512 1 [⟨S50000x128, h0⟩, ⟨S50000x128, h1⟩, ⟨S50000x128, h2⟩, ⟨S50000x128, h3⟩]
    concatenates_S50000x128_S50000x128_S50000x128_S50000x128_S50000x512_d1

/-- The whole network over a dense layer `D`. -/
def net (D : (⟨S50000x128, .f32⟩ : BufTy).Contents (Elt F) → (⟨S128x128, .f32⟩ : BufTy).Contents (Elt F) → (⟨S50000x128, .f32⟩ : BufTy).Contents (Elt F))
    (feat : (⟨S50000x128, .f32⟩ : BufTy).Contents (Elt F)) (src dst : (⟨S800000, .i32⟩ : BufTy).Contents (Elt F))
    (W0 : (⟨S128x128, .f32⟩ : BufTy).Contents (Elt F)) (Ws : (⟨S3x128x128, .f32⟩ : BufTy).Contents (Elt F)) :
    (⟨S50000x512, .f32⟩ : BufTy).Contents (Elt F) :=
  beside (D feat W0)
    (D (mean (D feat W0) src dst) (weights1 Ws))
    (D (mean (D (mean (D feat W0) src dst) (weights1 Ws)) src dst) (weights2 Ws))
    (D (mean (D (mean (D (mean (D feat W0) src dst) (weights1 Ws)) src dst) (weights2 Ws)) src dst) (weights3 Ws))

end Cert.Net

end
-- ==== Proof.KernelIdeal.Chain.lean ====
/-
  The host stretches between the dense layers, read as the network's functions.

  Between two regions the program runs a stretch of host operations on whole arrays. The stretch after layer `l`
  gathers that layer's rows by the edges' sources, adds them up by the edges' targets and scales by the reciprocal
  in-degrees: the mean aggregation, the next layer's input; and it cuts the next layer's 128×128 weights out of the
  stacked weights. The last stretch puts the four layers' outputs side by side. Each is stated here as an equation
  between the contents a stretch leaves in one array and the network's function of the contents it found: the
  stretch's operations are composed into one term, the arrays it reads but does not write are traced back to where
  they were written (an argument to the launch, a layer's output to its region, the reciprocal in-degrees to the
  first stretch), and the term is the function's own.
-/
import proofs.«112503_j81329500717447_1_alg».proof.Proof.KernelIdeal.Between
import proofs.«112503_j81329500717447_1_alg».proof.Proof.Net
import Idealize.ShloMosaic.Lib.StableHlo.Run

noncomputable section

namespace Cert.KernelIdeal.Chain

open Idealize.ShloMosaic Idealize.ShloMosaic.TcCoe Idealize.SL.Sem
open Cert.KernelIdeal Cert.KernelIdeal.Gen Cert.KernelIdeal.Between

variable {F : FTy → Type} [FloatOps F] [Cert.KernelIdeal.Facts] [Cert.ReferenceIdeal.Facts]
variable (m : (ℓ : Loc nD τ sig) → Buf (Elt F) ℓ)

/-! ## What an item leaves unchanged

A region changes its layer's output array only; a host stretch changes the references its operations write. -/

private theorem X1_of (c : Dev nD) (r : Ref sig .tc) (h : r ∉ ([main_v0] : List (Ref sig .tc))) : X1 m c r = V0 m c r :=
  Function.update_of_ne (StableHlo.devRef_ne_of_ne (List.ne_of_not_mem_cons h)) _ _
private theorem X2_of (c : Dev nD) (r : Ref sig .tc) (h : r ∉ hostOps1_W) : X2 m c r = X1 m c r :=
  StableHlo.after_of_writes_sub hostOps1 _ hostOps1_writes h
private theorem X3_of (c : Dev nD) (r : Ref sig .tc) (h : r ∉ ([main_v24] : List (Ref sig .tc))) : X3 m c r = X2 m c r :=
  Function.update_of_ne (StableHlo.devRef_ne_of_ne (List.ne_of_not_mem_cons h)) _ _
private theorem X4_of (c : Dev nD) (r : Ref sig .tc) (h : r ∉ hostOps2_W) : X4 m c r = X3 m c r :=
  StableHlo.after_of_writes_sub hostOps2 _ hostOps2_writes h
private theorem X5_of (c : Dev nD) (r : Ref sig .tc) (h : r ∉ ([main_v40] : List (Ref sig .tc))) : X5 m c r = X4 m c r :=
  Function.update_of_ne (StableHlo.devRef_ne_of_ne (List.ne_of_not_mem_cons h)) _ _
private theorem X6_of (c : Dev nD) (r : Ref sig .tc) (h : r ∉ hostOps3_W) : X6 m c r = X5 m c r :=
  StableHlo.after_of_writes_sub hostOps3 _ hostOps3_writes h
private theorem X7_of (c : Dev nD) (r : Ref sig .tc) (h : r ∉ ([main_v56] : List (Ref sig .tc))) : X7 m c r = X6 m c r :=
  Function.update_of_ne (StableHlo.devRef_ne_of_ne (List.ne_of_not_mem_cons h)) _ _

/-- The edges' sources, their targets and the stacked weights are arguments: every layer's stretch finds them as launched. -/
private theorem X1_src (c : Dev nD) : X1 m c main_arg1 = m ((c.tc : Thread nD τ).loc main_arg1) := X1_of m c _ (by decide)
private theorem X1_dst (c : Dev nD) : X1 m c main_arg2 = m ((c.tc : Thread nD τ).loc main_arg2) := X1_of m c _ (by decide)
private theorem X1_Ws (c : Dev nD) : X1 m c main_arg4 = m ((c.tc : Thread nD τ).loc main_arg4) := X1_of m c _ (by decide)
private theorem X3_src (c : Dev nD) : X3 m c main_arg1 = m ((c.tc : Thread nD τ).loc main_arg1) :=
  (X3_of m c _ (by decide)).trans ((X2_of m c _ (by decide)).trans (X1_src m c))
private theorem X3_dst (c : Dev nD) : X3 m c main_arg2 = m ((c.tc : Thread nD τ).loc main_arg2) :=
  (X3_of m c _ (by decide)).trans ((X2_of m c _ (by decide)).trans (X1_dst m c))
private theorem X3_Ws (c : Dev nD) : X3 m c main_arg4 = m ((c.tc : Thread nD τ).loc main_arg4) :=
  (X3_of m c _ (by decide)).trans ((X2_of m c _ (by decide)).trans (X1_Ws m c))
private theorem X5_src (c : Dev nD) : X5 m c main_arg1 = m ((c.tc : Thread nD τ).loc main_arg1) :=
  (X5_of m c _ (by decide)).trans ((X4_of m c _ (by decide)).trans (X3_src m c))
private theorem X5_dst (c : Dev nD) : X5 m c main_arg2 = m ((c.tc : Thread nD τ).loc main_arg2) :=
  (X5_of m c _ (by decide)).trans ((X4_of m c _ (by decide)).trans (X3_dst m c))
private theorem X5_Ws (c : Dev nD) : X5 m c main_arg4 = m ((c.tc : Thread nD τ).loc main_arg4) :=
  (X5_of m c _ (by decide)).trans ((X4_of m c _ (by decide)).trans (X3_Ws m c))

/-! ## The reciprocal in-degrees

The first stretch computes `1 / max (in-degree, 1)` once, from the edges' targets; the later stretches read it where
the first left it, and each repeats it along the feature axis. -/

private theorem scale1 (c : Dev nD) :
    broadcastInDim S50000x128 ![0, 1] bcast_S50000x1_S50000x128_0_1 (broadcastInDim S50000x1 ![0] bcast_S50000_S50000x1_0 (X2 m c main_v8))
      = Cert.Net.invDeg (m ((c.tc : Thread nD τ).loc main_arg2)) := by
  unfold X2
  after_results_simp
  rw [X1_dst]; rfl
private theorem scale2 (c : Dev nD) :
    broadcastInDim S50000x128 ![0, 1] bcast_S50000x1_S50000x128_0_1 (broadcastInDim S50000x1 ![0] bcast_S50000_S50000x1_0 (X3 m c main_v8))
      = Cert.Net.invDeg (m ((c.tc : Thread nD τ).loc main_arg2)) := by
  rw [X3_of m c main_v8 (by decide)]; exact scale1 m c
private theorem scale3 (c : Dev nD) :
    broadcastInDim S50000x128 ![0, 1] bcast_S50000x1_S50000x128_0_1 (broadcastInDim S50000x1 ![0] bcast_S50000_S50000x1_0 (X5 m c main_v8))
      = Cert.Net.invDeg (m ((c.tc : Thread nD τ).loc main_arg2)) := by
  rw [X5_of m c main_v8 (by decide), X4_of m c main_v8 (by decide)]; exact scale2 m c

/-! ## The layers' outputs at the end

A layer's output array is written by its region and by nothing after it, so the last stretch finds each as its region left it. -/

private theorem out0_kept (c : Dev nD) : X7 m c main_v0 = X1 m c main_v0 :=
  (X7_of m c _ (by decide)).trans <| (X6_of m c _ (by decide)).trans <| (X5_of m c _ (by decide)).trans <|
    (X4_of m c _ (by decide)).trans <| (X3_of m c _ (by decide)).trans (X2_of m c _ (by decide))
private theorem out1_kept (c : Dev nD) : X7 m c main_v24 = X3 m c main_v24 :=
  (X7_of m c _ (by decide)).trans <| (X6_of m c _ (by decide)).trans <| (X5_of m c _ (by decide)).trans (X4_of m c _ (by decide))
private theorem out2_kept (c : Dev nD) : X7 m c main_v40 = X5 m c main_v40 :=
  (X7_of m c _ (by decide)).trans (X6_of m c _ (by decide))

/-! ## The stretches, read as the network's functions -/

theorem mean1 (c : Dev nD) : X2 m c main_v21 = Cert.Net.mean (X1 m c main_v0) (m ((c.tc : Thread nD τ).loc main_arg1)) (m ((c.tc : Thread nD τ).loc main_arg2)) := by
  unfold X2
  show StableHlo.after hostOps1 _ (Proc.devRef .tc main_v21) = _
  after_results_simp
  rw [X1_src, X1_dst]; rfl

theorem weights1 (c : Dev nD) : X2 m c main_v23 = Cert.Net.weights1 (m ((c.tc : Thread nD τ).loc main_arg4)) := by
  unfold X2
  show StableHlo.after hostOps1 _ (Proc.devRef .tc main_v23) = _
  after_results_simp
  rw [X1_Ws]; rfl

theorem mean2 (c : Dev nD) : X4 m c main_v37 = Cert.Net.mean (X3 m c main_v24) (m ((c.tc : Thread nD τ).loc main_arg1)) (m ((c.tc : Thread nD τ).loc main_arg2)) := by
  unfold X4
  show StableHlo.after hostOps2 _ (Proc.devRef .tc main_v37) = _
  after_results_simp
  rw [X3_src, X3_dst, scale2]; rfl

theorem weights2 (c : Dev nD) : X4 m c main_v39 = Cert.Net.weights2 (m ((c.tc : Thread nD τ).loc main_arg4)) := by
  unfold X4
  show StableHlo.after hostOps2 _ (Proc.devRef .tc main_v39) = _
  after_results_simp
  rw [X3_Ws]; rfl

theorem mean3 (c : Dev nD) : X6 m c main_v53 = Cert.Net.mean (X5 m c main_v40) (m ((c.tc : Thread nD τ).loc main_arg1)) (m ((c.tc : Thread nD τ).loc main_arg2)) := by
  unfold X6
  show StableHlo.after hostOps3 _ (Proc.devRef .tc main_v53) = _
  after_results_simp
  rw [X5_src, X5_dst, scale3]; rfl

theorem weights3 (c : Dev nD) : X6 m c main_v55 = Cert.Net.weights3 (m ((c.tc : Thread nD τ).loc main_arg4)) := by
  unfold X6
  show StableHlo.after hostOps3 _ (Proc.devRef .tc main_v55) = _
  after_results_simp
  rw [X5_Ws]; rfl

theorem result (c : Dev nD) : X8 m c main_v57 = Cert.Net.beside (X1 m c main_v0) (X3 m c main_v24) (X5 m c main_v40) (X7 m c main_v56) := by
  unfold X8
  show StableHlo.after hostOps4 _ (Proc.devRef .tc main_v57) = _
  after_results_simp
  show concatenate S50000x512 1 [⟨S50000x128, X7 m c main_v0⟩, ⟨S50000x128, X7 m c main_v24⟩, ⟨S50000x128, X7 m c main_v40⟩, ⟨S50000x128, X7 m c main_v56⟩]
    concatenates_S50000x128_S50000x128_S50000x128_S50000x128_S50000x512_d1 = _
  rw [out0_kept, out1_kept, out2_kept]; rfl

theorem arg0_at_entry (c : Dev nD) : V0 m c main_arg0 = m ((c.tc : Thread nD τ).loc main_arg0) := rfl
theorem arg3_at_entry (c : Dev nD) : V0 m c main_arg3 = m ((c.tc : Thread nD τ).loc main_arg3) := rfl

end Cert.KernelIdeal.Chain
end
-- ==== Proof.LibPlainDot.lean ====
/-
  The plain matrix product read at an entry.

  For the dimension numbers of an `M×K` by `K×N` product (`DotDims.plain M K N`: contract the left operand's
  axis 1 with the right operand's axis 0, no batch axis) the result's entry `(p, q)` is, over the extended reals,
  `∑ k : Fin K, lhs (p, k) * rhs (k, q)`: for a `tpu.matmul` into the zero accumulator and for the host's
  `dot_general` alike. The sum over the product's own one-axis contraction index is re-indexed through
  `ValueIdx.contrEquiv1` to a sum over `Fin K`, and the two operand indices are computed once, for every
  `M`, `K`, `N`.
-/
import Idealize.ShloMosaic.Lib.ValueIdx
import Idealize.ShloMosaic.PureOps.Ideal.Laws

noncomputable section

namespace Cert.Lib.PlainDot

open Idealize.ShloMosaic Idealize.ShloMosaic.ValueIdx

variable {M K N : Nat}

/-- The contraction index of the plain product is its one coordinate, a number below `K`. -/
abbrev kEquiv (M K N : Nat) : (DotDims.plain M K N).contr.Idx ≃ Fin K :=
  contrEquiv1 (DotDims.plain M K N) K rfl rfl

/-- The left operand's row coordinate is the result's row. -/
theorem lhs_axis0 (j : (⟨2, ![M, N]⟩ : Shape).Idx) (c : (DotDims.plain M K N).contr.Idx) :
    ((DotDims.plain M K N).lhsIdx j c 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.2 rfl)]
  rfl

/-- The left operand's column coordinate is the contraction position. -/
theorem lhs_axis1 (j : (⟨2, ![M, N]⟩ : Shape).Idx) (c : (DotDims.plain M K N).contr.Idx) :
    ((DotDims.plain M K N).lhsIdx j c 1).val = (c ⟨0, Nat.one_pos⟩).val :=
  (DotDims.plain M K N).lhsIdx_val_of_single rfl j c

/-- The right operand's row coordinate is the contraction position. -/
theorem rhs_axis0 (j : (⟨2, ![M, N]⟩ : Shape).Idx) (c : (DotDims.plain M K N).contr.Idx) :
    ((DotDims.plain M K N).rhsIdx j c 0).val = (c ⟨0, Nat.one_pos⟩).val :=
  (DotDims.plain M K N).rhsIdx_val_of_single rfl j c

/-- The right operand's column coordinate is the result's column. -/
theorem rhs_axis1 (j : (⟨2, ![M, N]⟩ : Shape).Idx) (c : (DotDims.plain M K N).contr.Idx) :
    ((DotDims.plain M K N).rhsIdx j c 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.2 rfl)]
  rfl

/-- At result entry `(p, q)` and contraction position `k` the left operand is read at `(p, k)`. -/
theorem lhsIdx_eq (p : Fin M) (q : Fin N) (k : Fin K) :
    (DotDims.plain M K N).lhsIdx (ix2 p q) ((kEquiv M K N).symm k) = ix2 p k := by
  have hk := contrEquiv1_symm_val (DotDims.plain M K N) K rfl rfl k
  exact funext fun a => Fin.ext (by
    match a with
    | ⟨0, _⟩ => exact lhs_axis0 _ _
    | ⟨1, _⟩ => exact (lhs_axis1 _ _).trans hk)

/-- At result entry `(p, q)` and contraction position `k` the right operand is read at `(k, q)`. -/
theorem rhsIdx_eq (p : Fin M) (q : Fin N) (k : Fin K) :
    (DotDims.plain M K N).rhsIdx (ix2 p q) ((kEquiv M K N).symm k) = ix2 k q := by
  have hk := contrEquiv1_symm_val (DotDims.plain M K N) K rfl rfl k
  exact funext fun a => Fin.ext (by
    match a with
    | ⟨0, _⟩ => exact (rhs_axis0 _ _).trans hk
    | ⟨1, _⟩ => exact rhs_axis1 _ _)

/-- The sum over the product's contraction index, as a sum over `Fin K` of the operands' entries. -/
theorem sum_contr {φ₁ φ₂ : FTy} (lhs : FVec Ideal ⟨2, ![M, K]⟩ φ₁) (rhs : FVec Ideal ⟨2, ![K, N]⟩ φ₂) (p : Fin M) (q : Fin N) :
    (∑ c : (DotDims.plain M K N).contr.Idx,
        lhs ((DotDims.plain M K N).lhsIdx (ix2 p q) c) * rhs ((DotDims.plain M K N).rhsIdx (ix2 p q) c) : EReal)
      = ∑ k : Fin K, lhs (ix2 p k) * rhs (ix2 k q) := by
  rw [← Equiv.sum_comp (kEquiv M K N).symm]
  refine Finset.sum_congr rfl fun k _ => ?_
  rw [lhsIdx_eq, rhsIdx_eq]

/-- A `tpu.matmul` with the plain dimension numbers into the zero accumulator, at entry `(p, q)`. -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact sum_contr lhs rhs p q

/-- The host's `dot_general` with the plain dimension numbers, at entry `(p, q)`. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact sum_contr lhs rhs p q

end Cert.Lib.PlainDot

end
-- ==== Proof.KernelIdeal.Layer0Value.lean ====
/-
  Dense layer 0 of the network, its value: after the region the layer's output array is the dense layer
  `max (rows · weights, 0)` of the two operand arrays as the region found them.

  Over the extended reals the change of format before the product is the identity, so what a point stores at row
  `r`, column `q` of its block is `max (∑ k, x (r, k) * w (k, q), 0)` of its two input blocks. Block row `r` of
  point `t` is array row `5000 t + r` and the weights' block is the whole matrix, so that entry is the dense layer
  of the whole arrays at `(5000 t + r, q)`: every point writes back its block of one whole-array function. Row `p`
  lies in the block of point `p / 5000`, so the ten blocks cover the array and it ends holding that function.
-/
import proofs.«112503_j81329500717447_1_alg».proof.Proof.KernelIdeal.Layer0
import proofs.«112503_j81329500717447_1_alg».proof.Proof.Net
import proofs.«112503_j81329500717447_1_alg».proof.Proof.LibPlainDot
import Idealize.ShloMosaic.Lib.Pipeline.Value
import Idealize.ShloMosaic.Lib.ValueIdx
import Idealize.ShloMosaic.PureOps.Ideal.Laws

set_option maxRecDepth 16384

noncomputable section

namespace Cert.KernelIdeal.Layer0

open Idealize.ShloMosaic Idealize.ShloMosaic.TcCoe Idealize.SL.Sem Idealize.ShloMosaic.ValueIdx
open Cert.KernelIdeal Cert.KernelIdeal.Gen

variable [Cert.ReferenceIdeal.Facts]

/-! ## The two products' dimension numbers are the plain ones -/

theorem blockDot_eq : dot_S5000x128_S128x128_S5000x128_1_0_0_1_n_n = DotDims.plain 5000 128 128 := rfl
theorem arrayDot_eq : Cert.ReferenceIdeal.dot_S50000x128_S128x128_S50000x128_1_0_0_1_n_n = DotDims.plain 50000 128 128 := rfl

/-! ## The dense layer and the stored block, entry by entry -/

/-- The dense layer of whole arrays at entry `(p, q)`: the row's product with the column, and zero, the larger. -/
theorem dense_apply (X : FVec Ideal ⟨2, ![50000, 128]⟩ .f32) (W : FVec Ideal ⟨2, ![128, 128]⟩ .f32) (p : Fin 50000) (q : Fin 128) :
    Cert.Net.dense (F := Ideal) X W (ix2 p q) = max (∑ k : Fin 128, X (ix2 p k) * W (ix2 k q)) (Ideal.ofBits .f32 0x00000000#32) := by
  unfold Cert.Net.dense
  rw [maximumf_apply, arrayDot_eq]
  exact congrArg (max · (Ideal.ofBits .f32 0x00000000#32)) (Cert.Lib.PlainDot.dotGeneral_apply none .single X W p q)

/-- What a point stores at entry `(r, q)` of its block, from its two input blocks: the same expression of the
    blocks (the change of format before the product is the identity over the extended reals). -/
theorem stored_apply (xb : FVec Ideal ⟨2, ![5000, 128]⟩ .f32) (wb : FVec Ideal ⟨2, ![128, 128]⟩ .f32) (r : Fin 5000) (q : Fin 128) :
    k0_pay1 (F := Ideal) xb wb (ix2 r q) = max (∑ k : Fin 128, xb (ix2 r k) * wb (ix2 k q)) (Ideal.ofBits .f32 0x00000000#32) := by
  unfold k0_pay1
  rw [maximumf_apply, blockDot_eq]
  exact congrArg (max · (Ideal.ofBits .f32 0x00000000#32)) (Cert.Lib.PlainDot.matmul_zero_apply none xb wb r q)

/-- A stored block is its rows of the dense layer: if block row `r` of `xb` is row `5000 t + r` of `X` and the
    weights' block is `W`, the block's entry `j` is the dense layer's entry `i` whenever `i` is `j` moved down
    by `5000 t` rows. -/
theorem stored_eq_dense (X : FVec Ideal ⟨2, ![50000, 128]⟩ .f32) (W : FVec Ideal ⟨2, ![128, 128]⟩ .f32)
    (xb : FVec Ideal ⟨2, ![5000, 128]⟩ .f32) (wb : FVec Ideal ⟨2, ![128, 128]⟩ .f32) (t : Nat)
    (hx : ∀ (r : Fin 5000) (p : Fin 50000) (k : Fin 128), p.val = 5000 * t + r.val → xb (ix2 r k) = X (ix2 p k))
    (hw : wb = W)
    (j : (⟨2, ![5000, 128]⟩ : Shape).Idx) (i : (⟨2, ![50000, 128]⟩ : Shape).Idx)
    (h0 : (i 0).val = 5000 * t + (j 0).val) (h1 : (i 1).val = (j 1).val) :
    k0_pay1 (F := Ideal) xb wb j = Cert.Net.dense (F := Ideal) X W i := by
  obtain ⟨r, q, rfl⟩ : ∃ (r : Fin 5000) (q : Fin 128), j = ix2 r q := ⟨j 0, j 1, eq_ix2 j⟩
  obtain ⟨p, q', rfl⟩ : ∃ (p : Fin 50000) (q' : Fin 128), i = ix2 p q' := ⟨i 0, i 1, eq_ix2 i⟩
  obtain rfl : q' = q := Fin.ext h1
  subst hw
  rw [stored_apply, dense_apply]
  exact congrArg (max · (Ideal.ofBits .f32 0x00000000#32)) (Finset.sum_congr rfl fun k _ => by rw [hx r p k h0])

/-! ## From the blocks to the array -/

variable (V : (c : Dev nD) → (b : Ref sig .tc) → Buf (Elt Ideal) ((c : Thread nD τ).loc b))

theorem zero_offsets : (![0, 0] : Fin 2 → Nat) = fun _ => 0 := funext fun a => by fin_cases a <;> rfl

/-- The three windows' block indices at point `t`: the rows' and the output's blocks are block `t` along the rows,
    the weights' block is the one block of its array. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row `r` of the rows' block at point `t` is row `5000 t + r` of the rows' array. -/
theorem rows_block (c : Dev nD) (t : Fin cfg0.N) (r : Fin 5000) (p : Fin 50000) (k : Fin 128) (hp : p.val = 5000 * t.val + r.val) :
    (blockAt V c 0 t : Vec Ideal S5000x128 .f32) (ix2 r k) = (V c (Pipeline.arrRef spec0 0) : S50000x128.Idx → EReal) (ix2 p k) := by
  obtain ⟨e0, e1, -⟩ := index_facts t
  unfold blockAt
  rw [View.read_apply]
  show V c (Pipeline.arrRef spec0 0) _ = V c (Pipeline.arrRef spec0 0) _
  congr 1
  funext a
  apply Fin.ext
  match a with
  | ⟨0, _⟩ => show win0_0.index t 0 * 5000 + 1 * r.val = p.val; rw [e0, hp]; omega
  | ⟨1, _⟩ => show win0_0.index t 1 * 128 + 1 * k.val = k.val; rw [e1]; omega

/-- The weights' block at any point is the whole weight matrix. -/
theorem weights_block (c : Dev nD) (t : Fin cfg0.N) :
    (blockAt V c 1 t : Vec Ideal S128x128 .f32) = (V c (Pipeline.arrRef spec0 1) : S128x128.Idx → EReal) := by
  obtain ⟨-, -, e0, e1, -⟩ := index_facts t
  funext y
  unfold blockAt
  rw [View.read_apply]
  show V c (Pipeline.arrRef spec0 1) _ = V c (Pipeline.arrRef spec0 1) y
  congr 1
  funext a
  apply Fin.ext
  match a with
  | ⟨0, _⟩ => show win0_1.index t 0 * 128 + 1 * (y 0).val = (y 0).val; rw [e0]; omega
  | ⟨1, _⟩ => show win0_1.index t 1 * 128 + 1 * (y 1).val = (y 1).val; rw [e1]; omega

/-- What point `t` writes back is its block of the dense layer of the two operand arrays. -/
theorem flushed_eq (c : Dev nD) (t : Fin cfg0.N) :
    (dat (F := Ideal) V c).flushed 2 t
      = ((cfg0.win 2).blk t).view.read (Elt Ideal)
          (Cert.Net.dense (F := Ideal) (V c (Pipeline.arrRef spec0 0)) (V c (Pipeline.arrRef spec0 1))) := by
  show (cfg0.win 2).cut (grid0.coords t) ((dat (F := Ideal) V c).after 2 t) = _
  rw [after_out]
  unfold stored
  rw [View.canon_unit_zero zero_offsets]
  simp only [View.ld_unit_zero (S := S5000x128) zero_offsets, View.ld_unit_zero (S := S128x128) zero_offsets]
  obtain ⟨-, -, -, -, e0, e1⟩ := index_facts t
  refine funext fun (j : S5000x128.Idx) => ?_
  show k0_pay1 (F := Ideal) (blockAt V c 0 t) (blockAt V c 1 t) j
    = Cert.Net.dense (F := Ideal) (V c (Pipeline.arrRef spec0 0)) (V c (Pipeline.arrRef spec0 1)) (((cfg0.win 2).blk t).view.emb j)
  refine stored_eq_dense (V c (Pipeline.arrRef spec0 0)) (V c (Pipeline.arrRef spec0 1)) (blockAt V c 0 t) (blockAt V c 1 t) t.val
    (fun r p k hp => rows_block V c t r p k hp) (weights_block V c t) j _ ?_ ?_
  · show win0_2.index t 0 * 5000 + 1 * (j 0).val = 5000 * t.val + (j 0).val; rw [e0]; omega
  · show win0_2.index t 1 * 128 + 1 * (j 1).val = (j 1).val; rw [e1]; omega

/-- An index of the output array is in point `t`'s block iff each coordinate is in the block's range on its axis. -/
theorem mem_block (t : Fin cfg0.N) (i : S50000x128.Idx) :
    i ∈ ((cfg0.win 2).blk t).view.set
      ↔ ∀ a : Fin 2, win0_2.index t a * S5000x128.size a ≤ (i a).val ∧ (i a).val < win0_2.index t a * S5000x128.size a + S5000x128.size a := by
  show i ∈ ((View.whole (Pipeline.arrRef spec0 2)).slice (win0_2.rect t)).set ↔ _
  rw [View.set_slice_whole, Rect.mem_set_unit]
  exact Iff.rfl

/-- Every index of the output array is in the block of the point its row falls to, `row / 5000`. -/
theorem covered (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 10 := rfl
  let t : Fin cfg0.N := ⟨(i 0).val / 5000, by rw [hN]; omega⟩
  obtain ⟨-, -, -, -, e0, e1⟩ := index_facts t
  have ht : t.val = (i 0).val / 5000 := rfl
  refine ⟨t, flush0_2 t, ?_⟩
  rw [mem_block]
  intro a
  match a with
  | ⟨0, _⟩ => show win0_2.index t 0 * 5000 ≤ (i 0).val ∧ (i 0).val < win0_2.index t 0 * 5000 + 5000; rw [e0, ht]; omega
  | ⟨1, _⟩ => show win0_2.index t 1 * 128 ≤ (i 1).val ∧ (i 1).val < win0_2.index t 1 * 128 + 128; rw [e1]; omega

/-- After the region, the layer's output array is the dense layer of the two operand arrays as the region found them. -/
theorem out_eq (c : Dev nD) :
    (dat (F := Ideal) V c).arrAt 2 cfg0.N = Cert.Net.dense (V c (Pipeline.arrRef spec0 0)) (V c (Pipeline.arrRef spec0 1)) :=
  (dat (F := Ideal) V c).arrAt_eq_of_cover 2
    (Cert.Net.dense (F := Ideal) (V c (Pipeline.arrRef spec0 0)) (V c (Pipeline.arrRef spec0 1)))
    (fun t _ => flushed_eq V c t) covered

end Cert.KernelIdeal.Layer0

end
-- ==== Proof.KernelIdeal.Layer1Value.lean ====
/-
  Dense layer 1 of the network, its value: after the region the layer's output array is the dense layer
  `max (rows · weights, 0)` of the two operand arrays as the region found them.

  Over the extended reals the change of format before the product is the identity, so what a point stores at row
  `r`, column `q` of its block is `max (∑ k, x (r, k) * w (k, q), 0)` of its two input blocks. Block row `r` of
  point `t` is array row `5000 t + r` and the weights' block is the whole matrix, so that entry is the dense layer
  of the whole arrays at `(5000 t + r, q)`: every point writes back its block of one whole-array function. Row `p`
  lies in the block of point `p / 5000`, so the ten blocks cover the array and it ends holding that function.
-/
import proofs.«112503_j81329500717447_1_alg».proof.Proof.KernelIdeal.Layer1
import proofs.«112503_j81329500717447_1_alg».proof.Proof.Net
import proofs.«112503_j81329500717447_1_alg».proof.Proof.LibPlainDot
import Idealize.ShloMosaic.Lib.Pipeline.Value
import Idealize.ShloMosaic.Lib.ValueIdx
import Idealize.ShloMosaic.PureOps.Ideal.Laws

set_option maxRecDepth 16384

noncomputable section

namespace Cert.KernelIdeal.Layer1

open Idealize.ShloMosaic Idealize.ShloMosaic.TcCoe Idealize.SL.Sem Idealize.ShloMosaic.ValueIdx
open Cert.KernelIdeal Cert.KernelIdeal.Gen

variable [Cert.ReferenceIdeal.Facts]

/-! ## The two products' dimension numbers are the plain ones -/

theorem blockDot_eq : dot_S5000x128_S128x128_S5000x128_1_0_0_1_n_n = DotDims.plain 5000 128 128 := rfl
theorem arrayDot_eq : Cert.ReferenceIdeal.dot_S50000x128_S128x128_S50000x128_1_0_0_1_n_n = DotDims.plain 50000 128 128 := rfl

/-! ## The dense layer and the stored block, entry by entry -/

/-- The dense layer of whole arrays at entry `(p, q)`: the row's product with the column, and zero, the larger. -/
theorem dense_apply (X : FVec Ideal ⟨2, ![50000, 128]⟩ .f32) (W : FVec Ideal ⟨2, ![128, 128]⟩ .f32) (p : Fin 50000) (q : Fin 128) :
    Cert.Net.dense (F := Ideal) X W (ix2 p q) = max (∑ k : Fin 128, X (ix2 p k) * W (ix2 k q)) (Ideal.ofBits .f32 0x00000000#32) := by
  unfold Cert.Net.dense
  rw [maximumf_apply, arrayDot_eq]
  exact congrArg (max · (Ideal.ofBits .f32 0x00000000#32)) (Cert.Lib.PlainDot.dotGeneral_apply none .single X W p q)

/-- What a point stores at entry `(r, q)` of its block, from its two input blocks: the same expression of the
    blocks (the two reshapes to the same shape change nothing, and the change of format before the product is the identity over the extended reals). -/
theorem stored_apply (xb : FVec Ideal ⟨2, ![5000, 128]⟩ .f32) (wb : FVec Ideal ⟨2, ![128, 128]⟩ .f32) (r : Fin 5000) (q : Fin 128) :
    k1_pay1 (F := Ideal) xb wb (ix2 r q) = max (∑ k : Fin 128, xb (ix2 r k) * wb (ix2 k q)) (Ideal.ofBits .f32 0x00000000#32) := by
  unfold k1_pay1
  rw [shapeCast_self, shapeCast_self, maximumf_apply, blockDot_eq]
  exact congrArg (max · (Ideal.ofBits .f32 0x00000000#32)) (Cert.Lib.PlainDot.matmul_zero_apply none xb wb r q)

/-- A stored block is its rows of the dense layer: if block row `r` of `xb` is row `5000 t + r` of `X` and the
    weights' block is `W`, the block's entry `j` is the dense layer's entry `i` whenever `i` is `j` moved down
    by `5000 t` rows. -/
theorem stored_eq_dense (X : FVec Ideal ⟨2, ![50000, 128]⟩ .f32) (W : FVec Ideal ⟨2, ![128, 128]⟩ .f32)
    (xb : FVec Ideal ⟨2, ![5000, 128]⟩ .f32) (wb : FVec Ideal ⟨2, ![128, 128]⟩ .f32) (t : Nat)
    (hx : ∀ (r : Fin 5000) (p : Fin 50000) (k : Fin 128), p.val = 5000 * t + r.val → xb (ix2 r k) = X (ix2 p k))
    (hw : wb = W)
    (j : (⟨2, ![5000, 128]⟩ : Shape).Idx) (i : (⟨2, ![50000, 128]⟩ : Shape).Idx)
    (h0 : (i 0).val = 5000 * t + (j 0).val) (h1 : (i 1).val = (j 1).val) :
    k1_pay1 (F := Ideal) xb wb j = Cert.Net.dense (F := Ideal) X W i := by
  obtain ⟨r, q, rfl⟩ : ∃ (r : Fin 5000) (q : Fin 128), j = ix2 r q := ⟨j 0, j 1, eq_ix2 j⟩
  obtain ⟨p, q', rfl⟩ : ∃ (p : Fin 50000) (q' : Fin 128), i = ix2 p q' := ⟨i 0, i 1, eq_ix2 i⟩
  obtain rfl : q' = q := Fin.ext h1
  subst hw
  rw [stored_apply, dense_apply]
  exact congrArg (max · (Ideal.ofBits .f32 0x00000000#32)) (Finset.sum_congr rfl fun k _ => by rw [hx r p k h0])

/-! ## From the blocks to the array -/

variable (V : (c : Dev nD) → (b : Ref sig .tc) → Buf (Elt Ideal) ((c : Thread nD τ).loc b))

theorem zero_offsets : (![0, 0] : Fin 2 → Nat) = fun _ => 0 := funext fun a => by fin_cases a <;> rfl

/-- The three windows' block indices at point `t`: the rows' and the output's blocks are block `t` along the rows,
    the weights' block is the one block of its array. -/
theorem index_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Row `r` of the rows' block at point `t` is row `5000 t + r` of the rows' array. -/
theorem rows_block (c : Dev nD) (t : Fin cfg1.N) (r : Fin 5000) (p : Fin 50000) (k : Fin 128) (hp : p.val = 5000 * t.val + r.val) :
    (blockAt V c 0 t : Vec Ideal S5000x128 .f32) (ix2 r k) = (V c (Pipeline.arrRef spec1 0) : S50000x128.Idx → EReal) (ix2 p k) := by
  obtain ⟨e0, e1, -⟩ := index_facts t
  unfold blockAt
  rw [View.read_apply]
  show V c (Pipeline.arrRef spec1 0) _ = V c (Pipeline.arrRef spec1 0) _
  congr 1
  funext a
  apply Fin.ext
  match a with
  | ⟨0, _⟩ => show win1_0.index t 0 * 5000 + 1 * r.val = p.val; rw [e0, hp]; omega
  | ⟨1, _⟩ => show win1_0.index t 1 * 128 + 1 * k.val = k.val; rw [e1]; omega

/-- The weights' block at any point is the whole weight matrix. -/
theorem weights_block (c : Dev nD) (t : Fin cfg1.N) :
    (blockAt V c 1 t : Vec Ideal S128x128 .f32) = (V c (Pipeline.arrRef spec1 1) : S128x128.Idx → EReal) := by
  obtain ⟨-, -, e0, e1, -⟩ := index_facts t
  funext y
  unfold blockAt
  rw [View.read_apply]
  show V c (Pipeline.arrRef spec1 1) _ = V c (Pipeline.arrRef spec1 1) y
  congr 1
  funext a
  apply Fin.ext
  match a with
  | ⟨0, _⟩ => show win1_1.index t 0 * 128 + 1 * (y 0).val = (y 0).val; rw [e0]; omega
  | ⟨1, _⟩ => show win1_1.index t 1 * 128 + 1 * (y 1).val = (y 1).val; rw [e1]; omega

/-- What point `t` writes back is its block of the dense layer of the two operand arrays. -/
theorem flushed_eq (c : Dev nD) (t : Fin cfg1.N) :
    (dat (F := Ideal) V c).flushed 2 t
      = ((cfg1.win 2).blk t).view.read (Elt Ideal)
          (Cert.Net.dense (F := Ideal) (V c (Pipeline.arrRef spec1 0)) (V c (Pipeline.arrRef spec1 1))) := by
  show (cfg1.win 2).cut (grid1.coords t) ((dat (F := Ideal) V c).after 2 t) = _
  rw [after_out]
  unfold stored
  rw [View.canon_unit_zero zero_offsets]
  simp only [View.ld_unit_zero (S := S5000x128) zero_offsets, View.ld_unit_zero (S := S128x128) zero_offsets]
  obtain ⟨-, -, -, -, e0, e1⟩ := index_facts t
  refine funext fun (j : S5000x128.Idx) => ?_
  show k1_pay1 (F := Ideal) (blockAt V c 0 t) (blockAt V c 1 t) j
    = Cert.Net.dense (F := Ideal) (V c (Pipeline.arrRef spec1 0)) (V c (Pipeline.arrRef spec1 1)) (((cfg1.win 2).blk t).view.emb j)
  refine stored_eq_dense (V c (Pipeline.arrRef spec1 0)) (V c (Pipeline.arrRef spec1 1)) (blockAt V c 0 t) (blockAt V c 1 t) t.val
    (fun r p k hp => rows_block V c t r p k hp) (weights_block V c t) j _ ?_ ?_
  · show win1_2.index t 0 * 5000 + 1 * (j 0).val = 5000 * t.val + (j 0).val; rw [e0]; omega
  · show win1_2.index t 1 * 128 + 1 * (j 1).val = (j 1).val; rw [e1]; omega

/-- An index of the output array is in point `t`'s block iff each coordinate is in the block's range on its axis. -/
theorem mem_block (t : Fin cfg1.N) (i : S50000x128.Idx) :
    i ∈ ((cfg1.win 2).blk t).view.set
      ↔ ∀ a : Fin 2, win1_2.index t a * S5000x128.size a ≤ (i a).val ∧ (i a).val < win1_2.index t a * S5000x128.size a + S5000x128.size a := by
  show i ∈ ((View.whole (Pipeline.arrRef spec1 2)).slice (win1_2.rect t)).set ↔ _
  rw [View.set_slice_whole, Rect.mem_set_unit]
  exact Iff.rfl

/-- Every index of the output array is in the block of the point its row falls to, `row / 5000`. -/
theorem covered (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  have hN : cfg1.N = 10 := rfl
  let t : Fin cfg1.N := ⟨(i 0).val / 5000, by rw [hN]; omega⟩
  obtain ⟨-, -, -, -, e0, e1⟩ := index_facts t
  have ht : t.val = (i 0).val / 5000 := rfl
  refine ⟨t, flush1_2 t, ?_⟩
  rw [mem_block]
  intro a
  match a with
  | ⟨0, _⟩ => show win1_2.index t 0 * 5000 ≤ (i 0).val ∧ (i 0).val < win1_2.index t 0 * 5000 + 5000; rw [e0, ht]; omega
  | ⟨1, _⟩ => show win1_2.index t 1 * 128 ≤ (i 1).val ∧ (i 1).val < win1_2.index t 1 * 128 + 128; rw [e1]; omega

/-- After the region, the layer's output array is the dense layer of the two operand arrays as the region found them. -/
theorem out_eq (c : Dev nD) :
    (dat (F := Ideal) V c).arrAt 2 cfg1.N = Cert.Net.dense (V c (Pipeline.arrRef spec1 0)) (V c (Pipeline.arrRef spec1 1)) :=
  (dat (F := Ideal) V c).arrAt_eq_of_cover 2
    (Cert.Net.dense (F := Ideal) (V c (Pipeline.arrRef spec1 0)) (V c (Pipeline.arrRef spec1 1)))
    (fun t _ => flushed_eq V c t) covered

end Cert.KernelIdeal.Layer1

end
-- ==== Proof.KernelIdeal.Layer2Value.lean ====
/-
  Dense layer 2 of the network, its value: after the region the layer's output array is the dense layer
  `max (rows · weights, 0)` of the two operand arrays as the region found them.

  Over the extended reals the change of format before the product is the identity, so what a point stores at row
  `r`, column `q` of its block is `max (∑ k, x (r, k) * w (k, q), 0)` of its two input blocks. Block row `r` of
  point `t` is array row `5000 t + r` and the weights' block is the whole matrix, so that entry is the dense layer
  of the whole arrays at `(5000 t + r, q)`: every point writes back its block of one whole-array function. Row `p`
  lies in the block of point `p / 5000`, so the ten blocks cover the array and it ends holding that function.
-/
import proofs.«112503_j81329500717447_1_alg».proof.Proof.KernelIdeal.Layer2
import proofs.«112503_j81329500717447_1_alg».proof.Proof.Net
import proofs.«112503_j81329500717447_1_alg».proof.Proof.LibPlainDot
import Idealize.ShloMosaic.Lib.Pipeline.Value
import Idealize.ShloMosaic.Lib.ValueIdx
import Idealize.ShloMosaic.PureOps.Ideal.Laws

set_option maxRecDepth 16384

noncomputable section

namespace Cert.KernelIdeal.Layer2

open Idealize.ShloMosaic Idealize.ShloMosaic.TcCoe Idealize.SL.Sem Idealize.ShloMosaic.ValueIdx
open Cert.KernelIdeal Cert.KernelIdeal.Gen

variable [Cert.ReferenceIdeal.Facts]

/-! ## The two products' dimension numbers are the plain ones -/

theorem blockDot_eq : dot_S5000x128_S128x128_S5000x128_1_0_0_1_n_n = DotDims.plain 5000 128 128 := rfl
theorem arrayDot_eq : Cert.ReferenceIdeal.dot_S50000x128_S128x128_S50000x128_1_0_0_1_n_n = DotDims.plain 50000 128 128 := rfl

/-! ## The dense layer and the stored block, entry by entry -/

/-- The dense layer of whole arrays at entry `(p, q)`: the row's product with the column, and zero, the larger. -/
theorem dense_apply (X : FVec Ideal ⟨2, ![50000, 128]⟩ .f32) (W : FVec Ideal ⟨2, ![128, 128]⟩ .f32) (p : Fin 50000) (q : Fin 128) :
    Cert.Net.dense (F := Ideal) X W (ix2 p q) = max (∑ k : Fin 128, X (ix2 p k) * W (ix2 k q)) (Ideal.ofBits .f32 0x00000000#32) := by
  unfold Cert.Net.dense
  rw [maximumf_apply, arrayDot_eq]
  exact congrArg (max · (Ideal.ofBits .f32 0x00000000#32)) (Cert.Lib.PlainDot.dotGeneral_apply none .single X W p q)

/-- What a point stores at entry `(r, q)` of its block, from its two input blocks: the same expression of the
    blocks (the two reshapes to the same shape change nothing, and the change of format before the product is the identity over the extended reals). -/
theorem stored_apply (xb : FVec Ideal ⟨2, ![5000, 128]⟩ .f32) (wb : FVec Ideal ⟨2, ![128, 128]⟩ .f32) (r : Fin 5000) (q : Fin 128) :
    k2_pay1 (F := Ideal) xb wb (ix2 r q) = max (∑ k : Fin 128, xb (ix2 r k) * wb (ix2 k q)) (Ideal.ofBits .f32 0x00000000#32) := by
  unfold k2_pay1
  rw [shapeCast_self, shapeCast_self, maximumf_apply, blockDot_eq]
  exact congrArg (max · (Ideal.ofBits .f32 0x00000000#32)) (Cert.Lib.PlainDot.matmul_zero_apply none xb wb r q)

/-- A stored block is its rows of the dense layer: if block row `r` of `xb` is row `5000 t + r` of `X` and the
    weights' block is `W`, the block's entry `j` is the dense layer's entry `i` whenever `i` is `j` moved down
    by `5000 t` rows. -/
theorem stored_eq_dense (X : FVec Ideal ⟨2, ![50000, 128]⟩ .f32) (W : FVec Ideal ⟨2, ![128, 128]⟩ .f32)
    (xb : FVec Ideal ⟨2, ![5000, 128]⟩ .f32) (wb : FVec Ideal ⟨2, ![128, 128]⟩ .f32) (t : Nat)
    (hx : ∀ (r : Fin 5000) (p : Fin 50000) (k : Fin 128), p.val = 5000 * t + r.val → xb (ix2 r k) = X (ix2 p k))
    (hw : wb = W)
    (j : (⟨2, ![5000, 128]⟩ : Shape).Idx) (i : (⟨2, ![50000, 128]⟩ : Shape).Idx)
    (h0 : (i 0).val = 5000 * t + (j 0).val) (h1 : (i 1).val = (j 1).val) :
    k2_pay1 (F := Ideal) xb wb j = Cert.Net.dense (F := Ideal) X W i := by
  obtain ⟨r, q, rfl⟩ : ∃ (r : Fin 5000) (q : Fin 128), j = ix2 r q := ⟨j 0, j 1, eq_ix2 j⟩
  obtain ⟨p, q', rfl⟩ : ∃ (p : Fin 50000) (q' : Fin 128), i = ix2 p q' := ⟨i 0, i 1, eq_ix2 i⟩
  obtain rfl : q' = q := Fin.ext h1
  subst hw
  rw [stored_apply, dense_apply]
  exact congrArg (max · (Ideal.ofBits .f32 0x00000000#32)) (Finset.sum_congr rfl fun k _ => by rw [hx r p k h0])

/-! ## From the blocks to the array -/

variable (V : (c : Dev nD) → (b : Ref sig .tc) → Buf (Elt Ideal) ((c : Thread nD τ).loc b))

theorem zero_offsets : (![0, 0] : Fin 2 → Nat) = fun _ => 0 := funext fun a => by fin_cases a <;> rfl

/-- The three windows' block indices at point `t`: the rows' and the output's blocks are block `t` along the rows,
    the weights' block is the one block of its array. -/
theorem index_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Row `r` of the rows' block at point `t` is row `5000 t + r` of the rows' array. -/
theorem rows_block (c : Dev nD) (t : Fin cfg2.N) (r : Fin 5000) (p : Fin 50000) (k : Fin 128) (hp : p.val = 5000 * t.val + r.val) :
    (blockAt V c 0 t : Vec Ideal S5000x128 .f32) (ix2 r k) = (V c (Pipeline.arrRef spec2 0) : S50000x128.Idx → EReal) (ix2 p k) := by
  obtain ⟨e0, e1, -⟩ := index_facts t
  unfold blockAt
  rw [View.read_apply]
  show V c (Pipeline.arrRef spec2 0) _ = V c (Pipeline.arrRef spec2 0) _
  congr 1
  funext a
  apply Fin.ext
  match a with
  | ⟨0, _⟩ => show win2_0.index t 0 * 5000 + 1 * r.val = p.val; rw [e0, hp]; omega
  | ⟨1, _⟩ => show win2_0.index t 1 * 128 + 1 * k.val = k.val; rw [e1]; omega

/-- The weights' block at any point is the whole weight matrix. -/
theorem weights_block (c : Dev nD) (t : Fin cfg2.N) :
    (blockAt V c 1 t : Vec Ideal S128x128 .f32) = (V c (Pipeline.arrRef spec2 1) : S128x128.Idx → EReal) := by
  obtain ⟨-, -, e0, e1, -⟩ := index_facts t
  funext y
  unfold blockAt
  rw [View.read_apply]
  show V c (Pipeline.arrRef spec2 1) _ = V c (Pipeline.arrRef spec2 1) y
  congr 1
  funext a
  apply Fin.ext
  match a with
  | ⟨0, _⟩ => show win2_1.index t 0 * 128 + 1 * (y 0).val = (y 0).val; rw [e0]; omega
  | ⟨1, _⟩ => show win2_1.index t 1 * 128 + 1 * (y 1).val = (y 1).val; rw [e1]; omega

/-- What point `t` writes back is its block of the dense layer of the two operand arrays. -/
theorem flushed_eq (c : Dev nD) (t : Fin cfg2.N) :
    (dat (F := Ideal) V c).flushed 2 t
      = ((cfg2.win 2).blk t).view.read (Elt Ideal)
          (Cert.Net.dense (F := Ideal) (V c (Pipeline.arrRef spec2 0)) (V c (Pipeline.arrRef spec2 1))) := by
  show (cfg2.win 2).cut (grid2.coords t) ((dat (F := Ideal) V c).after 2 t) = _
  rw [after_out]
  unfold stored
  rw [View.canon_unit_zero zero_offsets]
  simp only [View.ld_unit_zero (S := S5000x128) zero_offsets, View.ld_unit_zero (S := S128x128) zero_offsets]
  obtain ⟨-, -, -, -, e0, e1⟩ := index_facts t
  refine funext fun (j : S5000x128.Idx) => ?_
  show k2_pay1 (F := Ideal) (blockAt V c 0 t) (blockAt V c 1 t) j
    = Cert.Net.dense (F := Ideal) (V c (Pipeline.arrRef spec2 0)) (V c (Pipeline.arrRef spec2 1)) (((cfg2.win 2).blk t).view.emb j)
  refine stored_eq_dense (V c (Pipeline.arrRef spec2 0)) (V c (Pipeline.arrRef spec2 1)) (blockAt V c 0 t) (blockAt V c 1 t) t.val
    (fun r p k hp => rows_block V c t r p k hp) (weights_block V c t) j _ ?_ ?_
  · show win2_2.index t 0 * 5000 + 1 * (j 0).val = 5000 * t.val + (j 0).val; rw [e0]; omega
  · show win2_2.index t 1 * 128 + 1 * (j 1).val = (j 1).val; rw [e1]; omega

/-- An index of the output array is in point `t`'s block iff each coordinate is in the block's range on its axis. -/
theorem mem_block (t : Fin cfg2.N) (i : S50000x128.Idx) :
    i ∈ ((cfg2.win 2).blk t).view.set
      ↔ ∀ a : Fin 2, win2_2.index t a * S5000x128.size a ≤ (i a).val ∧ (i a).val < win2_2.index t a * S5000x128.size a + S5000x128.size a := by
  show i ∈ ((View.whole (Pipeline.arrRef spec2 2)).slice (win2_2.rect t)).set ↔ _
  rw [View.set_slice_whole, Rect.mem_set_unit]
  exact Iff.rfl

/-- Every index of the output array is in the block of the point its row falls to, `row / 5000`. -/
theorem covered (i : S50000x128.Idx) :
    ∃ t : Fin cfg2.N, (cfg2.win 2).flush t = true ∧ i ∈ ((cfg2.win 2).blk t).view.set := by
  have hi0 : (i 0).val < 50000 := (i 0).isLt
  have hi1 : (i 1).val < 128 := (i 1).isLt
  have hN : cfg2.N = 10 := rfl
  let t : Fin cfg2.N := ⟨(i 0).val / 5000, by rw [hN]; omega⟩
  obtain ⟨-, -, -, -, e0, e1⟩ := index_facts t
  have ht : t.val = (i 0).val / 5000 := rfl
  refine ⟨t, flush2_2 t, ?_⟩
  rw [mem_block]
  intro a
  match a with
  | ⟨0, _⟩ => show win2_2.index t 0 * 5000 ≤ (i 0).val ∧ (i 0).val < win2_2.index t 0 * 5000 + 5000; rw [e0, ht]; omega
  | ⟨1, _⟩ => show win2_2.index t 1 * 128 ≤ (i 1).val ∧ (i 1).val < win2_2.index t 1 * 128 + 128; rw [e1]; omega

/-- After the region, the layer's output array is the dense layer of the two operand arrays as the region found them. -/
theorem out_eq (c : Dev nD) :
    (dat (F := Ideal) V c).arrAt 2 cfg2.N = Cert.Net.dense (V c (Pipeline.arrRef spec2 0)) (V c (Pipeline.arrRef spec2 1)) :=
  (dat (F := Ideal) V c).arrAt_eq_of_cover 2
    (Cert.Net.dense (F := Ideal) (V c (Pipeline.arrRef spec2 0)) (V c (Pipeline.arrRef spec2 1)))
    (fun t _ => flushed_eq V c t) covered

end Cert.KernelIdeal.Layer2

end
-- ==== Proof.KernelIdeal.Layer3Value.lean ====
/-
  Dense layer 3 of the network, its value: after the region the layer's output array is the dense layer
  `max (rows · weights, 0)` of the two operand arrays as the region found them.

  Over the extended reals the change of format before the product is the identity, so what a point stores at row
  `r`, column `q` of its block is `max (∑ k, x (r, k) * w (k, q), 0)` of its two input blocks. Block row `r` of
  point `t` is array row `5000 t + r` and the weights' block is the whole matrix, so that entry is the dense layer
  of the whole arrays at `(5000 t + r, q)`: every point writes back its block of one whole-array function. Row `p`
  lies in the block of point `p / 5000`, so the ten blocks cover the array and it ends holding that function.
-/
import proofs.«112503_j81329500717447_1_alg».proof.Proof.KernelIdeal.Layer3
import proofs.«112503_j81329500717447_1_alg».proof.Proof.Net
import proofs.«112503_j81329500717447_1_alg».proof.Proof.LibPlainDot
import Idealize.ShloMosaic.Lib.Pipeline.Value
import Idealize.ShloMosaic.Lib.ValueIdx
import Idealize.ShloMosaic.PureOps.Ideal.Laws

set_option maxRecDepth 16384

noncomputable section

namespace Cert.KernelIdeal.Layer3

open Idealize.ShloMosaic Idealize.ShloMosaic.TcCoe Idealize.SL.Sem Idealize.ShloMosaic.ValueIdx
open Cert.KernelIdeal Cert.KernelIdeal.Gen

variable [Cert.ReferenceIdeal.Facts]

/-! ## The two products' dimension numbers are the plain ones -/

theorem blockDot_eq : dot_S5000x128_S128x128_S5000x128_1_0_0_1_n_n = DotDims.plain 5000 128 128 := rfl
theorem arrayDot_eq : Cert.ReferenceIdeal.dot_S50000x128_S128x128_S50000x128_1_0_0_1_n_n = DotDims.plain 50000 128 128 := rfl

/-! ## The dense layer and the stored block, entry by entry -/

/-- The dense layer of whole arrays at entry `(p, q)`: the row's product with the column, and zero, the larger. -/
theorem dense_apply (X : FVec Ideal ⟨2, ![50000, 128]⟩ .f32) (W : FVec Ideal ⟨2, ![128, 128]⟩ .f32) (p : Fin 50000) (q : Fin 128) :
    Cert.Net.dense (F := Ideal) X W (ix2 p q) = max (∑ k : Fin 128, X (ix2 p k) * W (ix2 k q)) (Ideal.ofBits .f32 0x00000000#32) := by
  unfold Cert.Net.dense
  rw [maximumf_apply, arrayDot_eq]
  exact congrArg (max · (Ideal.ofBits .f32 0x00000000#32)) (Cert.Lib.PlainDot.dotGeneral_apply none .single X W p q)

/-- What a point stores at entry `(r, q)` of its block, from its two input blocks: the same expression of the
    blocks (the two reshapes to the same shape change nothing, and the change of format before the product is the identity over the extended reals). -/
theorem stored_apply (xb : FVec Ideal ⟨2, ![5000, 128]⟩ .f32) (wb : FVec Ideal ⟨2, ![128, 128]⟩ .f32) (r : Fin 5000) (q : Fin 128) :
    k3_pay1 (F := Ideal) xb wb (ix2 r q) = max (∑ k : Fin 128, xb (ix2 r k) * wb (ix2 k q)) (Ideal.ofBits .f32 0x00000000#32) := by
  unfold k3_pay1
  rw [shapeCast_self, shapeCast_self, maximumf_apply, blockDot_eq]
  exact congrArg (max · (Ideal.ofBits .f32 0x00000000#32)) (Cert.Lib.PlainDot.matmul_zero_apply none xb wb r q)

/-- A stored block is its rows of the dense layer: if block row `r` of `xb` is row `5000 t + r` of `X` and the
    weights' block is `W`, the block's entry `j` is the dense layer's entry `i` whenever `i` is `j` moved down
    by `5000 t` rows. -/
theorem stored_eq_dense (X : FVec Ideal ⟨2, ![50000, 128]⟩ .f32) (W : FVec Ideal ⟨2, ![128, 128]⟩ .f32)
    (xb : FVec Ideal ⟨2, ![5000, 128]⟩ .f32) (wb : FVec Ideal ⟨2, ![128, 128]⟩ .f32) (t : Nat)
    (hx : ∀ (r : Fin 5000) (p : Fin 50000) (k : Fin 128), p.val = 5000 * t + r.val → xb (ix2 r k) = X (ix2 p k))
    (hw : wb = W)
    (j : (⟨2, ![5000, 128]⟩ : Shape).Idx) (i : (⟨2, ![50000, 128]⟩ : Shape).Idx)
    (h0 : (i 0).val = 5000 * t + (j 0).val) (h1 : (i 1).val = (j 1).val) :
    k3_pay1 (F := Ideal) xb wb j = Cert.Net.dense (F := Ideal) X W i := by
  obtain ⟨r, q, rfl⟩ : ∃ (r : Fin 5000) (q : Fin 128), j = ix2 r q := ⟨j 0, j 1, eq_ix2 j⟩
  obtain ⟨p, q', rfl⟩ : ∃ (p : Fin 50000) (q' : Fin 128), i = ix2 p q' := ⟨i 0, i 1, eq_ix2 i⟩
  obtain rfl : q' = q := Fin.ext h1
  subst hw
  rw [stored_apply, dense_apply]
  exact congrArg (max · (Ideal.ofBits .f32 0x00000000#32)) (Finset.sum_congr rfl fun k _ => by rw [hx r p k h0])

/-! ## From the blocks to the array -/

variable (V : (c : Dev nD) → (b : Ref sig .tc) → Buf (Elt Ideal) ((c : Thread nD τ).loc b))

theorem zero_offsets : (![0, 0] : Fin 2 → Nat) = fun _ => 0 := funext fun a => by fin_cases a <;> rfl

/-- The three windows' block indices at point `t`: the rows' and the output's blocks are block `t` along the rows,
    the weights' block is the one block of its array. -/
theorem index_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Row `r` of the rows' block at point `t` is row `5000 t + r` of the rows' array. -/
theorem rows_block (c : Dev nD) (t : Fin cfg3.N) (r : Fin 5000) (p : Fin 50000) (k : Fin 128) (hp : p.val = 5000 * t.val + r.val) :
    (blockAt V c 0 t : Vec Ideal S5000x128 .f32) (ix2 r k) = (V c (Pipeline.arrRef spec3 0) : S50000x128.Idx → EReal) (ix2 p k) := by
  obtain ⟨e0, e1, -⟩ := index_facts t
  unfold blockAt
  rw [View.read_apply]
  show V c (Pipeline.arrRef spec3 0) _ = V c (Pipeline.arrRef spec3 0) _
  congr 1
  funext a
  apply Fin.ext
  match a with
  | ⟨0, _⟩ => show win3_0.index t 0 * 5000 + 1 * r.val = p.val; rw [e0, hp]; omega
  | ⟨1, _⟩ => show win3_0.index t 1 * 128 + 1 * k.val = k.val; rw [e1]; omega

/-- The weights' block at any point is the whole weight matrix. -/
theorem weights_block (c : Dev nD) (t : Fin cfg3.N) :
    (blockAt V c 1 t : Vec Ideal S128x128 .f32) = (V c (Pipeline.arrRef spec3 1) : S128x128.Idx → EReal) := by
  obtain ⟨-, -, e0, e1, -⟩ := index_facts t
  funext y
  unfold blockAt
  rw [View.read_apply]
  show V c (Pipeline.arrRef spec3 1) _ = V c (Pipeline.arrRef spec3 1) y
  congr 1
  funext a
  apply Fin.ext
  match a with
  | ⟨0, _⟩ => show win3_1.index t 0 * 128 + 1 * (y 0).val = (y 0).val; rw [e0]; omega
  | ⟨1, _⟩ => show win3_1.index t 1 * 128 + 1 * (y 1).val = (y 1).val; rw [e1]; omega

/-- What point `t` writes back is its block of the dense layer of the two operand arrays. -/
theorem flushed_eq (c : Dev nD) (t : Fin cfg3.N) :
    (dat (F := Ideal) V c).flushed 2 t
      = ((cfg3.win 2).blk t).view.read (Elt Ideal)
          (Cert.Net.dense (F := Ideal) (V c (Pipeline.arrRef spec3 0)) (V c (Pipeline.arrRef spec3 1))) := by
  show (cfg3.win 2).cut (grid3.coords t) ((dat (F := Ideal) V c).after 2 t) = _
  rw [after_out]
  unfold stored
  rw [View.canon_unit_zero zero_offsets]
  simp only [View.ld_unit_zero (S := S5000x128) zero_offsets, View.ld_unit_zero (S := S128x128) zero_offsets]
  obtain ⟨-, -, -, -, e0, e1⟩ := index_facts t
  refine funext fun (j : S5000x128.Idx) => ?_
  show k3_pay1 (F := Ideal) (blockAt V c 0 t) (blockAt V c 1 t) j
    = Cert.Net.dense (F := Ideal) (V c (Pipeline.arrRef spec3 0)) (V c (Pipeline.arrRef spec3 1)) (((cfg3.win 2).blk t).view.emb j)
  refine stored_eq_dense (V c (Pipeline.arrRef spec3 0)) (V c (Pipeline.arrRef spec3 1)) (blockAt V c 0 t) (blockAt V c 1 t) t.val
    (fun r p k hp => rows_block V c t r p k hp) (weights_block V c t) j _ ?_ ?_
  · show win3_2.index t 0 * 5000 + 1 * (j 0).val = 5000 * t.val + (j 0).val; rw [e0]; omega
  · show win3_2.index t 1 * 128 + 1 * (j 1).val = (j 1).val; rw [e1]; omega

/-- An index of the output array is in point `t`'s block iff each coordinate is in the block's range on its axis. -/
theorem mem_block (t : Fin cfg3.N) (i : S50000x128.Idx) :
    i ∈ ((cfg3.win 2).blk t).view.set
      ↔ ∀ a : Fin 2, win3_2.index t a * S5000x128.size a ≤ (i a).val ∧ (i a).val < win3_2.index t a * S5000x128.size a + S5000x128.size a := by
  show i ∈ ((View.whole (Pipeline.arrRef spec3 2)).slice (win3_2.rect t)).set ↔ _
  rw [View.set_slice_whole, Rect.mem_set_unit]
  exact Iff.rfl

/-- Every index of the output array is in the block of the point its row falls to, `row / 5000`. -/
theorem covered (i : S50000x128.Idx) :
    ∃ t : Fin cfg3.N, (cfg3.win 2).flush t = true ∧ i ∈ ((cfg3.win 2).blk t).view.set := by
  have hi0 : (i 0).val < 50000 := (i 0).isLt
  have hi1 : (i 1).val < 128 := (i 1).isLt
  have hN : cfg3.N = 10 := rfl
  let t : Fin cfg3.N := ⟨(i 0).val / 5000, by rw [hN]; omega⟩
  obtain ⟨-, -, -, -, e0, e1⟩ := index_facts t
  have ht : t.val = (i 0).val / 5000 := rfl
  refine ⟨t, flush3_2 t, ?_⟩
  rw [mem_block]
  intro a
  match a with
  | ⟨0, _⟩ => show win3_2.index t 0 * 5000 ≤ (i 0).val ∧ (i 0).val < win3_2.index t 0 * 5000 + 5000; rw [e0, ht]; omega
  | ⟨1, _⟩ => show win3_2.index t 1 * 128 ≤ (i 1).val ∧ (i 1).val < win3_2.index t 1 * 128 + 128; rw [e1]; omega

/-- After the region, the layer's output array is the dense layer of the two operand arrays as the region found them. -/
theorem out_eq (c : Dev nD) :
    (dat (F := Ideal) V c).arrAt 2 cfg3.N = Cert.Net.dense (V c (Pipeline.arrRef spec3 0)) (V c (Pipeline.arrRef spec3 1)) :=
  (dat (F := Ideal) V c).arrAt_eq_of_cover 2
    (Cert.Net.dense (F := Ideal) (V c (Pipeline.arrRef spec3 0)) (V c (Pipeline.arrRef spec3 1)))
    (fun t _ => flushed_eq V c t) covered

end Cert.KernelIdeal.Layer3

end
-- ==== Proof.KernelIdeal.Value.lean ====
/-
  The kernel program computes the network over the plain dense layer.

  At the exact instance each region leaves in its layer's output array the dense layer of its two operand arrays, as
  it found them; between the regions the host operations form the mean of the previous layer's output over the
  incoming edges and slice the next layer's weights out of the stack; the last stretch sets the four layers' outputs
  side by side. Chained from the launch memory: the first layer is the dense layer of the features and the first
  weights, each later one the dense layer of the mean of the one before and its own weights, and the result is the
  network over `dense` of the five inputs.
-/
import proofs.«112503_j81329500717447_1_alg».proof.Proof.KernelIdeal.Chain
import proofs.«112503_j81329500717447_1_alg».proof.Proof.KernelIdeal.Layer0Value
import proofs.«112503_j81329500717447_1_alg».proof.Proof.KernelIdeal.Layer1Value
import proofs.«112503_j81329500717447_1_alg».proof.Proof.KernelIdeal.Layer2Value
import proofs.«112503_j81329500717447_1_alg».proof.Proof.KernelIdeal.Layer3Value

set_option maxRecDepth 16384

noncomputable section

namespace Cert.KernelIdeal.Value

open Idealize.ShloMosaic Idealize.ShloMosaic.TcCoe Idealize.SL.Sem
open Cert.KernelIdeal Cert.KernelIdeal.Gen Cert.KernelIdeal.Between

variable [Cert.ReferenceIdeal.Facts]
variable (m : (ℓ : Loc nD τ sig) → Buf (Elt Ideal) ℓ)

/-- Layer 0's output: the dense layer of the features and the first weights. -/
theorem layer0 (c : Dev nD) :
    X1 m c main_v0 = Cert.Net.dense (m ((c.tc : Thread nD τ).loc main_arg0)) (m ((c.tc : Thread nD τ).loc main_arg3)) := by
  show Function.update (V0 m c) (Proc.devRef .tc main_v0 : DevRef τ sig) (out0 m c) (Proc.devRef .tc main_v0) = _
  rw [Function.update_self]
  exact Layer0.out_eq (atTc (V0 m)) c

/-- Layer 1's output: the dense layer of the mean of layer 0's output and the first slice of the weights. -/
theorem layer1 (c : Dev nD) :
    X3 m c main_v24 = Cert.Net.dense (X2 m c main_v21) (X2 m c main_v23) := by
  show Function.update (X2 m c) (Proc.devRef .tc main_v24 : DevRef τ sig) (out1 m c) (Proc.devRef .tc main_v24) = _
  rw [Function.update_self]
  exact Layer1.out_eq (atTc (X2 m)) c

theorem layer2 (c : Dev nD) :
    X5 m c main_v40 = Cert.Net.dense (X4 m c main_v37) (X4 m c main_v39) := by
  show Function.update (X4 m c) (Proc.devRef .tc main_v40 : DevRef τ sig) (out2 m c) (Proc.devRef .tc main_v40) = _
  rw [Function.update_self]
  exact Layer2.out_eq (atTc (X4 m)) c

theorem layer3 (c : Dev nD) :
    X7 m c main_v56 = Cert.Net.dense (X6 m c main_v53) (X6 m c main_v55) := by
  show Function.update (X6 m c) (Proc.devRef .tc main_v56 : DevRef τ sig) (out3 m c) (Proc.devRef .tc main_v56) = _
  rw [Function.update_self]
  exact Layer3.out_eq (atTc (X6 m)) c

/-- The result buffer at the end of the run is the network over the plain dense layer, of the five inputs. -/
theorem kernel_is_net (c : Dev nD) :
    X8 m c main_v57
      = Cert.Net.net Cert.Net.dense (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) := by
  rw [Chain.result, layer3, Chain.mean3, Chain.weights3, layer2, Chain.mean2, Chain.weights2, layer1, Chain.mean1, Chain.weights1, layer0]
  rfl

end Cert.KernelIdeal.Value

end
-- ==== Proof.RefNet.lean ====
/-
  The plain program computes the network over `dense`: its result, as its run states it, is `net dense` of the five
  inputs. Both are the same composition of the same operations, so the definitions unfold to one term.
-/
import proofs.«112503_j81329500717447_1_alg».proof.Proof.Net
import proofs.«112503_j81329500717447_1_alg».proof.Proof.Gen.ReferenceIdeal.Run

noncomputable section

namespace Cert.Net

open Idealize.ShloMosaic Idealize.ShloMosaic.TcCoe Idealize.SL.Sem Cert.ReferenceIdeal

variable {F : FTy → Type} [FloatOps F] [Cert.ReferenceIdeal.Facts]
open Cert.ReferenceIdeal.Facts₀ Cert.ReferenceIdeal.Facts

set_option maxRecDepth 16384 in
/-- The reference's result is the network over the plain dense layer. -/
theorem reference_is_net (m : (ℓ : Loc nD τ sig) → Buf (Elt F) ℓ) (c : Dev nD) :
    Cert.ReferenceIdeal.Value.res_main_v61 m c
      = net dense (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) := by
  unfold Cert.ReferenceIdeal.Value.res_main_v61 net beside dense mean invDeg weights1 weights2 weights3
  rfl

end Cert.Net

end
-- ==== Proof.lean ====
/-
  A four-layer graph network computed two ways.

  The model: `h₀ = max (feat · W₀, 0)`, then for `l = 1, 2, 3` the mean of `h_{l-1}`'s rows over each node's incoming
  edges (gathered by the edges' sources, added up by their targets, scaled by `1 / max (in-degree, 1)`) times the
  `l`-th slice of the stacked weights, again cut off at zero; the result is `h₀ … h₃` side by side. The kernel program
  runs each dense layer `h ↦ max (h · W, 0)` as a kernel region over ten blocks of 5000 rows, its operands cast to a
  narrower format on the way into the matrix unit, and everything else by host operations; the plain program runs the
  dense layers as host products too.

  * The frames. The kernel program, at the word level and at the exact instance, is four regions among host stretches;
    each region's body loads its two input blocks, stores one whole output block and touches nothing else, so the
    program runs to its end and no item writes an input (`Whole.frame`, one text read at both instances). The plain
    program is host operations only, and its frame is its run with the result dropped.
  * The idealization rewrote nothing, so there is nothing to preserve.
  * The values. At the exact instance a change of float format is the identity, the matrix unit's product into a zero
    accumulator and the host's product are the same sum over the contracted axis, and sums of extended reals may be
    taken in any order; so each region leaves `dense` of its operand arrays in its output array, entry by entry
    (`out_eq`). The aggregation, the scaling, the weight slices and the concatenation are the same host operations
    in both programs, so both results are the network over `dense` of the five inputs (`kernel_is_net`,
    `reference_is_net`), and inputs that agree give equal results. No property of the inputs is used.
-/
import proofs.«112503_j81329500717447_1_alg».proof.Defs
import proofs.«112503_j81329500717447_1_alg».proof.Proof.Gen.Kernel
import proofs.«112503_j81329500717447_1_alg».proof.Proof.Gen.KernelIdeal
import proofs.«112503_j81329500717447_1_alg».proof.Proof.Gen.ReferenceIdeal
import proofs.«112503_j81329500717447_1_alg».proof.Proof.Gen.ReferenceIdeal.Run
import proofs.«112503_j81329500717447_1_alg».proof.Proof.Gen.ReferenceIdeal.Read
import proofs.«112503_j81329500717447_1_alg».proof.Proof.Gen.Pre_finite_inputs
import proofs.«112503_j81329500717447_1_alg».proof.Proof.Kernel.Whole
import proofs.«112503_j81329500717447_1_alg».proof.Proof.KernelIdeal.Whole
import proofs.«112503_j81329500717447_1_alg».proof.Proof.KernelIdeal.Value
import proofs.«112503_j81329500717447_1_alg».proof.Proof.RefNet
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Whole.frame m ρ
theorem frame_kernel_ideal : Cert.frame_KernelIdeal := fun m ρ _ => Cert.KernelIdeal.Whole.frame m ρ
/-- The plain program's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the five inputs both programs end with the network over the plain dense layer, of
    those inputs, in their result buffers. -/
theorem algebraic : Cert.algebraic_KernelIdeal_ReferenceIdeal := by
  intro m ρ m' ρ' _ hagree
  refine ⟨fun c => Cert.Net.net Cert.Net.dense (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono
      (fun _ h c => ⟨(h c).1.trans (Cert.KernelIdeal.Value.kernel_is_net m c), (h c).2⟩)
      (Cert.KernelIdeal.Whole.run (F := Ideal) m ρ)
  · refine (θ_run Cert.ReferenceIdeal.defs _ _).mono (fun _ h c => ⟨(h c).1.trans ?_, (h c).2⟩)
      (Cert.ReferenceIdeal.Value.run (F := Ideal) m' ρ')
    rw [Cert.Net.reference_is_net, (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
